-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x64x512 : Shape := ⟨4, ![2, 64, 64, 512]⟩
abbrev S512 : Shape := ⟨1, ![512]⟩
abbrev S512x512 : Shape := ⟨2, ![512, 512]⟩
abbrev S_ : Shape := ⟨0, ![]⟩

class Facts : Prop where
  bcast_S_S2x64x64x512 : S_.BroadcastsInDim S2x64x64x512 (![] : Fin 0 → Fin S2x64x64x512.rank)
  reducesTo_S2x64x64x512_S_d0_1_2_3 : S2x64x64x512.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x64x64x512 .f32) (main_arg1 : FVec F S512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S2x64x64x512 .f32 := Host.absf main_arg0
  let main_cst : FVec F S_ .f32 := constant S_ .f32 0x7F800000#32
  let main_v1 : FVec F S2x64x64x512 .f32 := broadcastInDim S2x64x64x512 ![] bcast_S_S2x64x64x512 main_cst
  let main_v2 : IVec S2x64x64x512 1 := cmpf .olt main_v0 main_v1
  let main_c : IVec S_ 1 := constantI S_ 1 1#1
  let main_v3 : IVec S_ 1 := (fun x v => Host.reduce IntOp.andi x v reducesTo_S2x64x64x512_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S2x64x64x512 : Shape := ⟨4, ![2, 64, 64, 512]⟩
abbrev S512 : Shape := ⟨1, ![512]⟩
abbrev S512x512 : Shape := ⟨2, ![512, 512]⟩
abbrev S2x64x64x32x16 : Shape := ⟨5, ![2, 64, 64, 32, 16]⟩
abbrev S_ : Shape := ⟨0, ![]⟩
abbrev S2x32 : Shape := ⟨2, ![2, 32]⟩
abbrev S2x1x1x32x1 : Shape := ⟨5, ![2, 1, 1, 32, 1]⟩
abbrev S2x32x16 : Shape := ⟨3, ![2, 32, 16]⟩
abbrev S2x512 : Shape := ⟨2, ![2, 512]⟩
abbrev S1x512 : Shape := ⟨2, ![1, 512]⟩
abbrev S2x1x512 : Shape := ⟨3, ![2, 1, 512]⟩
abbrev S2x4096x512 : Shape := ⟨3, ![2, 4096, 512]⟩
abbrev S512x1536 : Shape := ⟨2, ![512, 1536]⟩
abbrev S1536 : Shape := ⟨1, ![1536]⟩
abbrev S1x1536 : Shape := ⟨2, ![1, 1536]⟩
abbrev S1x1024x512 : Shape := ⟨3, ![1, 1024, 512]⟩
abbrev S1x1x512 : Shape := ⟨3, ![1, 1, 512]⟩
abbrev S1024x512 : Shape := ⟨2, ![1024, 512]⟩
abbrev S1024x1536 : Shape := ⟨2, ![1024, 1536]⟩
abbrev S1x256x512 : Shape := ⟨3, ![1, 256, 512]⟩
abbrev S1x4096x512 : Shape := ⟨3, ![1, 4096, 512]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩

abbrev nBuf : Space → Nat
  | .hbm => 78
  | .vmem => 26
  | .smem => 0
  | _ => 0

abbrev bufTy : (tb : Table) → Fin (tcTables nBuf tb) → BufTy
  | .hbm, ⟨0, _⟩ => ⟨S2x64x64x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2x64x64x32x16, .f32⟩
  | .hbm, ⟨12, _⟩ => ⟨S_, .f32⟩
  | .hbm, ⟨13, _⟩ => ⟨S2x32, .f32⟩
  | .hbm, ⟨14, _⟩ => ⟨S_, .f32⟩
  | .hbm, ⟨15, _⟩ => ⟨S2x32, .f32⟩
  | .hbm, ⟨16, _⟩ => ⟨S2x32, .f32⟩
  | .hbm, ⟨17, _⟩ => ⟨S_, .i32⟩
  | .hbm, ⟨18, _⟩ => ⟨S_, .f32⟩
  | .hbm, ⟨19, _⟩ => ⟨S2x32, .f32⟩
  | .hbm, ⟨20, _⟩ => ⟨S2x1x1x32x1, .f32⟩
  | .hbm, ⟨21, _⟩ => ⟨S_, .f32⟩
  | .hbm, ⟨22, _⟩ => ⟨S2x1x1x32x1, .f32⟩
  | .hbm, ⟨23, _⟩ => ⟨S2x1x1x32x1, .f32⟩
  | .hbm, ⟨24, _⟩ => ⟨S2x64x64x32x16, .f32⟩
  | .hbm, ⟨25, _⟩ => ⟨S2x64x64x32x16, .f32⟩
  | .hbm, ⟨26, _⟩ => ⟨S2x64x64x32x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S2x32, .f32⟩
  | .hbm, ⟨39, _⟩ => ⟨S2x32, .f32⟩
  | .hbm, ⟨40, _⟩ => ⟨S_, .f32⟩
  | .hbm, ⟨41, _⟩ => ⟨S2x32, .f32⟩
  | .hbm, ⟨42, _⟩ => ⟨S2x32, .f32⟩
  | .hbm, ⟨43, _⟩ => ⟨S2x32, .f32⟩
  | .hbm, ⟨44, _⟩ => ⟨S2x32x16, .f32⟩
  | .hbm, ⟨45, _⟩ => ⟨S2x512, .f32⟩
  | .hbm, ⟨46, _⟩ => ⟨S2x32x16, .f32⟩
  | .hbm, ⟨47, _⟩ => ⟨S2x512, .f32⟩
  | .hbm, ⟨48, _⟩ => ⟨S1x512, .f32⟩
  | .hbm, ⟨49, _⟩ => ⟨S2x512, .f32⟩
  | .hbm, ⟨50, _⟩ => ⟨S2x512, .f32⟩
  | .hbm, ⟨51, _⟩ => ⟨S1x512, .f32⟩
  | .hbm, ⟨52, _⟩ => ⟨S2x512, .f32⟩
  | .hbm, ⟨53, _⟩ => ⟨S1x512, .f32⟩
  | .hbm, ⟨54, _⟩ => ⟨S2x512, .f32⟩
  | .hbm, ⟨55, _⟩ => ⟨S2x512, .f32⟩
  | .hbm, ⟨56, _⟩ => ⟨S2x512, .f32⟩
  | .hbm, ⟨57, _⟩ => ⟨S2x512, .f32⟩
  | .hbm, ⟨58, _⟩ => ⟨S2x1x512, .f32⟩
  | .hbm, ⟨59, _⟩ => ⟨S2x1x512, .f32⟩
  | .hbm, ⟨60, _⟩ => ⟨S2x4096x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512x1536, .f32⟩
  | .hbm, ⟨68, _⟩ => ⟨S1536, .f32⟩
  | .hbm, ⟨69, _⟩ => ⟨S512x1536, .bf16⟩
  | .hbm, ⟨70, _⟩ => ⟨S1x1536, .f32⟩
  | .hbm, ⟨71, _⟩ => ⟨S512x512, .bf16⟩
  | .hbm, ⟨72, _⟩ => ⟨S1x512, .f32⟩
  | .hbm, ⟨73, _⟩ => ⟨S2x4096x512, .bf16⟩
  | .hbm, ⟨74, _⟩ => ⟨S2x4096x512, .bf16⟩
  | .hbm, ⟨75, _⟩ => ⟨S2x4096x512, .bf16⟩
  | .hbm, ⟨76, _⟩ => ⟨S2x4096x512, .f32⟩
  | .hbm, ⟨77, _⟩ => ⟨S2x64x64x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x1536, .bf16⟩
  | .local _ .vmem, ⟨7, _⟩ => ⟨S1x1536, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S1x256x512, .f32⟩
  | .local _ .vmem, ⟨21, _⟩ => ⟨S1x256x512, .f32⟩
  | .local _ .vmem, ⟨22, _⟩ => ⟨S512x512, .bf16⟩
  | .local _ .vmem, ⟨23, _⟩ => ⟨S1x512, .f32⟩
  | .local _ .vmem, ⟨24, _⟩ => ⟨S1x256x512, .f32⟩
  | .local _ .vmem, ⟨25, _⟩ => ⟨S1x256x512, .f32⟩
  | _, _ => ⟨S2x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35_0 : Ref sig .tc := ⟨.hbm, 73, rfl⟩
abbrev main_v35_1 : Ref sig .tc := ⟨.hbm, 74, rfl⟩
abbrev main_v35_2 : Ref sig .tc := ⟨.hbm, 75, rfl⟩
abbrev main_v36 : Ref sig .tc := ⟨.hbm, 76, rfl⟩
abbrev main_v37 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2x64x64x512_S2x64x64x32x16 : S2x64x64x512.ShapeCasts S2x64x64x32x16
  reducesTo_S2x64x64x32x16_S2x32_d1_2_4 : S2x64x64x32x16.ReducesTo [1, 2, 4] S2x32
  h_S_ : 0 < S_.numel
  bcast_S_S2x32 : S_.BroadcastsInDim S2x32 (![] : Fin 0 → Fin S2x32.rank)
  bcast_S2x32_S2x1x1x32x1_0_3 : S2x32.BroadcastsInDim S2x1x1x32x1 (![0, 3] : Fin 2 → Fin S2x1x1x32x1.rank)
  bcast_S_S2x1x1x32x1 : S_.BroadcastsInDim S2x1x1x32x1 (![] : Fin 0 → Fin S2x1x1x32x1.rank)
  bcast_S2x1x1x32x1_S2x64x64x32x16_0_1_2_3_4 : S2x1x1x32x1.BroadcastsInDim S2x64x64x32x16 (![0, 1, 2, 3, 4] : Fin 5 → Fin S2x64x64x32x16.rank)
  bcast_S2x32_S2x32x16_0_1 : S2x32.BroadcastsInDim S2x32x16 (![0, 1] : Fin 2 → Fin S2x32x16.rank)
  shapeCasts_S2x32x16_S2x512 : S2x32x16.ShapeCasts S2x512
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  shapeCasts_S2x512_S2x1x512 : S2x512.ShapeCasts S2x1x512
  shapeCasts_S2x64x64x512_S2x4096x512 : S2x64x64x512.ShapeCasts S2x4096x512
  bcast_S_S512x512 : S_.BroadcastsInDim S512x512 (![] : Fin 0 → Fin S512x512.rank)
  bcast_S_S512 : S_.BroadcastsInDim S512 (![] : Fin 0 → Fin S512.rank)
  concatenates_S512x512_S512x512_S512x512_S512x1536_d1 : Shape.Concatenates [S512x512, S512x512, S512x512] S512x1536 1
  concatenates_S512_S512_S512_S1536_d0 : Shape.Concatenates [S512, S512, S512] S1536 0
  bitsLt_bf16_f32 : FTy.bits .bf16 < FTy.bits .f32
  shapeCasts_S1536_S1x1536 : S1536.ShapeCasts S1x1536
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  slices_S1024x1536_o0_512_S1024x512 : S1024x1536.Slices ![0, 512] S1024x512
  slices_S1024x1536_o0_1024_S1024x512 : S1024x1536.Slices ![0, 1024] S1024x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S256x4096_S256 : S256x4096.Reduces [1] S256
  shapeCasts_S256_S256x1 : S256.ShapeCasts S256x1
  broadcasts_S256x1_S256x4096 : S256x1.Broadcasts S256x4096
  broadcasts_S256x1_S256x512 : S256x1.Broadcasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S1x256x512 : S256x512.ShapeCasts S1x256x512
  shapeCasts_S2x4096x512_S2x64x64x512 : S2x4096x512.ShapeCasts S2x64x64x512
  dot_S1024x512_S512x1536_S1024x1536_1_0_0_1_n_n_wf : DotDims.WF S1024x512 S512x1536 S1024x1536 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x4096x512.size a
  hwx0_0 : ∀ i : grid0.Coords, EltTy.bits .f32 = 32 ∨ (Rect.block (s := S2x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .f32 = 32 ∨ (Rect.block (s := S2x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S2x4096x512.size a
  hwx0_5 : ∀ i : grid0.Coords, EltTy.bits .bf16 = 32 ∨ (Rect.block (s := S2x4096x512) S1x1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S2x4096x512.size a
  hwx0_6 : ∀ i : grid0.Coords, EltTy.bits .bf16 = 32 ∨ (Rect.block (s := S2x4096x512) S1x1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S2x4096x512.size a
  hwx0_7 : ∀ i : grid0.Coords, EltTy.bits .bf16 = 32 ∨ (Rect.block (s := S2x4096x512) S1x1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x4096x512.size a
  hwx1_0 : ∀ i : grid1.Coords, EltTy.bits .bf16 = 32 ∨ (Rect.block (s := S2x4096x512) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S2x4096x512.size a
  hwx1_1 : ∀ i : grid1.Coords, EltTy.bits .bf16 = 32 ∨ (Rect.block (s := S2x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x512.size a ≤ S2x4096x512.size a
  hwx1_2 : ∀ i : grid1.Coords, EltTy.bits .bf16 = 32 ∨ (Rect.block (s := S2x4096x512) S1x4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x512.size a ≤ S2x4096x512.size a
  hwx1_3 : ∀ i : grid1.Coords, EltTy.bits .f32 = 32 ∨ (Rect.block (s := S2x4096x512) S1x256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S2x4096x512.size a
  hwx1_6 : ∀ i : grid1.Coords, EltTy.bits .f32 = 32 ∨ (Rect.block (s := S2x4096x512) S1x256x512.size (cc1_transform_6 i) (hinb1_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v24) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35_1) S1x1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v35_2) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35_1) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35_2) S1x4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x64x64x512 : Shape := ⟨4, ![2, 64, 64, 512]⟩
abbrev S512 : Shape := ⟨1, ![512]⟩
abbrev S512x512 : Shape := ⟨2, ![512, 512]⟩
abbrev S2x64x64x32x16 : Shape := ⟨5, ![2, 64, 64, 32, 16]⟩
abbrev S_ : Shape := ⟨0, ![]⟩
abbrev S2x32 : Shape := ⟨2, ![2, 32]⟩
abbrev S2x1x1x32x1 : Shape := ⟨5, ![2, 1, 1, 32, 1]⟩
abbrev S1x1x1x512 : Shape := ⟨4, ![1, 1, 1, 512]⟩
abbrev S2x4096x512 : Shape := ⟨3, ![2, 4096, 512]⟩
abbrev S2x4096x4096 : Shape := ⟨3, ![2, 4096, 4096]⟩
abbrev S2x4096 : Shape := ⟨2, ![2, 4096]⟩
abbrev S2x4096x1 : Shape := ⟨3, ![2, 4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S2x64x64x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2x64x64x32x16, .f32⟩
  | .hbm, ⟨12, _⟩ => ⟨S_, .f32⟩
  | .hbm, ⟨13, _⟩ => ⟨S2x32, .f32⟩
  | .hbm, ⟨14, _⟩ => ⟨S2x1x1x32x1, .f32⟩
  | .hbm, ⟨15, _⟩ => ⟨S_, .f32⟩
  | .hbm, ⟨16, _⟩ => ⟨S2x1x1x32x1, .f32⟩
  | .hbm, ⟨17, _⟩ => ⟨S2x1x1x32x1, .f32⟩
  | .hbm, ⟨18, _⟩ => ⟨S_, .i32⟩
  | .hbm, ⟨19, _⟩ => ⟨S_, .f32⟩
  | .hbm, ⟨20, _⟩ => ⟨S2x32, .f32⟩
  | .hbm, ⟨21, _⟩ => ⟨S2x1x1x32x1, .f32⟩
  | .hbm, ⟨22, _⟩ => ⟨S_, .f32⟩
  | .hbm, ⟨23, _⟩ => ⟨S2x1x1x32x1, .f32⟩
  | .hbm, ⟨24, _⟩ => ⟨S2x1x1x32x1, .f32⟩
  | .hbm, ⟨25, _⟩ => ⟨S2x64x64x32x16, .f32⟩
  | .hbm, ⟨26, _⟩ => ⟨S2x64x64x32x16, .f32⟩
  | .hbm, ⟨27, _⟩ => ⟨S2x64x64x32x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x32, .f32⟩
  | .hbm, ⟨33, _⟩ => ⟨S2x1x1x32x1, .f32⟩
  | .hbm, ⟨34, _⟩ => ⟨S2x1x1x32x1, .f32⟩
  | .hbm, ⟨35, _⟩ => ⟨S2x1x1x32x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S2x1x1x32x1, .f32⟩
  | .hbm, ⟨41, _⟩ => ⟨S2x1x1x32x1, .f32⟩
  | .hbm, ⟨42, _⟩ => ⟨S2x64x64x32x16, .f32⟩
  | .hbm, ⟨43, _⟩ => ⟨S2x64x64x32x16, .f32⟩
  | .hbm, ⟨44, _⟩ => ⟨S_, .f32⟩
  | .hbm, ⟨45, _⟩ => ⟨S2x1x1x32x1, .f32⟩
  | .hbm, ⟨46, _⟩ => ⟨S2x1x1x32x1, .f32⟩
  | .hbm, ⟨47, _⟩ => ⟨S2x1x1x32x1, .f32⟩
  | .hbm, ⟨48, _⟩ => ⟨S2x64x64x32x16, .f32⟩
  | .hbm, ⟨49, _⟩ => ⟨S2x64x64x32x16, .f32⟩
  | .hbm, ⟨50, _⟩ => ⟨S2x64x64x512, .f32⟩
  | .hbm, ⟨51, _⟩ => ⟨S1x1x1x512, .f32⟩
  | .hbm, ⟨52, _⟩ => ⟨S2x64x64x512, .f32⟩
  | .hbm, ⟨53, _⟩ => ⟨S2x64x64x512, .f32⟩
  | .hbm, ⟨54, _⟩ => ⟨S1x1x1x512, .f32⟩
  | .hbm, ⟨55, _⟩ => ⟨S2x64x64x512, .f32⟩
  | .hbm, ⟨56, _⟩ => ⟨S2x64x64x512, .f32⟩
  | .hbm, ⟨57, _⟩ => ⟨S2x64x64x512, .f32⟩
  | .hbm, ⟨58, _⟩ => ⟨S1x1x1x512, .f32⟩
  | .hbm, ⟨59, _⟩ => ⟨S2x64x64x512, .f32⟩
  | .hbm, ⟨60, _⟩ => ⟨S2x64x64x512, .f32⟩
  | .hbm, ⟨61, _⟩ => ⟨S2x4096x512, .f32⟩
  | .hbm, ⟨62, _⟩ => ⟨S2x64x64x512, .f32⟩
  | .hbm, ⟨63, _⟩ => ⟨S1x1x1x512, .f32⟩
  | .hbm, ⟨64, _⟩ => ⟨S2x64x64x512, .f32⟩
  | .hbm, ⟨65, _⟩ => ⟨S2x64x64x512, .f32⟩
  | .hbm, ⟨66, _⟩ => ⟨S2x4096x512, .f32⟩
  | .hbm, ⟨67, _⟩ => ⟨S2x64x64x512, .f32⟩
  | .hbm, ⟨68, _⟩ => ⟨S1x1x1x512, .f32⟩
  | .hbm, ⟨69, _⟩ => ⟨S2x64x64x512, .f32⟩
  | .hbm, ⟨70, _⟩ => ⟨S2x64x64x512, .f32⟩
  | .hbm, ⟨71, _⟩ => ⟨S2x4096x512, .f32⟩
  | .hbm, ⟨72, _⟩ => ⟨S2x4096x4096, .f32⟩
  | .hbm, ⟨73, _⟩ => ⟨S_, .f32⟩
  | .hbm, ⟨74, _⟩ => ⟨S2x4096x4096, .f32⟩
  | .hbm, ⟨75, _⟩ => ⟨S2x4096x4096, .f32⟩
  | .hbm, ⟨76, _⟩ => ⟨S_, .f32⟩
  | .hbm, ⟨77, _⟩ => ⟨S2x4096, .f32⟩
  | .hbm, ⟨78, _⟩ => ⟨S_, .f32⟩
  | .hbm, ⟨79, _⟩ => ⟨S2x4096, .f32⟩
  | .hbm, ⟨80, _⟩ => ⟨S2x4096, .f32⟩
  | .hbm, ⟨81, _⟩ => ⟨S2x4096x1, .f32⟩
  | .hbm, ⟨82, _⟩ => ⟨S2x4096x4096, .f32⟩
  | .hbm, ⟨83, _⟩ => ⟨S2x4096x4096, .f32⟩
  | .hbm, ⟨84, _⟩ => ⟨S2x4096x4096, .f32⟩
  | .hbm, ⟨85, _⟩ => ⟨S_, .f32⟩
  | .hbm, ⟨86, _⟩ => ⟨S2x4096, .f32⟩
  | .hbm, ⟨87, _⟩ => ⟨S2x4096x1, .f32⟩
  | .hbm, ⟨88, _⟩ => ⟨S2x4096x4096, .f32⟩
  | .hbm, ⟨89, _⟩ => ⟨S2x4096x4096, .f32⟩
  | .hbm, ⟨90, _⟩ => ⟨S2x4096x512, .f32⟩
  | .hbm, ⟨91, _⟩ => ⟨S2x64x64x512, .f32⟩
  | .hbm, ⟨92, _⟩ => ⟨S2x64x64x512, .f32⟩
  | .hbm, ⟨93, _⟩ => ⟨S1x1x1x512, .f32⟩
  | .hbm, ⟨94, _⟩ => ⟨S2x64x64x512, .f32⟩
  | .hbm, ⟨95, _⟩ => ⟨S2x64x64x512, .f32⟩
  | .hbm, ⟨96, _⟩ => ⟨S2x64x64x512, .f32⟩
  | _, _ => ⟨S2x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_2 : Ref sig .tc := ⟨.hbm, 73, rfl⟩
abbrev main_v36 : Ref sig .tc := ⟨.hbm, 74, rfl⟩
abbrev main_v37 : Ref sig .tc := ⟨.hbm, 75, rfl⟩
abbrev main_cst_3 : Ref sig .tc := ⟨.hbm, 76, rfl⟩
abbrev main_v38 : Ref sig .tc := ⟨.hbm, 77, rfl⟩
abbrev main_cst_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_5 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  shapeCasts_S2x64x64x512_S2x64x64x32x16 : S2x64x64x512.ShapeCasts S2x64x64x32x16
  reducesTo_S2x64x64x32x16_S2x32_d1_2_4 : S2x64x64x32x16.ReducesTo [1, 2, 4] S2x32
  h_S_ : 0 < S_.numel
  bcast_S2x32_S2x1x1x32x1_0_3 : S2x32.BroadcastsInDim S2x1x1x32x1 (![0, 3] : Fin 2 → Fin S2x1x1x32x1.rank)
  bcast_S_S2x1x1x32x1 : S_.BroadcastsInDim S2x1x1x32x1 (![] : Fin 0 → Fin S2x1x1x32x1.rank)
  bcast_S2x1x1x32x1_S2x64x64x32x16_0_1_2_3_4 : S2x1x1x32x1.BroadcastsInDim S2x64x64x32x16 (![0, 1, 2, 3, 4] : Fin 5 → Fin S2x64x64x32x16.rank)
  shapeCasts_S2x64x64x32x16_S2x64x64x512 : S2x64x64x32x16.ShapeCasts S2x64x64x512
  bcast_S512_S1x1x1x512_3 : S512.BroadcastsInDim S1x1x1x512 (![3] : Fin 1 → Fin S1x1x1x512.rank)
  bcast_S1x1x1x512_S2x64x64x512_0_1_2_3 : S1x1x1x512.BroadcastsInDim S2x64x64x512 (![0, 1, 2, 3] : Fin 4 → Fin S2x64x64x512.rank)
  shapeCasts_S2x64x64x512_S2x4096x512 : S2x64x64x512.ShapeCasts S2x4096x512
  bcast_S_S2x4096x4096 : S_.BroadcastsInDim S2x4096x4096 (![] : Fin 0 → Fin S2x4096x4096.rank)
  reducesTo_S2x4096x4096_S2x4096_d2 : S2x4096x4096.ReducesTo [2] S2x4096
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  shapeCasts_S2x4096x512_S2x64x64x512 : S2x4096x512.ShapeCasts S2x64x64x512
  dot_S2x64x64x512_S512x512_S2x64x64x512_3_0_012_1_n_n_wf : DotDims.WF S2x64x64x512 S512x512 S2x64x64x512 [3] [0] [0, 1, 2] [1] [] []
  dot_S2x4096x512_S2x4096x512_S2x4096x4096_2_2_1_1_0_0_wf : DotDims.WF S2x4096x512 S2x4096x512 S2x4096x4096 [2] [2] [1] [1] [0] [0]
  dot_S2x4096x4096_S2x4096x512_S2x4096x512_2_1_1_2_0_0_wf : DotDims.WF S2x4096x4096 S2x4096x512 S2x4096x512 [2] [1] [1] [2] [0] [0]

variable [Facts₀]

def dot_S2x64x64x512_S512x512_S2x64x64x512_3_0_012_1_n_n : DotDims S2x64x64x512 S512x512 S2x64x64x512 where
  lhsContracting := [3]
  rhsContracting := [0]
  lhsNonContracting := [0, 1, 2]
  rhsNonContracting := [1]
  lhsBatch := []
  rhsBatch := []
  wf := dot_S2x64x64x512_S512x512_S2x64x64x512_3_0_012_1_n_n_wf
def dot_S2x4096x512_S2x4096x512_S2x4096x4096_2_2_1_1_0_0 : DotDims S2x4096x512 S2x4096x512 S2x4096x4096 where
  lhsContracting := [2]
  rhsContracting := [2]
  lhsNonContracting := [1]
  rhsNonContracting := [1]
  lhsBatch := [0]
  rhsBatch := [0]
  wf := dot_S2x4096x512_S2x4096x512_S2x4096x4096_2_2_1_1_0_0_wf
def dot_S2x4096x4096_S2x4096x512_S2x4096x512_2_1_1_2_0_0 : DotDims S2x4096x4096 S2x4096x512 S2x4096x512 where
  lhsContracting := [2]
  rhsContracting := [1]
  lhsNonContracting := [1]
  rhsNonContracting := [2]
  lhsBatch := [0]
  rhsBatch := [0]
  wf := dot_S2x4096x4096_S2x4096x512_S2x4096x512_2_1_1_2_0_0_wf

class Facts : Prop extends Facts₀ where

variable [Facts]
-- ==== Proof.KRegion0.lean ====
/-
  Region 0 of the attention block: the fused normalisation-affine and query/key/value projection.
  At a grid point the body reads one tile of 1024 positions of the flattened image (all 512 channels), the
  per-batch multiplier and offset rows of the normalisation, the concatenated 512 x 1536 weight and the 1536 biases,
  and writes three tiles: the three 512-column slices of  (x * mult + add) . W + b.
  Here: what each window's staging buffer holds before and after the body at a point, as functions of the arrays
  the region is entered with; the body's triple; and the obligation the pipeline asks of the body at every point.
  Stated for any float instance.
-/
import proofs.«420147_j24412594110471_3_alg».proof.Proof.Gen.Kernel.Launch
import proofs.«420147_j24412594110471_3_alg».proof.Proof.Gen.Kernel.Skeleton
import proofs.«420147_j24412594110471_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = tile0 V c 3 t) (t : Fin cfg0.N) (d) : dat.before 3 t d = tile0 V c 3 t :=
  (dat.before_in_eq_fetched 3 rfl (fun _ => rfl) (fun _ _ _ => rfl) (fun t => by rw [hafter]; unfold Dat.blockOf tile0; rw [hA]; try rfl) t d).trans
    (by unfold Dat.fetched Dat.blockOf tile0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = tile0 V c 4 t) (t : Fin cfg0.N) (d) : dat.before 4 t d = tile0 V c 4 t :=
  (dat.before_in_eq_fetched 4 rfl (fun _ => rfl) (fun _ _ _ => rfl) (fun t => by rw [hafter]; unfold Dat.blockOf tile0; rw [hA]; try rfl) t d).trans
    (by unfold Dat.fetched Dat.blockOf tile0; rw [hA]; try rfl)

/-- The whole-buffer rectangles the body loads and stores through. -/
abbrev rx0 : Rect S1x1024x512 := Rect.unit (s := S1x1024x512) ![0, 0, 0] S1x1024x512.size inb_S1x1024x512_S1x1024x512_0_0_0
abbrev rrow0 : Rect S1x1x512 := Rect.unit (s := S1x1x512) ![0, 0, 0] S1x1x512.size inb_S1x1x512_S1x1x512_0_0_0
abbrev rw0 : Rect S512x1536 := Rect.unit (s := S512x1536) ![0, 0] S512x1536.size inb_S512x1536_S512x1536_0_0
abbrev rb0 : Rect S1x1536 := Rect.unit (s := S1x1536) ![0, 0] S1x1536.size inb_S1x1536_S1x1536_0_0

/-- The query tile the body leaves: the first 512 columns of the projection of the normalised tile. -/
def qTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay2 (View.ld x0 rx0) (View.ld x1 rrow0) (View.ld x2 rrow0) (View.ld x3 rw0) (View.ld x4 rb0)⟩]
/-- The key tile: columns 512 to 1023. -/
def kTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay3 (View.ld x0 rx0) (View.ld x1 rrow0) (View.ld x2 rrow0) (View.ld x3 rw0) (View.ld x4 rb0)⟩]
/-- The value tile: columns 1024 to 1535. -/
def vTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay4 (View.ld x0 rx0) (View.ld x1 rrow0) (View.ld x2 rrow0) (View.ld x3 rw0) (View.ld x4 rb0)⟩]

/-- One whole-buffer store covers the buffer. -/
theorem cover_out0 (p0 : Vec F S1x1024x512 .bf16) (y : S1x1024x512.Idx) :
    ∃ pc ∈ ([⟨rx0, p0⟩] : List (View.Piece (Elt F) S1x1024x512 .bf16)), y ∈ pc.1.set :=
  View.cover_of_tiled [⟨rx0, p0⟩] S1x1024x512.size (by rfl) y

set_option maxHeartbeats 4000000 in
/-- The body on whole staging memrefs: the five inputs' at read contents, the three outputs' at anything, runs to the
    continuation with the inputs as they were and the outputs at the query, key and value tiles. -/
theorem sound_kernel0 (c : Dev nD) (E : Set ℕ) (i : grid0.Coords)
    (arg2 : Memref sig .tc .vmem S1x1024x512 .f32) (harg2 : arg2.IsWhole) (arg3 : Memref sig .tc .vmem S1x1x512 .f32) (harg3 : arg3.IsWhole)
    (arg4 : Memref sig .tc .vmem S1x1x512 .f32) (harg4 : arg4.IsWhole) (arg5 : Memref sig .tc .vmem S512x1536 .bf16) (harg5 : arg5.IsWhole)
    (arg6 : Memref sig .tc .vmem S1x1536 .f32) (harg6 : arg6.IsWhole) (arg7 : Memref sig .tc .vmem S1x1024x512 .bf16) (harg7 : arg7.IsWhole)
    (arg8 : Memref sig .tc .vmem S1x1024x512 .bf16) (harg8 : arg8.IsWhole) (arg9 : Memref sig .tc .vmem S1x1024x512 .bf16) (harg9 : arg9.IsWhole)
    (x0 : Vec F S1x1024x512 .f32) (x1 : Vec F S1x1x512 .f32) (x2 : Vec F S1x1x512 .f32) (x3 : Vec F S512x1536 .bf16) (x4 : Vec F S1x1536 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (qTile x0 x1 x2 x3 x4) ∗ owns (c : Thread nD τ) arg8 fullShare (kTile x0 x1 x2 x3 x4)
            ∗ owns (c : Thread nD τ) arg9 fullShare (vTile x0 x1 x2 x3 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out0 _)
  isplitl [H6]
  · iexists _; isplitr
    swap; · iexact H6
    ipureintro
    try dsimp only
    exact View.read_writes_eq_canon _ _ _ (cover_out0 _)
  iexists _; isplitr
  swap; · iexact H7
  ipureintro
  try dsimp only
  exact View.read_writes_eq_canon _ _ _ (cover_out0 _)

/-- The proof data of pipeline 0 on core `c`: the arrays as the region finds them; after the body at point `t` each
    input's buffer at its block and the three outputs' at the query, key and value tiles of the input blocks. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => tile0 V c 3 t
    | ⟨4, _⟩ => tile0 V c 4 t
    | ⟨5, _⟩ => qTile (tile0 V c 0 t) (tile0 V c 1 t) (tile0 V c 2 t) (tile0 V c 3 t) (tile0 V c 4 t)
    | ⟨6, _⟩ => kTile (tile0 V c 0 t) (tile0 V c 1 t) (tile0 V c 2 t) (tile0 V c 3 t) (tile0 V c 4 t)
    | ⟨7, _⟩ => vTile (tile0 V c 0 t) (tile0 V c 1 t) (tile0 V c 2 t) (tile0 V c 3 t) (tile0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = tile0 V c 3 t := by dsimp only [dat0]
theorem after0_4 (c : Dev nD) (t : Fin cfg0.N) : (dat0 V c).after 4 t = tile0 V c 4 t := by dsimp only [dat0]
theorem after0_5 (c : Dev nD) (t : Fin cfg0.N) : (dat0 V c).after 5 t = qTile (tile0 V c 0 t) (tile0 V c 1 t) (tile0 V c 2 t) (tile0 V c 3 t) (tile0 V c 4 t) := by dsimp only [dat0]
theorem after0_6 (c : Dev nD) (t : Fin cfg0.N) : (dat0 V c).after 6 t = kTile (tile0 V c 0 t) (tile0 V c 1 t) (tile0 V c 2 t) (tile0 V c 3 t) (tile0 V c 4 t) := by dsimp only [dat0]
theorem after0_7 (c : Dev nD) (t : Fin cfg0.N) : (dat0 V c).after 7 t = vTile (tile0 V c 0 t) (tile0 V c 1 t) (tile0 V c 2 t) (tile0 V c 3 t) (tile0 V c 4 t) := by dsimp only [dat0]

theorem before0_0 (c : Dev nD) (t : Fin cfg0.N) (d) : (dat0 V c).before 0 t d = tile0 V c 0 t := before0_0_of V (dat0 V c) (A_eq0 V c 0) (after0_0 V c) t d
theorem before0_1 (c : Dev nD) (t : Fin cfg0.N) (d) : (dat0 V c).before 1 t d = tile0 V c 1 t := before0_1_of V (dat0 V c) (A_eq0 V c 1) (after0_1 V c) t d
theorem before0_2 (c : Dev nD) (t : Fin cfg0.N) (d) : (dat0 V c).before 2 t d = tile0 V c 2 t := before0_2_of V (dat0 V c) (A_eq0 V c 2) (after0_2 V c) t d
theorem before0_3 (c : Dev nD) (t : Fin cfg0.N) (d) : (dat0 V c).before 3 t d = tile0 V c 3 t := before0_3_of V (dat0 V c) (A_eq0 V c 3) (after0_3 V c) t d
theorem before0_4 (c : Dev nD) (t : Fin cfg0.N) (d) : (dat0 V c).before 4 t d = tile0 V c 4 t := before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (tile0 V c 0 t) (tile0 V c 1 t) (tile0 V c 2 t) (tile0 V c 3 t) (tile0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  Region 1 of the attention block: softmax attention of a tile of 256 query positions against all 4096 key and value
  positions of its batch element, the output projection, its bias and the residual.
  At a grid point the body reads the query tile, the batch element's whole key and value arrays, the residual tile, the
  512 x 512 projection weight and its bias row, and writes one tile of the result.
  Here: what each window's staging buffer holds before and after the body at a point, the body's triple, and the
  obligation the pipeline asks of the body at every point. Stated for any float instance.
-/
import proofs.«420147_j24412594110471_3_alg».proof.Proof.Gen.Kernel.Launch
import proofs.«420147_j24412594110471_3_alg».proof.Proof.Gen.Kernel.Skeleton
import proofs.«420147_j24412594110471_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = tile1 V c 4 t) (t : Fin cfg1.N) (d) : dat.before 4 t d = tile1 V c 4 t :=
  (dat.before_in_eq_fetched 4 rfl (fun _ => rfl) (fun _ _ _ => rfl) (fun t => by rw [hafter]; unfold Dat.blockOf tile1; rw [hA]; try rfl) t d).trans
    (by unfold Dat.fetched Dat.blockOf tile1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = tile1 V c 5 t) (t : Fin cfg1.N) (d) : dat.before 5 t d = tile1 V c 5 t :=
  (dat.before_in_eq_fetched 5 rfl (fun _ => rfl) (fun _ _ _ => rfl) (fun t => by rw [hafter]; unfold Dat.blockOf tile1; rw [hA]; try rfl) t d).trans
    (by unfold Dat.fetched Dat.blockOf tile1; rw [hA]; try rfl)

/-- The whole-buffer rectangles the body loads and stores through. -/
abbrev rq1 : Rect S1x256x512 := Rect.unit (s := S1x256x512) ![0, 0, 0] S1x256x512.size inb_S1x256x512_S1x256x512_0_0_0
abbrev rkv1 : Rect S1x4096x512 := Rect.unit (s := S1x4096x512) ![0, 0, 0] S1x4096x512.size inb_S1x4096x512_S1x4096x512_0_0_0
abbrev rwp1 : Rect S512x512 := Rect.unit (s := S512x512) ![0, 0] S512x512.size inb_S512x512_S512x512_0_0
abbrev rbp1 : Rect S1x512 := Rect.unit (s := S1x512) ![0, 0] S1x512.size inb_S1x512_S1x512_0_0

/-- The result tile the body leaves, from the query tile, the keys, the values, the residual tile, the projection
    weight and its bias. -/
def oTile (x0 : Vec F S1x256x512 .bf16) (x1 : Vec F S1x4096x512 .bf16) (x2 : Vec F S1x4096x512 .bf16) (x3 : Vec F S1x256x512 .f32)
    (x4 : Vec F S512x512 .bf16) (x5 : Vec F S1x512 .f32) : Vec F S1x256x512 .f32 :=
  View.canon [⟨rq1, k1_pay1 (k1_pay2 (View.ld x0 rq1) (View.ld x1 rkv1) (View.ld x2 rkv1) (View.ld x4 rwp1) (View.ld x5 rbp1) (View.ld x3 rq1))⟩]

/-- One whole-buffer store covers the buffer. -/
theorem cover_out1 (p0 : Vec F S1x256x512 .f32) (y : S1x256x512.Idx) :
    ∃ pc ∈ ([⟨rq1, p0⟩] : List (View.Piece (Elt F) S1x256x512 .f32)), y ∈ pc.1.set :=
  View.cover_of_tiled [⟨rq1, p0⟩] S1x256x512.size (by rfl) y

set_option maxHeartbeats 4000000 in
/-- The body on whole staging memrefs: the six inputs' at read contents, the output's at anything, runs to the
    continuation with the inputs as they were and the output at the result tile. -/
theorem sound_kernel1 (c : Dev nD) (E : Set ℕ) (i : grid1.Coords)
    (arg2 : Memref sig .tc .vmem S1x256x512 .bf16) (harg2 : arg2.IsWhole) (arg3 : Memref sig .tc .vmem S1x4096x512 .bf16) (harg3 : arg3.IsWhole)
    (arg4 : Memref sig .tc .vmem S1x4096x512 .bf16) (harg4 : arg4.IsWhole) (arg5 : Memref sig .tc .vmem S1x256x512 .f32) (harg5 : arg5.IsWhole)
    (arg6 : Memref sig .tc .vmem S512x512 .bf16) (harg6 : arg6.IsWhole) (arg7 : Memref sig .tc .vmem S1x512 .f32) (harg7 : arg7.IsWhole)
    (arg8 : Memref sig .tc .vmem S1x256x512 .f32) (harg8 : arg8.IsWhole)
    (x0 : Vec F S1x256x512 .bf16) (x1 : Vec F S1x4096x512 .bf16) (x2 : Vec F S1x4096x512 .bf16) (x3 : Vec F S1x256x512 .f32)
    (x4 : Vec F S512x512 .bf16) (x5 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (oTile x0 x1 x2 x3 x4 x5)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out1 _)

/-- The proof data of pipeline 1 on core `c`: the arrays as the region finds them; after the body at point `t` each
    input's buffer at its block and the output's at the result tile of the input blocks. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => tile1 V c 5 t
    | ⟨6, _⟩ => oTile (tile1 V c 0 t) (tile1 V c 1 t) (tile1 V c 2 t) (tile1 V c 3 t) (tile1 V c 4 t) (tile1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = tile1 V c 4 t := by dsimp only [dat1]
theorem after1_5 (c : Dev nD) (t : Fin cfg1.N) : (dat1 V c).after 5 t = tile1 V c 5 t := by dsimp only [dat1]
theorem after1_6 (c : Dev nD) (t : Fin cfg1.N) : (dat1 V c).after 6 t = oTile (tile1 V c 0 t) (tile1 V c 1 t) (tile1 V c 2 t) (tile1 V c 3 t) (tile1 V c 4 t) (tile1 V c 5 t) := by dsimp only [dat1]

theorem before1_0 (c : Dev nD) (t : Fin cfg1.N) (d) : (dat1 V c).before 0 t d = tile1 V c 0 t := before1_0_of V (dat1 V c) (A_eq1 V c 0) (after1_0 V c) t d
theorem before1_1 (c : Dev nD) (t : Fin cfg1.N) (d) : (dat1 V c).before 1 t d = tile1 V c 1 t := before1_1_of V (dat1 V c) (A_eq1 V c 1) (after1_1 V c) t d
theorem before1_2 (c : Dev nD) (t : Fin cfg1.N) (d) : (dat1 V c).before 2 t d = tile1 V c 2 t := before1_2_of V (dat1 V c) (A_eq1 V c 2) (after1_2 V c) t d
theorem before1_3 (c : Dev nD) (t : Fin cfg1.N) (d) : (dat1 V c).before 3 t d = tile1 V c 3 t := before1_3_of V (dat1 V c) (A_eq1 V c 3) (after1_3 V c) t d
theorem before1_4 (c : Dev nD) (t : Fin cfg1.N) (d) : (dat1 V c).before 4 t d = tile1 V c 4 t := before1_4_of V (dat1 V c) (A_eq1 V c 4) (after1_4 V c) t d
theorem before1_5 (c : Dev nD) (t : Fin cfg1.N) (d) : (dat1 V c).before 5 t d = tile1 V c 5 t := before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (tile1 V c 0 t) (tile1 V c 1 t) (tile1 V c 2 t) (tile1 V c 3 t) (tile1 V c 4 t) (tile1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The run of the fused program: four stretches of host operations and the two kernel regions, in order
  (statistics of the input, the variance function, the affine rows and the concatenated weights; the projection region;
  the attention region; the final reshape). The contents of every unscoped buffer at each boundary are written as a
  fold from the launch memory: a stretch applies its operations; a region leaves its windows' arrays at what its
  write-backs make of them and every other buffer as it was. Every weakly fair execution ends, nothing faulting, with
  the result buffer at the last fold's value and each argument as launched. Stated for any float instance.
-/
import proofs.«420147_j24412594110471_3_alg».proof.Proof.KRegion0
import proofs.«420147_j24412594110471_3_alg».proof.Proof.KRegion1
import proofs.«420147_j24412594110471_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first statistics stretch. -/
abbrev W1 : Dev nD → Valuation τ sig (Elt F) := fun c => StableHlo.after hostOps0 (W0 m ρ c)
/-- After the variance function. -/
abbrev W2 : Dev nD → Valuation τ sig (Elt F) := fun c => StableHlo.after hostOps0_1 (W1 m ρ c)
/-- After the affine rows and weights: the projection region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the projection region's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- At the attention region's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- After the final reshape. -/
abbrev W6 : Dev nD → Valuation τ sig (Elt F) := fun c => StableHlo.after hostOps2 (W5 m ρ c)

/-- A buffer no stretch writes and no region's window names ends as launched. -/
theorem W6_keep (c : Dev nD) (b : Ref sig .tc) (h0 : b ∉ hostOps0_W) (h1 : b ∉ hostOps0_1_W) (h2 : b ∉ hostOps0_2_W)
    (h3 : ∀ w, Pipeline.arrRef spec0 w ≠ b) (h4 : ∀ w, Pipeline.arrRef spec1 w ≠ b) (h5 : b ∉ hostOps2_W) :
    W6 m ρ c (Proc.devRef .tc b) = m ((c : Thread nD τ).loc b) :=
  calc W6 m ρ c (Proc.devRef .tc b)
    _ = W5 m ρ c (Proc.devRef .tc b) := StableHlo.after_of_writes_sub hostOps2 _ hostOps2_writes h5
    _ = W4 m ρ c (Proc.devRef .tc b) := W5_of_ne m ρ c b h4
    _ = W3 m ρ c (Proc.devRef .tc b) := W4_of_ne m ρ c b h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_keep m ρ c main_arg0 (by decide) (by decide) (by decide) (by decide) (by decide) (by decide)
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)
theorem W6_main_arg4 (c : Dev nD) : W6 m ρ c (Proc.devRef .tc main_arg4) = m ((c : Thread nD τ).loc main_arg4) :=
  W6_keep m ρ c main_arg4 (by decide) (by decide) (by decide) (by decide) (by decide) (by decide)
theorem W6_main_arg5 (c : Dev nD) : W6 m ρ c (Proc.devRef .tc main_arg5) = m ((c : Thread nD τ).loc main_arg5) :=
  W6_keep m ρ c main_arg5 (by decide) (by decide) (by decide) (by decide) (by decide) (by decide)
theorem W6_main_arg6 (c : Dev nD) : W6 m ρ c (Proc.devRef .tc main_arg6) = m ((c : Thread nD τ).loc main_arg6) :=
  W6_keep m ρ c main_arg6 (by decide) (by decide) (by decide) (by decide) (by decide) (by decide)
theorem W6_main_arg7 (c : Dev nD) : W6 m ρ c (Proc.devRef .tc main_arg7) = m ((c : Thread nD τ).loc main_arg7) :=
  W6_keep m ρ c main_arg7 (by decide) (by decide) (by decide) (by decide) (by decide) (by decide)
theorem W6_main_arg8 (c : Dev nD) : W6 m ρ c (Proc.devRef .tc main_arg8) = m ((c : Thread nD τ).loc main_arg8) :=
  W6_keep m ρ c main_arg8 (by decide) (by decide) (by decide) (by decide) (by decide) (by decide)
theorem W6_main_arg9 (c : Dev nD) : W6 m ρ c (Proc.devRef .tc main_arg9) = m ((c : Thread nD τ).loc main_arg9) :=
  W6_keep m ρ c main_arg9 (by decide) (by decide) (by decide) (by decide) (by decide) (by decide)
theorem W6_main_arg10 (c : Dev nD) : W6 m ρ c (Proc.devRef .tc main_arg10) = m ((c : Thread nD τ).loc main_arg10) :=
  W6_keep m ρ c main_arg10 (by decide) (by decide) (by decide) (by decide) (by decide) (by decide)

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V3 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The projection region over the thread state: entered from every unscoped buffer at `W3`, left at `W4`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W4`, left at `W5`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segs : List (Pipeline.Seg (pcfgs (F := F)) adm' (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with the
    result buffer at the last fold's value and every argument as launched. -/
theorem run_all : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Kernel.Hand

end
-- ==== Proof.KIRegion0.lean ====
/-
  Region 0 of the attention block: the fused normalisation-affine and query/key/value projection.
  At a grid point the body reads one tile of 1024 positions of the flattened image (all 512 channels), the
  per-batch multiplier and offset rows of the normalisation, the concatenated 512 x 1536 weight and the 1536 biases,
  and writes three tiles: the three 512-column slices of  (x * mult + add) . W + b.
  Here: what each window's staging buffer holds before and after the body at a point, as functions of the arrays
  the region is entered with; the body's triple; and the obligation the pipeline asks of the body at every point.
  Stated for any float instance.
-/
import proofs.«420147_j24412594110471_3_alg».proof.Proof.Gen.KernelIdeal.Launch
import proofs.«420147_j24412594110471_3_alg».proof.Proof.Gen.KernelIdeal.Skeleton
import proofs.«420147_j24412594110471_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = tile0 V c 3 t) (t : Fin cfg0.N) (d) : dat.before 3 t d = tile0 V c 3 t :=
  (dat.before_in_eq_fetched 3 rfl (fun _ => rfl) (fun _ _ _ => rfl) (fun t => by rw [hafter]; unfold Dat.blockOf tile0; rw [hA]; try rfl) t d).trans
    (by unfold Dat.fetched Dat.blockOf tile0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = tile0 V c 4 t) (t : Fin cfg0.N) (d) : dat.before 4 t d = tile0 V c 4 t :=
  (dat.before_in_eq_fetched 4 rfl (fun _ => rfl) (fun _ _ _ => rfl) (fun t => by rw [hafter]; unfold Dat.blockOf tile0; rw [hA]; try rfl) t d).trans
    (by unfold Dat.fetched Dat.blockOf tile0; rw [hA]; try rfl)

/-- The whole-buffer rectangles the body loads and stores through. -/
abbrev rx0 : Rect S1x1024x512 := Rect.unit (s := S1x1024x512) ![0, 0, 0] S1x1024x512.size inb_S1x1024x512_S1x1024x512_0_0_0
abbrev rrow0 : Rect S1x1x512 := Rect.unit (s := S1x1x512) ![0, 0, 0] S1x1x512.size inb_S1x1x512_S1x1x512_0_0_0
abbrev rw0 : Rect S512x1536 := Rect.unit (s := S512x1536) ![0, 0] S512x1536.size inb_S512x1536_S512x1536_0_0
abbrev rb0 : Rect S1x1536 := Rect.unit (s := S1x1536) ![0, 0] S1x1536.size inb_S1x1536_S1x1536_0_0

/-- The query tile the body leaves: the first 512 columns of the projection of the normalised tile. -/
def qTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay2 (View.ld x0 rx0) (View.ld x1 rrow0) (View.ld x2 rrow0) (View.ld x3 rw0) (View.ld x4 rb0)⟩]
/-- The key tile: columns 512 to 1023. -/
def kTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay3 (View.ld x0 rx0) (View.ld x1 rrow0) (View.ld x2 rrow0) (View.ld x3 rw0) (View.ld x4 rb0)⟩]
/-- The value tile: columns 1024 to 1535. -/
def vTile (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨rx0, k0_pay4 (View.ld x0 rx0) (View.ld x1 rrow0) (View.ld x2 rrow0) (View.ld x3 rw0) (View.ld x4 rb0)⟩]

/-- One whole-buffer store covers the buffer. -/
theorem cover_out0 (p0 : Vec F S1x1024x512 .bf16) (y : S1x1024x512.Idx) :
    ∃ pc ∈ ([⟨rx0, p0⟩] : List (View.Piece (Elt F) S1x1024x512 .bf16)), y ∈ pc.1.set :=
  View.cover_of_tiled [⟨rx0, p0⟩] S1x1024x512.size (by rfl) y

set_option maxHeartbeats 4000000 in
/-- The body on whole staging memrefs: the five inputs' at read contents, the three outputs' at anything, runs to the
    continuation with the inputs as they were and the outputs at the query, key and value tiles. -/
theorem sound_kernel0 (c : Dev nD) (E : Set ℕ) (i : grid0.Coords)
    (arg2 : Memref sig .tc .vmem S1x1024x512 .f32) (harg2 : arg2.IsWhole) (arg3 : Memref sig .tc .vmem S1x1x512 .f32) (harg3 : arg3.IsWhole)
    (arg4 : Memref sig .tc .vmem S1x1x512 .f32) (harg4 : arg4.IsWhole) (arg5 : Memref sig .tc .vmem S512x1536 .bf16) (harg5 : arg5.IsWhole)
    (arg6 : Memref sig .tc .vmem S1x1536 .f32) (harg6 : arg6.IsWhole) (arg7 : Memref sig .tc .vmem S1x1024x512 .bf16) (harg7 : arg7.IsWhole)
    (arg8 : Memref sig .tc .vmem S1x1024x512 .bf16) (harg8 : arg8.IsWhole) (arg9 : Memref sig .tc .vmem S1x1024x512 .bf16) (harg9 : arg9.IsWhole)
    (x0 : Vec F S1x1024x512 .f32) (x1 : Vec F S1x1x512 .f32) (x2 : Vec F S1x1x512 .f32) (x3 : Vec F S512x1536 .bf16) (x4 : Vec F S1x1536 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (qTile x0 x1 x2 x3 x4) ∗ owns (c : Thread nD τ) arg8 fullShare (kTile x0 x1 x2 x3 x4)
            ∗ owns (c : Thread nD τ) arg9 fullShare (vTile x0 x1 x2 x3 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out0 _)
  isplitl [H6]
  · iexists _; isplitr
    swap; · iexact H6
    ipureintro
    try dsimp only
    exact View.read_writes_eq_canon _ _ _ (cover_out0 _)
  iexists _; isplitr
  swap; · iexact H7
  ipureintro
  try dsimp only
  exact View.read_writes_eq_canon _ _ _ (cover_out0 _)

/-- The proof data of pipeline 0 on core `c`: the arrays as the region finds them; after the body at point `t` each
    input's buffer at its block and the three outputs' at the query, key and value tiles of the input blocks. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => tile0 V c 3 t
    | ⟨4, _⟩ => tile0 V c 4 t
    | ⟨5, _⟩ => qTile (tile0 V c 0 t) (tile0 V c 1 t) (tile0 V c 2 t) (tile0 V c 3 t) (tile0 V c 4 t)
    | ⟨6, _⟩ => kTile (tile0 V c 0 t) (tile0 V c 1 t) (tile0 V c 2 t) (tile0 V c 3 t) (tile0 V c 4 t)
    | ⟨7, _⟩ => vTile (tile0 V c 0 t) (tile0 V c 1 t) (tile0 V c 2 t) (tile0 V c 3 t) (tile0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = tile0 V c 3 t := by dsimp only [dat0]
theorem after0_4 (c : Dev nD) (t : Fin cfg0.N) : (dat0 V c).after 4 t = tile0 V c 4 t := by dsimp only [dat0]
theorem after0_5 (c : Dev nD) (t : Fin cfg0.N) : (dat0 V c).after 5 t = qTile (tile0 V c 0 t) (tile0 V c 1 t) (tile0 V c 2 t) (tile0 V c 3 t) (tile0 V c 4 t) := by dsimp only [dat0]
theorem after0_6 (c : Dev nD) (t : Fin cfg0.N) : (dat0 V c).after 6 t = kTile (tile0 V c 0 t) (tile0 V c 1 t) (tile0 V c 2 t) (tile0 V c 3 t) (tile0 V c 4 t) := by dsimp only [dat0]
theorem after0_7 (c : Dev nD) (t : Fin cfg0.N) : (dat0 V c).after 7 t = vTile (tile0 V c 0 t) (tile0 V c 1 t) (tile0 V c 2 t) (tile0 V c 3 t) (tile0 V c 4 t) := by dsimp only [dat0]

theorem before0_0 (c : Dev nD) (t : Fin cfg0.N) (d) : (dat0 V c).before 0 t d = tile0 V c 0 t := before0_0_of V (dat0 V c) (A_eq0 V c 0) (after0_0 V c) t d
theorem before0_1 (c : Dev nD) (t : Fin cfg0.N) (d) : (dat0 V c).before 1 t d = tile0 V c 1 t := before0_1_of V (dat0 V c) (A_eq0 V c 1) (after0_1 V c) t d
theorem before0_2 (c : Dev nD) (t : Fin cfg0.N) (d) : (dat0 V c).before 2 t d = tile0 V c 2 t := before0_2_of V (dat0 V c) (A_eq0 V c 2) (after0_2 V c) t d
theorem before0_3 (c : Dev nD) (t : Fin cfg0.N) (d) : (dat0 V c).before 3 t d = tile0 V c 3 t := before0_3_of V (dat0 V c) (A_eq0 V c 3) (after0_3 V c) t d
theorem before0_4 (c : Dev nD) (t : Fin cfg0.N) (d) : (dat0 V c).before 4 t d = tile0 V c 4 t := before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (tile0 V c 0 t) (tile0 V c 1 t) (tile0 V c 2 t) (tile0 V c 3 t) (tile0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
/-
  Region 1 of the attention block: softmax attention of a tile of 256 query positions against all 4096 key and value
  positions of its batch element, the output projection, its bias and the residual.
  At a grid point the body reads the query tile, the batch element's whole key and value arrays, the residual tile, the
  512 x 512 projection weight and its bias row, and writes one tile of the result.
  Here: what each window's staging buffer holds before and after the body at a point, the body's triple, and the
  obligation the pipeline asks of the body at every point. Stated for any float instance.
-/
import proofs.«420147_j24412594110471_3_alg».proof.Proof.Gen.KernelIdeal.Launch
import proofs.«420147_j24412594110471_3_alg».proof.Proof.Gen.KernelIdeal.Skeleton
import proofs.«420147_j24412594110471_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = tile1 V c 4 t) (t : Fin cfg1.N) (d) : dat.before 4 t d = tile1 V c 4 t :=
  (dat.before_in_eq_fetched 4 rfl (fun _ => rfl) (fun _ _ _ => rfl) (fun t => by rw [hafter]; unfold Dat.blockOf tile1; rw [hA]; try rfl) t d).trans
    (by unfold Dat.fetched Dat.blockOf tile1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = tile1 V c 5 t) (t : Fin cfg1.N) (d) : dat.before 5 t d = tile1 V c 5 t :=
  (dat.before_in_eq_fetched 5 rfl (fun _ => rfl) (fun _ _ _ => rfl) (fun t => by rw [hafter]; unfold Dat.blockOf tile1; rw [hA]; try rfl) t d).trans
    (by unfold Dat.fetched Dat.blockOf tile1; rw [hA]; try rfl)

/-- The whole-buffer rectangles the body loads and stores through. -/
abbrev rq1 : Rect S1x256x512 := Rect.unit (s := S1x256x512) ![0, 0, 0] S1x256x512.size inb_S1x256x512_S1x256x512_0_0_0
abbrev rkv1 : Rect S1x4096x512 := Rect.unit (s := S1x4096x512) ![0, 0, 0] S1x4096x512.size inb_S1x4096x512_S1x4096x512_0_0_0
abbrev rwp1 : Rect S512x512 := Rect.unit (s := S512x512) ![0, 0] S512x512.size inb_S512x512_S512x512_0_0
abbrev rbp1 : Rect S1x512 := Rect.unit (s := S1x512) ![0, 0] S1x512.size inb_S1x512_S1x512_0_0

/-- The result tile the body leaves, from the query tile, the keys, the values, the residual tile, the projection
    weight and its bias. -/
def oTile (x0 : Vec F S1x256x512 .bf16) (x1 : Vec F S1x4096x512 .bf16) (x2 : Vec F S1x4096x512 .bf16) (x3 : Vec F S1x256x512 .f32)
    (x4 : Vec F S512x512 .bf16) (x5 : Vec F S1x512 .f32) : Vec F S1x256x512 .f32 :=
  View.canon [⟨rq1, k1_pay1 (k1_pay2 (View.ld x0 rq1) (View.ld x1 rkv1) (View.ld x2 rkv1) (View.ld x4 rwp1) (View.ld x5 rbp1) (View.ld x3 rq1))⟩]

/-- One whole-buffer store covers the buffer. -/
theorem cover_out1 (p0 : Vec F S1x256x512 .f32) (y : S1x256x512.Idx) :
    ∃ pc ∈ ([⟨rq1, p0⟩] : List (View.Piece (Elt F) S1x256x512 .f32)), y ∈ pc.1.set :=
  View.cover_of_tiled [⟨rq1, p0⟩] S1x256x512.size (by rfl) y

set_option maxHeartbeats 4000000 in
/-- The body on whole staging memrefs: the six inputs' at read contents, the output's at anything, runs to the
    continuation with the inputs as they were and the output at the result tile. -/
theorem sound_kernel1 (c : Dev nD) (E : Set ℕ) (i : grid1.Coords)
    (arg2 : Memref sig .tc .vmem S1x256x512 .bf16) (harg2 : arg2.IsWhole) (arg3 : Memref sig .tc .vmem S1x4096x512 .bf16) (harg3 : arg3.IsWhole)
    (arg4 : Memref sig .tc .vmem S1x4096x512 .bf16) (harg4 : arg4.IsWhole) (arg5 : Memref sig .tc .vmem S1x256x512 .f32) (harg5 : arg5.IsWhole)
    (arg6 : Memref sig .tc .vmem S512x512 .bf16) (harg6 : arg6.IsWhole) (arg7 : Memref sig .tc .vmem S1x512 .f32) (harg7 : arg7.IsWhole)
    (arg8 : Memref sig .tc .vmem S1x256x512 .f32) (harg8 : arg8.IsWhole)
    (x0 : Vec F S1x256x512 .bf16) (x1 : Vec F S1x4096x512 .bf16) (x2 : Vec F S1x4096x512 .bf16) (x3 : Vec F S1x256x512 .f32)
    (x4 : Vec F S512x512 .bf16) (x5 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (oTile x0 x1 x2 x3 x4 x5)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out1 _)

/-- The proof data of pipeline 1 on core `c`: the arrays as the region finds them; after the body at point `t` each
    input's buffer at its block and the output's at the result tile of the input blocks. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => tile1 V c 5 t
    | ⟨6, _⟩ => oTile (tile1 V c 0 t) (tile1 V c 1 t) (tile1 V c 2 t) (tile1 V c 3 t) (tile1 V c 4 t) (tile1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = tile1 V c 4 t := by dsimp only [dat1]
theorem after1_5 (c : Dev nD) (t : Fin cfg1.N) : (dat1 V c).after 5 t = tile1 V c 5 t := by dsimp only [dat1]
theorem after1_6 (c : Dev nD) (t : Fin cfg1.N) : (dat1 V c).after 6 t = oTile (tile1 V c 0 t) (tile1 V c 1 t) (tile1 V c 2 t) (tile1 V c 3 t) (tile1 V c 4 t) (tile1 V c 5 t) := by dsimp only [dat1]

theorem before1_0 (c : Dev nD) (t : Fin cfg1.N) (d) : (dat1 V c).before 0 t d = tile1 V c 0 t := before1_0_of V (dat1 V c) (A_eq1 V c 0) (after1_0 V c) t d
theorem before1_1 (c : Dev nD) (t : Fin cfg1.N) (d) : (dat1 V c).before 1 t d = tile1 V c 1 t := before1_1_of V (dat1 V c) (A_eq1 V c 1) (after1_1 V c) t d
theorem before1_2 (c : Dev nD) (t : Fin cfg1.N) (d) : (dat1 V c).before 2 t d = tile1 V c 2 t := before1_2_of V (dat1 V c) (A_eq1 V c 2) (after1_2 V c) t d
theorem before1_3 (c : Dev nD) (t : Fin cfg1.N) (d) : (dat1 V c).before 3 t d = tile1 V c 3 t := before1_3_of V (dat1 V c) (A_eq1 V c 3) (after1_3 V c) t d
theorem before1_4 (c : Dev nD) (t : Fin cfg1.N) (d) : (dat1 V c).before 4 t d = tile1 V c 4 t := before1_4_of V (dat1 V c) (A_eq1 V c 4) (after1_4 V c) t d
theorem before1_5 (c : Dev nD) (t : Fin cfg1.N) (d) : (dat1 V c).before 5 t d = tile1 V c 5 t := before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (tile1 V c 0 t) (tile1 V c 1 t) (tile1 V c 2 t) (tile1 V c 3 t) (tile1 V c 4 t) (tile1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The run of the fused program: four stretches of host operations and the two kernel regions, in order
  (statistics of the input, the variance function, the affine rows and the concatenated weights; the projection region;
  the attention region; the final reshape). The contents of every unscoped buffer at each boundary are written as a
  fold from the launch memory: a stretch applies its operations; a region leaves its windows' arrays at what its
  write-backs make of them and every other buffer as it was. Every weakly fair execution ends, nothing faulting, with
  the result buffer at the last fold's value and each argument as launched. Stated for any float instance.
-/
import proofs.«420147_j24412594110471_3_alg».proof.Proof.KIRegion0
import proofs.«420147_j24412594110471_3_alg».proof.Proof.KIRegion1
import proofs.«420147_j24412594110471_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first statistics stretch. -/
abbrev W1 : Dev nD → Valuation τ sig (Elt F) := fun c => StableHlo.after hostOps0 (W0 m ρ c)
/-- After the variance function. -/
abbrev W2 : Dev nD → Valuation τ sig (Elt F) := fun c => StableHlo.after hostOps0_1 (W1 m ρ c)
/-- After the affine rows and weights: the projection region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the projection region's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- At the attention region's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- After the final reshape. -/
abbrev W6 : Dev nD → Valuation τ sig (Elt F) := fun c => StableHlo.after hostOps2 (W5 m ρ c)

/-- A buffer no stretch writes and no region's window names ends as launched. -/
theorem W6_keep (c : Dev nD) (b : Ref sig .tc) (h0 : b ∉ hostOps0_W) (h1 : b ∉ hostOps0_1_W) (h2 : b ∉ hostOps0_2_W)
    (h3 : ∀ w, Pipeline.arrRef spec0 w ≠ b) (h4 : ∀ w, Pipeline.arrRef spec1 w ≠ b) (h5 : b ∉ hostOps2_W) :
    W6 m ρ c (Proc.devRef .tc b) = m ((c : Thread nD τ).loc b) :=
  calc W6 m ρ c (Proc.devRef .tc b)
    _ = W5 m ρ c (Proc.devRef .tc b) := StableHlo.after_of_writes_sub hostOps2 _ hostOps2_writes h5
    _ = W4 m ρ c (Proc.devRef .tc b) := W5_of_ne m ρ c b h4
    _ = W3 m ρ c (Proc.devRef .tc b) := W4_of_ne m ρ c b h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_keep m ρ c main_arg0 (by decide) (by decide) (by decide) (by decide) (by decide) (by decide)
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)
theorem W6_main_arg4 (c : Dev nD) : W6 m ρ c (Proc.devRef .tc main_arg4) = m ((c : Thread nD τ).loc main_arg4) :=
  W6_keep m ρ c main_arg4 (by decide) (by decide) (by decide) (by decide) (by decide) (by decide)
theorem W6_main_arg5 (c : Dev nD) : W6 m ρ c (Proc.devRef .tc main_arg5) = m ((c : Thread nD τ).loc main_arg5) :=
  W6_keep m ρ c main_arg5 (by decide) (by decide) (by decide) (by decide) (by decide) (by decide)
theorem W6_main_arg6 (c : Dev nD) : W6 m ρ c (Proc.devRef .tc main_arg6) = m ((c : Thread nD τ).loc main_arg6) :=
  W6_keep m ρ c main_arg6 (by decide) (by decide) (by decide) (by decide) (by decide) (by decide)
theorem W6_main_arg7 (c : Dev nD) : W6 m ρ c (Proc.devRef .tc main_arg7) = m ((c : Thread nD τ).loc main_arg7) :=
  W6_keep m ρ c main_arg7 (by decide) (by decide) (by decide) (by decide) (by decide) (by decide)
theorem W6_main_arg8 (c : Dev nD) : W6 m ρ c (Proc.devRef .tc main_arg8) = m ((c : Thread nD τ).loc main_arg8) :=
  W6_keep m ρ c main_arg8 (by decide) (by decide) (by decide) (by decide) (by decide) (by decide)
theorem W6_main_arg9 (c : Dev nD) : W6 m ρ c (Proc.devRef .tc main_arg9) = m ((c : Thread nD τ).loc main_arg9) :=
  W6_keep m ρ c main_arg9 (by decide) (by decide) (by decide) (by decide) (by decide) (by decide)
theorem W6_main_arg10 (c : Dev nD) : W6 m ρ c (Proc.devRef .tc main_arg10) = m ((c : Thread nD τ).loc main_arg10) :=
  W6_keep m ρ c main_arg10 (by decide) (by decide) (by decide) (by decide) (by decide) (by decide)

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V3 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The projection region over the thread state: entered from every unscoped buffer at `W3`, left at `W4`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W4`, left at `W5`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segs : List (Pipeline.Seg (pcfgs (F := F)) adm' (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with the
    result buffer at the last fold's value and every argument as launched. -/
theorem run_all : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.AttnSpec.lean ====
/-
  The attention block as mathematics, on extended reals, over flat indices: batch b < 2, position p < 4096,
  channel c < 512, group g = c / 16 < 32.  Two spellings of the same function:

  * "fused": the normalisation folded into a per-channel multiplier and offset,
      h = x * (r * gamma) + (beta - mu * r * gamma);
    the softmax scale s folded into the query weights and bias; the softmax normalised after the
    value product, (sum_j p_j v_j) * (1 / l).
  * "plain": h = (x - mu) * r * gamma + beta; the scores scaled by s after the query-key product; the
    softmax weights p_j / l formed before the value product.

  mu and r are the group mean and reciprocal standard deviation; here they are any real numbers.
  On real inputs the two agree (`out_eq`): distributivity, which the extended reals have only away from the
  infinities, joins them; that is where finiteness is used.
-/
import Idealize.ShloMosaic.PureOps.Ideal

noncomputable section

namespace Attn

open Idealize.ShloMosaic

/-- An extended real that is a real number. -/
def IsReal (x : EReal) : Prop := ∃ r : ℝ, x = (r : EReal)

/-! ### Real numbers inside the extended reals -/

theorem IsReal.add {a b : EReal} (ha : IsReal a) (hb : IsReal b) : IsReal (a + b) := by
  obtain ⟨a, rfl⟩ := ha; obtain ⟨b, rfl⟩ := hb; exact ⟨a + b, (EReal.coe_add a b).symm⟩

theorem IsReal.sub {a b : EReal} (ha : IsReal a) (hb : IsReal b) : IsReal (a - b) := by
  obtain ⟨a, rfl⟩ := ha; obtain ⟨b, rfl⟩ := hb; exact ⟨a - b, (EReal.coe_sub a b).symm⟩

theorem IsReal.mul {a b : EReal} (ha : IsReal a) (hb : IsReal b) : IsReal (a * b) := by
  obtain ⟨a, rfl⟩ := ha; obtain ⟨b, rfl⟩ := hb; exact ⟨a * b, (EReal.coe_mul a b).symm⟩

/-- A finite sum of reals, summed in the extended reals, is the real sum. -/
theorem coe_sum {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem IsReal.sum {ι : Type*} (t : Finset ι) (f : ι → EReal) (hf : ∀ i, IsReal (f i)) :
    IsReal (∑ i ∈ t, f i) := by
  choose g hg using hf
  exact ⟨∑ i ∈ t, g i, by simp only [hg, coe_sum]⟩

/-- The maximum, from minus infinity, of a nonempty finite family of reals is a real. -/
theorem fold_max_real {ι : Type*} (f : ι → EReal) (hf : ∀ i, IsReal (f i)) {t : Finset ι}
    (ht : t.Nonempty) : IsReal (t.fold max ⊥ f) := by
  induction ht using Finset.Nonempty.cons_induction with
  | singleton a =>
    obtain ⟨r, hr⟩ := hf a
    exact ⟨r, by rw [Finset.fold_singleton, hr]; exact max_bot_right _⟩
  | cons a t ha ht ih =>
    obtain ⟨r, hr⟩ := hf a
    obtain ⟨m, hm⟩ := ih
    exact ⟨max r m, by rw [Finset.fold_cons, hr, hm]; exact (EReal.coe_strictMono.monotone.map_max).symm⟩

/-- The two spellings of the normalisation agree on reals: distributivity in the reals. -/
theorem norm_aux (x μ r γ β : ℝ) :
    (x : EReal) * ((r : EReal) * (γ : EReal)) + ((β : EReal) - (μ : EReal) * (r : EReal) * (γ : EReal))
      = ((x : EReal) - (μ : EReal)) * (r : EReal) * (γ : EReal) + (β : EReal) := by
  simp only [← EReal.coe_mul, ← EReal.coe_sub, ← EReal.coe_add]
  exact congrArg _ (by ring)

/-- A scale folded into weights and bias comes out of the projection. -/
theorem lin_scale_aux {ι : Type*} (t : Finset ι) (f g : ι → ℝ) (b s : ℝ) :
    (∑ c ∈ t, (f c : EReal) * ((g c : EReal) * (s : EReal))) + (b : EReal) * (s : EReal)
      = ((∑ c ∈ t, (f c : EReal) * (g c : EReal)) + (b : EReal)) * (s : EReal) := by
  simp only [← EReal.coe_mul, coe_sum, ← EReal.coe_add]
  refine congrArg _ ?_
  rw [add_mul, Finset.sum_mul]
  exact congrArg (· + b * s) (Finset.sum_congr rfl (fun _ _ => by ring))

/-- A scale on one factor of each product comes out of the sum. -/
theorem sum_scale_aux {ι : Type*} (t : Finset ι) (q k : ι → ℝ) (s : ℝ) :
    (∑ o ∈ t, ((q o : EReal) * (s : EReal)) * (k o : EReal))
      = (∑ o ∈ t, (q o : EReal) * (k o : EReal)) * (s : EReal) := by
  simp only [← EReal.coe_mul, coe_sum]
  refine congrArg _ ?_
  rw [Finset.sum_mul]
  exact Finset.sum_congr rfl (fun _ _ => by ring)

/-- Normalising after the weighted sum is normalising each weight first, when the total is a nonzero real. -/
theorem attn_aux {ι : Type*} (t : Finset ι) (p v : ι → ℝ) (hl : (∑ j ∈ t, p j) ≠ 0) :
    (∑ j ∈ t, (p j : EReal) * (v j : EReal)) * Ideal.div 1 (∑ j ∈ t, (p j : EReal))
      = ∑ j ∈ t, Ideal.div (p j : EReal) (0 + ∑ j' ∈ t, (p j' : EReal)) * (v j : EReal) := by
  simp only [zero_add, coe_sum, Ideal.div_coe hl, one_mul, ← EReal.coe_mul]
  refine congrArg _ ?_
  rw [Finset.sum_mul]
  exact Finset.sum_congr rfl (fun _ _ => by ring)

/-- The group of a channel: sixteen consecutive channels share one. -/
def grp (c : Fin 512) : Fin 32 := ⟨c.val / 16, by have := c.isLt; omega⟩

section
variable (x : Fin 2 → Fin 4096 → Fin 512 → EReal) (μ r : Fin 2 → Fin 32 → EReal) (γ β : Fin 512 → EReal)
  (Wq Wk Wv Wp : Fin 512 → Fin 512 → EReal) (bq bk bv bp : Fin 512 → EReal) (s : EReal)

/-- The normalised activations, fused spelling. -/
def hF (b : Fin 2) (p : Fin 4096) (c : Fin 512) : EReal :=
  x b p c * (r b (grp c) * γ c) + (β c - μ b (grp c) * r b (grp c) * γ c)
/-- The normalised activations, plain spelling. -/
def hP (b : Fin 2) (p : Fin 4096) (c : Fin 512) : EReal :=
  (x b p c - μ b (grp c)) * r b (grp c) * γ c + β c

/-- A channel projection with bias: (sum_c h[c] W[c,o]) + bias[o]. -/
def lin (h : Fin 2 → Fin 4096 → Fin 512 → EReal) (W : Fin 512 → Fin 512 → EReal) (bias : Fin 512 → EReal)
    (b : Fin 2) (p : Fin 4096) (o : Fin 512) : EReal :=
  (∑ c : Fin 512, h b p c * W c o) + bias o

/-- Scores, fused spelling: the scale sits in the query weights and bias. -/
def scF (b : Fin 2) (i j : Fin 4096) : EReal :=
  ∑ o : Fin 512, lin (hF x μ r γ β) (fun c o => Wq c o * s) (fun o => bq o * s) b i o * lin (hF x μ r γ β) Wk bk b j o
/-- Scores, plain spelling: scaled after the product. -/
def scP (b : Fin 2) (i j : Fin 4096) : EReal :=
  (∑ o : Fin 512, lin (hP x μ r γ β) Wq bq b i o * lin (hP x μ r γ β) Wk bk b j o) * s

/-- A row's maximum, from minus infinity. -/
def rowMax (sc : Fin 2 → Fin 4096 → Fin 4096 → EReal) (b : Fin 2) (i : Fin 4096) : EReal :=
  (Finset.univ : Finset (Fin 4096)).fold max ⊥ (fun j => sc b i j)
/-- The shifted exponentials. -/
def pe (sc : Fin 2 → Fin 4096 → Fin 4096 → EReal) (b : Fin 2) (i j : Fin 4096) : EReal :=
  Ideal.exp (sc b i j - rowMax sc b i)

/-- Attention output, fused spelling: normalised after the value product. -/
def aF (b : Fin 2) (i : Fin 4096) (o : Fin 512) : EReal :=
  (∑ j : Fin 4096, pe (scF x μ r γ β Wq Wk bq bk s) b i j * lin (hF x μ r γ β) Wv bv b j o)
    * Ideal.div 1 (∑ j : Fin 4096, pe (scF x μ r γ β Wq Wk bq bk s) b i j)
/-- Attention output, plain spelling: softmax weights first. -/
def aP (b : Fin 2) (i : Fin 4096) (o : Fin 512) : EReal :=
  ∑ j : Fin 4096, Ideal.div (pe (scP x μ r γ β Wq Wk bq bk s) b i j) (0 + ∑ j' : Fin 4096, pe (scP x μ r γ β Wq Wk bq bk s) b i j')
    * lin (hP x μ r γ β) Wv bv b j o

/-- The block's result, fused spelling: output projection, bias, residual. -/
def outF (b : Fin 2) (i : Fin 4096) (o : Fin 512) : EReal :=
  (∑ c : Fin 512, aF x μ r γ β Wq Wk Wv bq bk bv s b i c * Wp c o) + bp o + x b i o
/-- The block's result, plain spelling. -/
def outP (b : Fin 2) (i : Fin 4096) (o : Fin 512) : EReal :=
  (∑ c : Fin 512, aP x μ r γ β Wq Wk Wv bq bk bv s b i c * Wp c o) + bp o + x b i o

/-! ### The two spellings agree on reals -/

section
variable (hx : ∀ b p c, IsReal (x b p c)) (hμ : ∀ b g, IsReal (μ b g)) (hr : ∀ b g, IsReal (r b g))
  (hγ : ∀ c, IsReal (γ c)) (hβ : ∀ c, IsReal (β c))
include hx hμ hr hγ hβ

theorem hF_eq : hF x μ r γ β = hP x μ r γ β := by
  funext b p c
  obtain ⟨x', hx'⟩ := hx b p c
  obtain ⟨μ', hμ'⟩ := hμ b (grp c)
  obtain ⟨r', hr'⟩ := hr b (grp c)
  obtain ⟨γ', hγ'⟩ := hγ c
  obtain ⟨β', hβ'⟩ := hβ c
  rw [hF, hP, hx', hμ', hr', hγ', hβ']
  exact norm_aux x' μ' r' γ' β'

theorem hP_real (b : Fin 2) (p : Fin 4096) (c : Fin 512) : IsReal (hP x μ r γ β b p c) := by
  rw [hP]
  exact ((((hx b p c).sub (hμ _ _)).mul (hr _ _)).mul (hγ c)).add (hβ c)

end

theorem lin_real (h : Fin 2 → Fin 4096 → Fin 512 → EReal) (hh : ∀ b p c, IsReal (h b p c))
    (W : Fin 512 → Fin 512 → EReal) (hW : ∀ c o, IsReal (W c o)) (bias : Fin 512 → EReal)
    (hb : ∀ o, IsReal (bias o)) (b : Fin 2) (p : Fin 4096) (o : Fin 512) : IsReal (lin h W bias b p o) := by
  rw [lin]
  exact (IsReal.sum _ _ (fun c => (hh b p c).mul (hW c o))).add (hb o)

theorem lin_scale (h : Fin 2 → Fin 4096 → Fin 512 → EReal) (hh : ∀ b p c, IsReal (h b p c))
    (W : Fin 512 → Fin 512 → EReal) (hW : ∀ c o, IsReal (W c o)) (bias : Fin 512 → EReal)
    (hb : ∀ o, IsReal (bias o)) (s : EReal) (hs : IsReal s) (b : Fin 2) (p : Fin 4096) (o : Fin 512) :
    lin h (fun c o => W c o * s) (fun o => bias o * s) b p o = lin h W bias b p o * s := by
  choose h' hh' using hh
  choose W' hW' using hW
  choose b' hb' using hb
  obtain ⟨s', rfl⟩ := hs
  simp only [lin, hh', hW', hb']
  exact lin_scale_aux _ (fun c => h' b p c) (fun c => W' c o) (b' o) s'

/-- The shifted exponentials of real scores are positive reals. -/
theorem pe_pos (sc : Fin 2 → Fin 4096 → Fin 4096 → EReal) (hsc : ∀ b i j, IsReal (sc b i j))
    (b : Fin 2) (i j : Fin 4096) : ∃ p : ℝ, 0 < p ∧ pe sc b i j = (p : EReal) := by
  obtain ⟨a, ha⟩ := hsc b i j
  obtain ⟨m, hm⟩ : IsReal (rowMax sc b i) :=
    fold_max_real _ (fun j => hsc b i j) ⟨⟨0, by norm_num⟩, Finset.mem_univ _⟩
  refine ⟨Real.exp (a - m), Real.exp_pos _, ?_⟩
  rw [pe, ha, hm, ← EReal.coe_sub, Ideal.exp_coe]

section
variable (hx : ∀ b p c, IsReal (x b p c)) (hμ : ∀ b g, IsReal (μ b g)) (hr : ∀ b g, IsReal (r b g))
  (hγ : ∀ c, IsReal (γ c)) (hβ : ∀ c, IsReal (β c))
  (hWq : ∀ c o, IsReal (Wq c o)) (hWk : ∀ c o, IsReal (Wk c o))
  (hbq : ∀ o, IsReal (bq o)) (hbk : ∀ o, IsReal (bk o)) (hs : IsReal s)
include hx hμ hr hγ hβ hWq hWk hbq hbk hs

theorem scP_real (b : Fin 2) (i j : Fin 4096) : IsReal (scP x μ r γ β Wq Wk bq bk s b i j) := by
  have hh := hP_real x μ r γ β hx hμ hr hγ hβ
  rw [scP]
  exact (IsReal.sum _ _ (fun o =>
    (lin_real _ hh Wq hWq bq hbq b i o).mul (lin_real _ hh Wk hWk bk hbk b j o))).mul hs

theorem scF_eq : scF x μ r γ β Wq Wk bq bk s = scP x μ r γ β Wq Wk bq bk s := by
  funext b i j
  have hh := hP_real x μ r γ β hx hμ hr hγ hβ
  rw [scF, scP, hF_eq x μ r γ β hx hμ hr hγ hβ]
  simp only [lin_scale _ hh Wq hWq bq hbq s hs]
  choose q hq using fun o => lin_real _ hh Wq hWq bq hbq b i o
  choose k hk using fun o => lin_real _ hh Wk hWk bk hbk b j o
  obtain ⟨s', rfl⟩ := hs
  simp only [hq, hk]
  exact sum_scale_aux _ q k s'

variable (hWv : ∀ c o, IsReal (Wv c o)) (hbv : ∀ o, IsReal (bv o))
include hWv hbv

theorem aF_eq : aF x μ r γ β Wq Wk Wv bq bk bv s = aP x μ r γ β Wq Wk Wv bq bk bv s := by
  funext b i o
  have hh := hP_real x μ r γ β hx hμ hr hγ hβ
  have hsc := scP_real x μ r γ β Wq Wk bq bk s hx hμ hr hγ hβ hWq hWk hbq hbk hs
  rw [aF, aP, scF_eq x μ r γ β Wq Wk bq bk s hx hμ hr hγ hβ hWq hWk hbq hbk hs,
    hF_eq x μ r γ β hx hμ hr hγ hβ]
  choose p hp0 hp using fun j => pe_pos _ hsc b i j
  choose v hv using fun j => lin_real _ hh Wv hWv bv hbv b j o
  simp only [hp, hv]
  exact attn_aux _ p v
    (ne_of_gt (Finset.sum_pos (fun j _ => hp0 j) ⟨⟨0, by norm_num⟩, Finset.mem_univ _⟩))

end

/-- On real inputs the two spellings are one function. -/
theorem out_eq (hx : ∀ b p c, IsReal (x b p c)) (hμ : ∀ b g, IsReal (μ b g)) (hr : ∀ b g, IsReal (r b g))
    (hγ : ∀ c, IsReal (γ c)) (hβ : ∀ c, IsReal (β c))
    (hWq : ∀ c o, IsReal (Wq c o)) (hWk : ∀ c o, IsReal (Wk c o)) (hWv : ∀ c o, IsReal (Wv c o)) (hWp : ∀ c o, IsReal (Wp c o))
    (hbq : ∀ o, IsReal (bq o)) (hbk : ∀ o, IsReal (bk o)) (hbv : ∀ o, IsReal (bv o)) (hbp : ∀ o, IsReal (bp o))
    (hs : IsReal s) (b : Fin 2) (i : Fin 4096) (o : Fin 512) :
    outF x μ r γ β Wq Wk Wv Wp bq bk bv bp s b i o = outP x μ r γ β Wq Wk Wv Wp bq bk bv bp s b i o := by
  rw [outF, outP, aF_eq x μ r γ β Wq Wk Wv bq bk bv s hx hμ hr hγ hβ hWq hWk hbq hbk hs hWv hbv]

end

end Attn

end
-- ==== Proof.AttnIdx.lean ====
/-
  Flat positions and curried views. A position p < 4096 of the flattened image is the pixel (p / 64, p % 64);
  the arrays of the programs are read as functions of their coordinates.
  Also the attention block over ANY query, key and value arrays (the two spellings of AttnSpec are these at the
  projections of the normalised activations): what a reader of one program's values states first.
-/
import proofs.«420147_j24412594110471_3_alg».proof.Proof.AttnSpec
import Idealize.ShloMosaic.Lib.ValueIdx

noncomputable section

namespace Attn

open Idealize.ShloMosaic Idealize.ShloMosaic.ValueIdx

/-- The row of a flat position. -/
def hi (p : Fin 4096) : Fin 64 := ⟨p.val / 64, by have := p.isLt; omega⟩
/-- The column of a flat position. -/
def lo (p : Fin 4096) : Fin 64 := ⟨p.val % 64, by have := p.isLt; omega⟩
/-- The flat position of a pixel. -/
def flat (h w : Fin 64) : Fin 4096 := ⟨h.val * 64 + w.val, by have := h.isLt; have := w.isLt; omega⟩

theorem hi_flat (h w : Fin 64) : hi (flat h w) = h := Fin.ext (by simp only [hi, flat]; have := w.isLt; omega)
theorem lo_flat (h w : Fin 64) : lo (flat h w) = w := Fin.ext (by simp only [lo, flat]; have := w.isLt; omega)
theorem flat_hi_lo (p : Fin 4096) : flat (hi p) (lo p) = p := Fin.ext (by simp only [hi, lo, flat]; omega)

/-- The image [2, 64, 64, 512] over flat positions. -/
def xOf (X : (⟨4, ![2, 64, 64, 512]⟩ : Shape).Idx → EReal) : Fin 2 → Fin 4096 → Fin 512 → EReal :=
  fun b p c => X (ix4 b (hi p) (lo p) c)
/-- A vector [512] by its coordinate. -/
def vec1 (v : (⟨1, ![512]⟩ : Shape).Idx → EReal) : Fin 512 → EReal := fun c => v (ix1 c)
/-- A matrix [512, 512] by its coordinates. -/
def mat2 (W : (⟨2, ![512, 512]⟩ : Shape).Idx → EReal) : Fin 512 → Fin 512 → EReal := fun c o => W (ix2 c o)
/-- A per-batch, per-group array [2, 32] by its coordinates. -/
def grp2 (a : (⟨2, ![2, 32]⟩ : Shape).Idx → EReal) : Fin 2 → Fin 32 → EReal := fun b g => a (ix2 b g)
/-- An activation array [2, 4096, 512] by its coordinates. -/
def act3 (a : (⟨3, ![2, 4096, 512]⟩ : Shape).Idx → EReal) : Fin 2 → Fin 4096 → Fin 512 → EReal := fun b p c => a (ix3 b p c)

section
variable (q k v x : Fin 2 → Fin 4096 → Fin 512 → EReal) (Wp : Fin 512 → Fin 512 → EReal) (bp : Fin 512 → EReal) (s : EReal)

/-- Scores of given queries and keys, unscaled. -/
def scOf (b : Fin 2) (i j : Fin 4096) : EReal := ∑ o : Fin 512, q b i o * k b j o
/-- Scores scaled after the product. -/
def scOfS (b : Fin 2) (i j : Fin 4096) : EReal := (∑ o : Fin 512, q b i o * k b j o) * s
/-- Attention normalised after the value product. -/
def aFof (b : Fin 2) (i : Fin 4096) (o : Fin 512) : EReal :=
  (∑ j : Fin 4096, pe (scOf q k) b i j * v b j o) * Ideal.div 1 (∑ j : Fin 4096, pe (scOf q k) b i j)
/-- Attention with the softmax weights formed first. -/
def aPof (b : Fin 2) (i : Fin 4096) (o : Fin 512) : EReal :=
  ∑ j : Fin 4096, Ideal.div (pe (scOfS q k s) b i j) (0 + ∑ j' : Fin 4096, pe (scOfS q k s) b i j') * v b j o
/-- Output projection, bias and residual over the first. -/
def outFof (b : Fin 2) (i : Fin 4096) (o : Fin 512) : EReal :=
  (∑ c : Fin 512, aFof q k v b i c * Wp c o) + bp o + x b i o
/-- Output projection, bias and residual over the second. -/
def outPof (b : Fin 2) (i : Fin 4096) (o : Fin 512) : EReal :=
  (∑ c : Fin 512, aPof q k v s b i c * Wp c o) + bp o + x b i o
end

section
variable (x : Fin 2 → Fin 4096 → Fin 512 → EReal) (μ r : Fin 2 → Fin 32 → EReal) (γ β : Fin 512 → EReal)
  (Wq Wk Wv Wp : Fin 512 → Fin 512 → EReal) (bq bk bv bp : Fin 512 → EReal) (s : EReal)

/-- The fused spelling is the generic block at the fused projections. -/
theorem outF_eq_outFof : outF x μ r γ β Wq Wk Wv Wp bq bk bv bp s
    = outFof (lin (hF x μ r γ β) (fun c o => Wq c o * s) (fun o => bq o * s)) (lin (hF x μ r γ β) Wk bk) (lin (hF x μ r γ β) Wv bv) x Wp bp := rfl
/-- The plain spelling is the generic block at the plain projections. -/
theorem outP_eq_outPof : outP x μ r γ β Wq Wk Wv Wp bq bk bv bp s
    = outPof (lin (hP x μ r γ β) Wq bq) (lin (hP x μ r γ β) Wk bk) (lin (hP x μ r γ β) Wv bv) x Wp bp s := rfl
end

end Attn

end
-- ==== Proof.KIValue0.lean ====
/-
  Region 0 read as values. At the extended reals every format change is the identity, so a grid point's three output
  tiles are the three 512-column slices of  (x * mult + add) . W + b  over the tile's 1024 positions, and the arrays the
  region leaves are that expression of the WHOLE input arrays, index by index: at batch b, position p, column o,
      sum over c of (x[b,p,c] * mult[b,0,c] + add[b,0,c]) * W[c, off + o]   +   bias[0, off + o]
  with off = 0, 512, 1024 for the query, key and value arrays.
-/
import proofs.«420147_j24412594110471_3_alg».proof.Proof.KIRegion0
import proofs.«420147_j24412594110471_3_alg».proof.Proof.AttnIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The projection's dimension numbers, axis by axis -/

/-- The [1024,512] x [512,1536] product's dimension numbers: the left operand's axis 1 against the right operand's axis 0. -/
abbrev Dqkv := dot_S1024x512_S512x1536_S1024x1536_1_0_0_1_n_n

theorem lhs_qkv_0 (j : S1024x1536.Idx) (k : Dqkv.contr.Idx) : (Dqkv.lhsIdx j k 0 : ℕ) = j 0 := by
  simp [DotDims.lhsIdx, Dqkv, dot_S1024x512_S512x1536_S1024x1536_1_0_0_1_n_n]; rfl
theorem lhs_qkv_1 (j : S1024x1536.Idx) (k : Dqkv.contr.Idx) : (Dqkv.lhsIdx j k 1 : ℕ) = k ⟨0, by decide⟩ := by
  simp [DotDims.lhsIdx, Dqkv, dot_S1024x512_S512x1536_S1024x1536_1_0_0_1_n_n]; rfl
theorem rhs_qkv_0 (j : S1024x1536.Idx) (k : Dqkv.contr.Idx) : (Dqkv.rhsIdx j k 0 : ℕ) = k ⟨0, by decide⟩ := by
  simp [DotDims.rhsIdx, Dqkv, dot_S1024x512_S512x1536_S1024x1536_1_0_0_1_n_n]; rfl
theorem rhs_qkv_1 (j : S1024x1536.Idx) (k : Dqkv.contr.Idx) : (Dqkv.rhsIdx j k 1 : ℕ) = j 1 := by
  simp [DotDims.rhsIdx, Dqkv, dot_S1024x512_S512x1536_S1024x1536_1_0_0_1_n_n]; rfl

/-- The contraction index is the channel. -/
abbrev chan : Dqkv.contr.Idx ≃ Fin 512 := contrEquiv1 Dqkv 512 rfl rfl

theorem lhs_qkv_at (r : Fin 1024) (n : Fin 1536) (c : Fin 512) : Dqkv.lhsIdx (ix2 r n) (chan.symm c) = ix2 r c := by
  refine Shape.idx_ext₂ ?_ ?_
  · exact lhs_qkv_0 _ _
  · exact (lhs_qkv_1 _ _).trans (contrEquiv1_symm_val Dqkv 512 rfl rfl c)
theorem rhs_qkv_at (r : Fin 1024) (n : Fin 1536) (c : Fin 512) : Dqkv.rhsIdx (ix2 r n) (chan.symm c) = ix2 c n := by
  refine Shape.idx_ext₂ ?_ ?_
  · exact (rhs_qkv_0 _ _).trans (contrEquiv1_symm_val Dqkv 512 rfl rfl c)
  · exact rhs_qkv_1 _ _

/-! ## The shared payload at an index -/

/-- Entry (r, n) of  (x * mult + add) . W + b  over a tile: the channel sum of the affinely normalised row against column n
    of the weight, plus the bias at n. -/
theorem pay1_apply (v0 : Vec Ideal S1x1024x512 .f32) (v2 v4 : Vec Ideal S1x1x512 .f32) (v11 : Vec Ideal S512x1536 .bf16)
    (v13 : Vec Ideal S1x1536 .f32) (r : Fin 1024) (n : Fin 1536) :
    k0_pay1 (F := Ideal) v0 v2 v4 v11 v13 (ix2 r n)
      = (∑ c : Fin 512, (v0 (ix3 (0 : Fin 1) r c) * v2 (ix3 (0 : Fin 1) (0 : Fin 1) c) + v4 (ix3 (0 : Fin 1) (0 : Fin 1) c)) * v11 (ix2 c n))
        + v13 (ix2 (0 : Fin 1) n) := by
  unfold k0_pay1
  show FloatOps.matmul Dqkv none _ _ (constant (F := Ideal) S1024x1536 .f32 0x00000000#32) (ix2 r n) + broadcastTo S1024x1536 _ broadcasts_S1x1536_S1024x1536 (ix2 r n) = _
  refine congrArg₂ (fun a b : EReal => a + b) ?_ ?_
  · refine (Ideal.matmul_constant_zero_apply Dqkv none _ _ (ix2 r n)).trans ?_
    rw [← Equiv.sum_comp chan.symm]
    refine Finset.sum_congr rfl fun c _ => ?_
    rw [lhs_qkv_at, rhs_qkv_at]
    refine congrArg₂ (fun a b : EReal => a * b) ?_ ?_
    · refine congrArg₂ (fun a b : EReal => a + b) (congrArg₂ (fun a b : EReal => a * b) ?_ ?_) ?_
      · exact shapeCast_1ab_ab_apply v0 _ r c
      · exact (broadcastTo_1b_ab_apply _ _ r c).trans (shapeCast_1ab_ab_apply v2 _ (0 : Fin 1) c)
      · exact (broadcastTo_1b_ab_apply _ _ r c).trans (shapeCast_1ab_ab_apply v4 _ (0 : Fin 1) c)
    · exact congrFun (shapeCast_self v11 _) (ix2 c n)
  · exact (broadcastTo_1b_ab_apply _ _ r n).trans (congrFun (shapeCast_self v13 _) (ix2 (0 : Fin 1) n))

/-! ## The three tiles: column slices of the shared payload -/

theorem hz3 : (![0, 0, 0] : Fin 3 → Nat) = fun _ => 0 := funext fun a => by fin_cases a <;> rfl
theorem hz2 : (![0, 0] : Fin 2 → Nat) = fun _ => 0 := funext fun a => by fin_cases a <;> rfl

section Tiles
variable (x0 : Vec Ideal S1x1024x512 .f32) (x1 x2 : Vec Ideal S1x1x512 .f32) (x3 : Vec Ideal S512x1536 .bf16) (x4 : Vec Ideal S1x1536 .f32)

/-- A whole-buffer store of a payload of whole-buffer loads leaves that payload of the buffers' contents. -/
theorem qTile_eq : qTile x0 x1 x2 x3 x4 = k0_pay2 (F := Ideal) x0 x1 x2 x3 x4 := by
  unfold qTile rx0 rrow0 rw0 rb0
  rw [View.canon_unit_zero hz3]
  simp only [View.ld_unit_zero (S := S1x1024x512) hz3, View.ld_unit_zero (S := S1x1x512) hz3,
    View.ld_unit_zero (S := S512x1536) hz2, View.ld_unit_zero (S := S1x1536) hz2]
theorem kTile_eq : kTile x0 x1 x2 x3 x4 = k0_pay3 (F := Ideal) x0 x1 x2 x3 x4 := by
  unfold kTile rx0 rrow0 rw0 rb0
  rw [View.canon_unit_zero hz3]
  simp only [View.ld_unit_zero (S := S1x1024x512) hz3, View.ld_unit_zero (S := S1x1x512) hz3,
    View.ld_unit_zero (S := S512x1536) hz2, View.ld_unit_zero (S := S1x1536) hz2]
theorem vTile_eq : vTile x0 x1 x2 x3 x4 = k0_pay4 (F := Ideal) x0 x1 x2 x3 x4 := by
  unfold vTile rx0 rrow0 rw0 rb0
  rw [View.canon_unit_zero hz3]
  simp only [View.ld_unit_zero (S := S1x1024x512) hz3, View.ld_unit_zero (S := S1x1x512) hz3,
    View.ld_unit_zero (S := S512x1536) hz2, View.ld_unit_zero (S := S1x1536) hz2]

/-- The query payload at (0, r, o) is the shared payload at (r, o): the format change is the identity. -/
theorem pay2_apply (u : Fin 1) (r : Fin 1024) (o : Fin 512) (n : Fin 1536) (hn : n.val = 0 + o.val) :
    k0_pay2 (F := Ideal) x0 x1 x2 x3 x4 (ix3 u r o) = k0_pay1 (F := Ideal) x0 x1 x2 x3 x4 (ix2 r n) := by
  unfold k0_pay2
  refine (shapeCast_ab_1ab_apply _ _ u r o).trans ?_
  show extractStridedSlice S1024x512 ![0, 0] (k0_pay1 (F := Ideal) x0 x1 x2 x3 x4) slices_S1024x1536_o0_0_S1024x512 (ix2 r o) = _
  exact slice2_axis1_apply 0 _ _ r o n hn
/-- The key payload at (0, r, o) is the shared payload at (r, 512 + o). -/
theorem pay3_apply (u : Fin 1) (r : Fin 1024) (o : Fin 512) (n : Fin 1536) (hn : n.val = 512 + o.val) :
    k0_pay3 (F := Ideal) x0 x1 x2 x3 x4 (ix3 u r o) = k0_pay1 (F := Ideal) x0 x1 x2 x3 x4 (ix2 r n) := by
  unfold k0_pay3
  refine (shapeCast_ab_1ab_apply _ _ u r o).trans ?_
  show extractStridedSlice S1024x512 ![0, 512] (k0_pay1 (F := Ideal) x0 x1 x2 x3 x4) slices_S1024x1536_o0_512_S1024x512 (ix2 r o) = _
  exact slice2_axis1_apply 512 _ _ r o n hn
/-- The value payload at (0, r, o) is the shared payload at (r, 1024 + o). -/
theorem pay4_apply (u : Fin 1) (r : Fin 1024) (o : Fin 512) (n : Fin 1536) (hn : n.val = 1024 + o.val) :
    k0_pay4 (F := Ideal) x0 x1 x2 x3 x4 (ix3 u r o) = k0_pay1 (F := Ideal) x0 x1 x2 x3 x4 (ix2 r n) := by
  unfold k0_pay4
  refine (shapeCast_ab_1ab_apply _ _ u r o).trans ?_
  show extractStridedSlice S1024x512 ![0, 1024] (k0_pay1 (F := Ideal) x0 x1 x2 x3 x4) slices_S1024x1536_o0_1024_S1024x512 (ix2 r o) = _
  exact slice2_axis1_apply 1024 _ _ r o n hn

end Tiles

/-! ## The projection of whole arrays -/

/-- Entry (b, p, o) of the projection at column offset `off`: the channel sum of the affinely normalised position against
    column `off + o` of the weight, plus the bias there. -/
def projAt (xf : FVec Ideal S2x4096x512 .f32) (mu ad : FVec Ideal S2x1x512 .f32) (w : FVec Ideal S512x1536 .bf16)
    (bi : FVec Ideal S1x1536 .f32) (off : ℕ) (hoff : off + 512 ≤ 1536) (b : Fin 2) (p : Fin 4096) (o : Fin 512) : EReal :=
  (∑ c : Fin 512, (xf (ix3 b p c) * mu (ix3 b (0 : Fin 1) c) + ad (ix3 b (0 : Fin 1) c))
      * w (ix2 c (⟨off + o.val, by have := o.isLt; omega⟩ : Fin 1536)))
    + bi (ix2 (0 : Fin 1) (⟨off + o.val, by have := o.isLt; omega⟩ : Fin 1536))

/-- The projection as an array [2, 4096, 512]. -/
def projArr (xf : FVec Ideal S2x4096x512 .f32) (mu ad : FVec Ideal S2x1x512 .f32) (w : FVec Ideal S512x1536 .bf16)
    (bi : FVec Ideal S1x1536 .f32) (off : ℕ) (hoff : off + 512 ≤ 1536) : S2x4096x512.Idx → EReal :=
  fun j => projAt xf mu ad w bi off hoff (j 0) (j 1) (j 2)

theorem projArr_at (xf : FVec Ideal S2x4096x512 .f32) (mu ad : FVec Ideal S2x1x512 .f32) (w : FVec Ideal S512x1536 .bf16)
    (bi : FVec Ideal S1x1536 .f32) (off : ℕ) (hoff : off + 512 ≤ 1536) (b : Fin 2) (p : Fin 4096) (o : Fin 512) :
    projArr xf mu ad w bi off hoff (ix3 b p o) = projAt xf mu ad w bi off hoff b p o := rfl

/-- The projection array read at literal coordinates. -/
theorem projArr_apply (xf : FVec Ideal S2x4096x512 .f32) (mu ad : FVec Ideal S2x1x512 .f32) (w : FVec Ideal S512x1536 .bf16)
    (bi : FVec Ideal S1x1536 .f32) (off : ℕ) (hoff : off + 512 ≤ 1536) (b : Fin 2) (p : Fin 4096) (o : Fin 512) :
    projArr xf mu ad w bi off hoff (ix3 b p o)
      = (∑ c : Fin 512, (xf (ix3 b p c) * mu (ix3 b (0 : Fin 1) c) + ad (ix3 b (0 : Fin 1) c))
            * w (ix2 c (⟨off + o.val, by have := o.isLt; omega⟩ : Fin 1536)))
          + bi (ix2 (0 : Fin 1) (⟨off + o.val, by have := o.isLt; omega⟩ : Fin 1536)) := rfl

/-- The shared payload of blocks that are the rows (b, p) of the image, the rows b of the multiplier and offset and the whole
    weight and bias, at (r, off + o), is the projection's entry (b, p, o). -/
theorem pay1_proj (v0 : Vec Ideal S1x1024x512 .f32) (v2 v4 : Vec Ideal S1x1x512 .f32) (v11 : Vec Ideal S512x1536 .bf16)
    (v13 : Vec Ideal S1x1536 .f32) (xf : FVec Ideal S2x4096x512 .f32) (mu ad : FVec Ideal S2x1x512 .f32)
    (w : FVec Ideal S512x1536 .bf16) (bi : FVec Ideal S1x1536 .f32) (off : ℕ) (hoff : off + 512 ≤ 1536)
    (r : Fin 1024) (o : Fin 512) (b : Fin 2) (p : Fin 4096)
    (hx : ∀ c : Fin 512, v0 (ix3 (0 : Fin 1) r c) = xf (ix3 b p c))
    (hm : ∀ c : Fin 512, v2 (ix3 (0 : Fin 1) (0 : Fin 1) c) = mu (ix3 b (0 : Fin 1) c))
    (ha : ∀ c : Fin 512, v4 (ix3 (0 : Fin 1) (0 : Fin 1) c) = ad (ix3 b (0 : Fin 1) c))
    (hw : ∀ (c : Fin 512) (n : Fin 1536), v11 (ix2 c n) = w (ix2 c n))
    (hb : ∀ n : Fin 1536, v13 (ix2 (0 : Fin 1) n) = bi (ix2 (0 : Fin 1) n)) :
    k0_pay1 (F := Ideal) v0 v2 v4 v11 v13 (ix2 r (⟨off + o.val, by have := o.isLt; omega⟩ : Fin 1536))
      = projAt xf mu ad w bi off hoff b p o := by
  refine (pay1_apply v0 v2 v4 v11 v13 r _).trans ?_
  unfold projAt
  refine congrArg₂ (fun a b : EReal => a + b) (Finset.sum_congr rfl fun c _ => ?_) (hb _)
  rw [hx c, hm c, ha c, hw c]

/-! ## Blocks as parts of the arrays -/

section Region0
variable (V : (c : Dev nD) → (b : Ref sig .tc) → Buf (Elt Ideal) ((c : Thread nD τ).loc b))

/-- The five input arrays as the region finds them, and their blocks at a point, over their literal shapes. -/
abbrev xArr (c : Dev nD) : Vec Ideal S2x4096x512 .f32 := V c (Pipeline.arrRef spec0 0)
abbrev muArr (c : Dev nD) : Vec Ideal S2x1x512 .f32 := V c (Pipeline.arrRef spec0 1)
abbrev adArr (c : Dev nD) : Vec Ideal S2x1x512 .f32 := V c (Pipeline.arrRef spec0 2)
abbrev wArr (c : Dev nD) : Vec Ideal S512x1536 .bf16 := V c (Pipeline.arrRef spec0 3)
abbrev bArr (c : Dev nD) : Vec Ideal S1x1536 .f32 := V c (Pipeline.arrRef spec0 4)
abbrev xBlk (c : Dev nD) (t : Fin cfg0.N) : Vec Ideal S1x1024x512 .f32 := tile0 V c 0 t
abbrev muBlk (c : Dev nD) (t : Fin cfg0.N) : Vec Ideal S1x1x512 .f32 := tile0 V c 1 t
abbrev adBlk (c : Dev nD) (t : Fin cfg0.N) : Vec Ideal S1x1x512 .f32 := tile0 V c 2 t
abbrev wBlk (c : Dev nD) (t : Fin cfg0.N) : Vec Ideal S512x1536 .bf16 := tile0 V c 3 t
abbrev bBlk (c : Dev nD) (t : Fin cfg0.N) : Vec Ideal S1x1536 .f32 := tile0 V c 4 t

/-- The index maps over the grid: point t = 4 b + mt reads rows block (b, mt) of the image, row b of the multiplier and of
    the offset, the whole weight and bias, and writes block (b, mt) of each output. -/
theorem idx_facts0 : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The image block at point t holds positions 1024 (t % 4) … of batch t / 4. -/
theorem xBlk_apply (c : Dev nD) (t : Fin cfg0.N) (y : S1x1024x512.Idx) (k : S2x4096x512.Idx)
    (h0 : (k 0).val = t.val / 4) (h1 : (k 1).val = t.val % 4 * 1024 + (y 1).val) (h2 : (k 2).val = (y 2).val) :
    xBlk V c t y = xArr V c k := by
  obtain ⟨⟨e0, e1, e2⟩, -⟩ := idx_facts0 t
  have hy0 : (y 0).val < 1 := (y 0).isLt
  unfold xBlk tile0
  rw [View.read_apply]
  show V c (Pipeline.arrRef spec0 0) _ = V c (Pipeline.arrRef spec0 0) _
  congr 1
  funext a
  apply Fin.ext
  match a with
  | ⟨0, _⟩ => show win0_0.index t (0 : Fin 3) * 1 + 1 * (y 0).val = (k 0).val; rw [e0, h0]; omega
  | ⟨1, _⟩ => show win0_0.index t (1 : Fin 3) * 1024 + 1 * (y 1).val = (k 1).val; rw [e1, h1]; omega
  | ⟨2, _⟩ => show win0_0.index t (2 : Fin 3) * 512 + 1 * (y 2).val = (k 2).val; rw [e2, h2]; omega

/-- The multiplier block at point t is row t / 4. -/
theorem muBlk_apply (c : Dev nD) (t : Fin cfg0.N) (y : S1x1x512.Idx) (k : S2x1x512.Idx)
    (h0 : (k 0).val = t.val / 4) (h2 : (k 2).val = (y 2).val) :
    muBlk V c t y = muArr V c k := by
  obtain ⟨-, ⟨e0, e1, e2⟩, -⟩ := idx_facts0 t
  have hy0 : (y 0).val < 1 := (y 0).isLt
  have hy1 : (y 1).val < 1 := (y 1).isLt
  have hk1 : (k 1).val < 1 := (k 1).isLt
  unfold muBlk tile0
  rw [View.read_apply]
  show V c (Pipeline.arrRef spec0 1) _ = V c (Pipeline.arrRef spec0 1) _
  congr 1
  funext a
  apply Fin.ext
  match a with
  | ⟨0, _⟩ => show win0_1.index t (0 : Fin 3) * 1 + 1 * (y 0).val = (k 0).val; rw [e0, h0]; omega
  | ⟨1, _⟩ => show win0_1.index t (1 : Fin 3) * 1 + 1 * (y 1).val = (k 1).val; rw [e1]; omega
  | ⟨2, _⟩ => show win0_1.index t (2 : Fin 3) * 512 + 1 * (y 2).val = (k 2).val; rw [e2, h2]; omega

/-- The offset block at point t is row t / 4. -/
theorem adBlk_apply (c : Dev nD) (t : Fin cfg0.N) (y : S1x1x512.Idx) (k : S2x1x512.Idx)
    (h0 : (k 0).val = t.val / 4) (h2 : (k 2).val = (y 2).val) :
    adBlk V c t y = adArr V c k := by
  obtain ⟨-, -, ⟨e0, e1, e2⟩, -⟩ := idx_facts0 t
  have hy0 : (y 0).val < 1 := (y 0).isLt
  have hy1 : (y 1).val < 1 := (y 1).isLt
  have hk1 : (k 1).val < 1 := (k 1).isLt
  unfold adBlk tile0
  rw [View.read_apply]
  show V c (Pipeline.arrRef spec0 2) _ = V c (Pipeline.arrRef spec0 2) _
  congr 1
  funext a
  apply Fin.ext
  match a with
  | ⟨0, _⟩ => show win0_2.index t (0 : Fin 3) * 1 + 1 * (y 0).val = (k 0).val; rw [e0, h0]; omega
  | ⟨1, _⟩ => show win0_2.index t (1 : Fin 3) * 1 + 1 * (y 1).val = (k 1).val; rw [e1]; omega
  | ⟨2, _⟩ => show win0_2.index t (2 : Fin 3) * 512 + 1 * (y 2).val = (k 2).val; rw [e2, h2]; omega

/-- The weight block at every point is the weight. -/
theorem wBlk_apply (c : Dev nD) (t : Fin cfg0.N) (y : S512x1536.Idx) : wBlk V c t y = wArr V c y := by
  obtain ⟨-, -, -, ⟨e0, e1⟩, -⟩ := idx_facts0 t
  unfold wBlk tile0
  rw [View.read_apply]
  show V c (Pipeline.arrRef spec0 3) _ = V c (Pipeline.arrRef spec0 3) _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 1536 + 1 * (y 1).val = (y 1).val; rw [e1]; omega

/-- The bias block at every point is the bias. -/
theorem bBlk_apply (c : Dev nD) (t : Fin cfg0.N) (y : S1x1536.Idx) : bBlk V c t y = bArr V c y := by
  obtain ⟨-, -, -, -, ⟨e0, e1⟩, -⟩ := idx_facts0 t
  unfold bBlk tile0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1536 + 1 * (y 1).val = (y 1).val; rw [e1]; omega

/-! ## The query array -/

/-- At a point, the query payload of the point's blocks, at a tile index, is the projection of the whole arrays at the array index
    the tile index sits at. -/
theorem q_point (c : Dev nD) (t : Fin cfg0.N) (y : S1x1024x512.Idx) (j : S2x4096x512.Idx)
    (h0 : (j 0).val = t.val / 4) (h1 : (j 1).val = t.val % 4 * 1024 + (y 1).val) (h2 : (j 2).val = (y 2).val) :
    k0_pay2 (F := Ideal) (xBlk V c t) (muBlk V c t) (adBlk V c t) (wBlk V c t) (bBlk V c t) y
      = projArr (xArr V c) (muArr V c) (adArr V c) (wArr V c) (bArr V c) 0 (by omega) j := by
  obtain ⟨u, r, o, rfl⟩ : ∃ (u : Fin 1) (r : Fin 1024) (o : Fin 512), y = ix3 u r o := ⟨y 0, y 1, y 2, eq_ix3 y⟩
  obtain ⟨b, p, q, rfl⟩ : ∃ (b : Fin 2) (p : Fin 4096) (q : Fin 512), j = ix3 b p q := ⟨j 0, j 1, j 2, eq_ix3 j⟩
  have hq : q = o := Fin.ext h2
  subst hq
  refine (pay2_apply (xBlk V c t) (muBlk V c t) (adBlk V c t) (wBlk V c t) (bBlk V c t) u r q
    (⟨0 + q.val, by have := q.isLt; omega⟩ : Fin 1536) rfl).trans ?_
  refine (pay1_proj (xBlk V c t) (muBlk V c t) (adBlk V c t) (wBlk V c t) (bBlk V c t)
    (xArr V c) (muArr V c) (adArr V c) (wArr V c) (bArr V c) 0 (by omega) r q b p ?_ ?_ ?_ ?_ ?_).trans
    (projArr_at (xArr V c) (muArr V c) (adArr V c) (wArr V c) (bArr V c) 0 (by omega) b p q).symm
  · exact fun ch => xBlk_apply V c t _ _ h0 h1 rfl
  · exact fun ch => muBlk_apply V c t _ _ h0 rfl
  · exact fun ch => adBlk_apply V c t _ _ h0 rfl
  · exact fun ch n => wBlk_apply V c t _
  · exact fun n => bBlk_apply V c t _

/-- What point t writes back to the query array is block t of the projection. -/
theorem q_flushed (c : Dev nD) (t : Fin cfg0.N) :
    (dat0 V c).flushed 5 t
      = ((cfg0.win 5).blk t).view.read (Elt Ideal) (projArr (xArr V c) (muArr V c) (adArr V c) (wArr V c) (bArr V c) 0 (by omega)) := by
  show (cfg0.win 5).cut (grid0.coords t) ((dat0 V c).after 5 t) = _
  rw [after0_5, qTile_eq]
  obtain ⟨-, -, -, -, -, ⟨e0, e1, e2⟩, -, -⟩ := idx_facts0 t
  funext y
  have hy0 : (y 0).val < 1 := (y 0).isLt
  refine q_point V c t y (((cfg0.win 5).blk t).view.emb y) ?_ ?_ ?_
  · show win0_5.index t (0 : Fin 3) * 1 + 1 * (y 0).val = t.val / 4; rw [e0]; omega
  · show win0_5.index t (1 : Fin 3) * 1024 + 1 * (y 1).val = t.val % 4 * 1024 + (y 1).val; rw [e1]; omega
  · show win0_5.index t (2 : Fin 3) * 512 + 1 * (y 2).val = (y 2).val; rw [e2]; omega

/-- An index of the query array is in point t's block iff each coordinate is in the block's range on its axis. -/
theorem q_mem_blk (t : Fin cfg0.N) (i : S2x4096x512.Idx) :
    i ∈ ((cfg0.win 5).blk t).view.set
      ↔ ∀ a : Fin 3, win0_5.index t a * S1x1024x512.size a ≤ (i a).val ∧ (i a).val < win0_5.index t a * S1x1024x512.size a + S1x1024x512.size a := by
  show i ∈ ((View.whole main_v35_0).slice (win0_5.rect t)).set ↔ _
  rw [View.set_slice_whole, Rect.mem_set_unit]
  exact Iff.rfl

/-- Position p of batch b lies in the block of point 4 b + p / 1024. -/
theorem q_cover (i : S2x4096x512.Idx) :
    ∃ t : Fin cfg0.N, (cfg0.win 5).flush t = true ∧ i ∈ ((cfg0.win 5).blk t).view.set := by
  have h0 : (i 0).val < 2 := (i 0).isLt
  have h1 : (i 1).val < 4096 := (i 1).isLt
  have h2 : (i 2).val < 512 := (i 2).isLt
  have hN : cfg0.N = 8 := N_0
  obtain ⟨t, ht⟩ : ∃ t : Fin cfg0.N, t.val = (i 0).val * 4 + (i 1).val / 1024 :=
    ⟨⟨(i 0).val * 4 + (i 1).val / 1024, by rw [hN]; omega⟩, rfl⟩
  obtain ⟨-, -, -, -, -, ⟨e0, e1, e2⟩, -, -⟩ := idx_facts0 t
  refine ⟨t, flush0_5 t, ?_⟩
  rw [q_mem_blk]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 1024 ≤ (i 1).val ∧ (i 1).val < win0_5.index t (1 : Fin 3) * 1024 + 1024; rw [e1, ht]; omega
  | ⟨2, _⟩ => show win0_5.index t (2 : Fin 3) * 512 ≤ (i 2).val ∧ (i 2).val < win0_5.index t (2 : Fin 3) * 512 + 512; rw [e2]; omega

/-- The query array after the region: the projection at column offset 0 of the arrays the region is entered with. -/
theorem q_arr (c : Dev nD) :
    (dat0 V c).arrAt 5 cfg0.N
      = projArr (V c (Pipeline.arrRef spec0 0)) (V c (Pipeline.arrRef spec0 1)) (V c (Pipeline.arrRef spec0 2))
          (V c (Pipeline.arrRef spec0 3)) (V c (Pipeline.arrRef spec0 4)) 0 (by omega) :=
  (dat0 V c).arrAt_eq_of_cover 5 (projArr (xArr V c) (muArr V c) (adArr V c) (wArr V c) (bArr V c) 0 (by omega))
    (fun t _ => q_flushed V c t) q_cover

/-! ## The key array -/

/-- At a point, the key payload of the point's blocks, at a tile index, is the projection of the whole arrays at the array index
    the tile index sits at. -/
theorem k_point (c : Dev nD) (t : Fin cfg0.N) (y : S1x1024x512.Idx) (j : S2x4096x512.Idx)
    (h0 : (j 0).val = t.val / 4) (h1 : (j 1).val = t.val % 4 * 1024 + (y 1).val) (h2 : (j 2).val = (y 2).val) :
    k0_pay3 (F := Ideal) (xBlk V c t) (muBlk V c t) (adBlk V c t) (wBlk V c t) (bBlk V c t) y
      = projArr (xArr V c) (muArr V c) (adArr V c) (wArr V c) (bArr V c) 512 (by omega) j := by
  obtain ⟨u, r, o, rfl⟩ : ∃ (u : Fin 1) (r : Fin 1024) (o : Fin 512), y = ix3 u r o := ⟨y 0, y 1, y 2, eq_ix3 y⟩
  obtain ⟨b, p, q, rfl⟩ : ∃ (b : Fin 2) (p : Fin 4096) (q : Fin 512), j = ix3 b p q := ⟨j 0, j 1, j 2, eq_ix3 j⟩
  have hq : q = o := Fin.ext h2
  subst hq
  refine (pay3_apply (xBlk V c t) (muBlk V c t) (adBlk V c t) (wBlk V c t) (bBlk V c t) u r q
    (⟨512 + q.val, by have := q.isLt; omega⟩ : Fin 1536) rfl).trans ?_
  refine (pay1_proj (xBlk V c t) (muBlk V c t) (adBlk V c t) (wBlk V c t) (bBlk V c t)
    (xArr V c) (muArr V c) (adArr V c) (wArr V c) (bArr V c) 512 (by omega) r q b p ?_ ?_ ?_ ?_ ?_).trans
    (projArr_at (xArr V c) (muArr V c) (adArr V c) (wArr V c) (bArr V c) 512 (by omega) b p q).symm
  · exact fun ch => xBlk_apply V c t _ _ h0 h1 rfl
  · exact fun ch => muBlk_apply V c t _ _ h0 rfl
  · exact fun ch => adBlk_apply V c t _ _ h0 rfl
  · exact fun ch n => wBlk_apply V c t _
  · exact fun n => bBlk_apply V c t _

/-- What point t writes back to the key array is block t of the projection. -/
theorem k_flushed (c : Dev nD) (t : Fin cfg0.N) :
    (dat0 V c).flushed 6 t
      = ((cfg0.win 6).blk t).view.read (Elt Ideal) (projArr (xArr V c) (muArr V c) (adArr V c) (wArr V c) (bArr V c) 512 (by omega)) := by
  show (cfg0.win 6).cut (grid0.coords t) ((dat0 V c).after 6 t) = _
  rw [after0_6, kTile_eq]
  obtain ⟨-, -, -, -, -, -, ⟨e0, e1, e2⟩, -⟩ := idx_facts0 t
  funext y
  have hy0 : (y 0).val < 1 := (y 0).isLt
  refine k_point V c t y (((cfg0.win 6).blk t).view.emb y) ?_ ?_ ?_
  · show win0_6.index t (0 : Fin 3) * 1 + 1 * (y 0).val = t.val / 4; rw [e0]; omega
  · show win0_6.index t (1 : Fin 3) * 1024 + 1 * (y 1).val = t.val % 4 * 1024 + (y 1).val; rw [e1]; omega
  · show win0_6.index t (2 : Fin 3) * 512 + 1 * (y 2).val = (y 2).val; rw [e2]; omega

/-- An index of the key array is in point t's block iff each coordinate is in the block's range on its axis. -/
theorem k_mem_blk (t : Fin cfg0.N) (i : S2x4096x512.Idx) :
    i ∈ ((cfg0.win 6).blk t).view.set
      ↔ ∀ a : Fin 3, win0_6.index t a * S1x1024x512.size a ≤ (i a).val ∧ (i a).val < win0_6.index t a * S1x1024x512.size a + S1x1024x512.size a := by
  show i ∈ ((View.whole main_v35_1).slice (win0_6.rect t)).set ↔ _
  rw [View.set_slice_whole, Rect.mem_set_unit]
  exact Iff.rfl

/-- Position p of batch b lies in the block of point 4 b + p / 1024. -/
theorem k_cover (i : S2x4096x512.Idx) :
    ∃ t : Fin cfg0.N, (cfg0.win 6).flush t = true ∧ i ∈ ((cfg0.win 6).blk t).view.set := by
  have h0 : (i 0).val < 2 := (i 0).isLt
  have h1 : (i 1).val < 4096 := (i 1).isLt
  have h2 : (i 2).val < 512 := (i 2).isLt
  have hN : cfg0.N = 8 := N_0
  obtain ⟨t, ht⟩ : ∃ t : Fin cfg0.N, t.val = (i 0).val * 4 + (i 1).val / 1024 :=
    ⟨⟨(i 0).val * 4 + (i 1).val / 1024, by rw [hN]; omega⟩, rfl⟩
  obtain ⟨-, -, -, -, -, -, ⟨e0, e1, e2⟩, -⟩ := idx_facts0 t
  refine ⟨t, flush0_6 t, ?_⟩
  rw [k_mem_blk]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 1024 ≤ (i 1).val ∧ (i 1).val < win0_6.index t (1 : Fin 3) * 1024 + 1024; rw [e1, ht]; omega
  | ⟨2, _⟩ => show win0_6.index t (2 : Fin 3) * 512 ≤ (i 2).val ∧ (i 2).val < win0_6.index t (2 : Fin 3) * 512 + 512; rw [e2]; omega

/-- The key array after the region: the projection at column offset 512 of the arrays the region is entered with. -/
theorem k_arr (c : Dev nD) :
    (dat0 V c).arrAt 6 cfg0.N
      = projArr (V c (Pipeline.arrRef spec0 0)) (V c (Pipeline.arrRef spec0 1)) (V c (Pipeline.arrRef spec0 2))
          (V c (Pipeline.arrRef spec0 3)) (V c (Pipeline.arrRef spec0 4)) 512 (by omega) :=
  (dat0 V c).arrAt_eq_of_cover 6 (projArr (xArr V c) (muArr V c) (adArr V c) (wArr V c) (bArr V c) 512 (by omega))
    (fun t _ => k_flushed V c t) k_cover

/-! ## The value array -/

/-- At a point, the value payload of the point's blocks, at a tile index, is the projection of the whole arrays at the array index
    the tile index sits at. -/
theorem v_point (c : Dev nD) (t : Fin cfg0.N) (y : S1x1024x512.Idx) (j : S2x4096x512.Idx)
    (h0 : (j 0).val = t.val / 4) (h1 : (j 1).val = t.val % 4 * 1024 + (y 1).val) (h2 : (j 2).val = (y 2).val) :
    k0_pay4 (F := Ideal) (xBlk V c t) (muBlk V c t) (adBlk V c t) (wBlk V c t) (bBlk V c t) y
      = projArr (xArr V c) (muArr V c) (adArr V c) (wArr V c) (bArr V c) 1024 (by omega) j := by
  obtain ⟨u, r, o, rfl⟩ : ∃ (u : Fin 1) (r : Fin 1024) (o : Fin 512), y = ix3 u r o := ⟨y 0, y 1, y 2, eq_ix3 y⟩
  obtain ⟨b, p, q, rfl⟩ : ∃ (b : Fin 2) (p : Fin 4096) (q : Fin 512), j = ix3 b p q := ⟨j 0, j 1, j 2, eq_ix3 j⟩
  have hq : q = o := Fin.ext h2
  subst hq
  refine (pay4_apply (xBlk V c t) (muBlk V c t) (adBlk V c t) (wBlk V c t) (bBlk V c t) u r q
    (⟨1024 + q.val, by have := q.isLt; omega⟩ : Fin 1536) rfl).trans ?_
  refine (pay1_proj (xBlk V c t) (muBlk V c t) (adBlk V c t) (wBlk V c t) (bBlk V c t)
    (xArr V c) (muArr V c) (adArr V c) (wArr V c) (bArr V c) 1024 (by omega) r q b p ?_ ?_ ?_ ?_ ?_).trans
    (projArr_at (xArr V c) (muArr V c) (adArr V c) (wArr V c) (bArr V c) 1024 (by omega) b p q).symm
  · exact fun ch => xBlk_apply V c t _ _ h0 h1 rfl
  · exact fun ch => muBlk_apply V c t _ _ h0 rfl
  · exact fun ch => adBlk_apply V c t _ _ h0 rfl
  · exact fun ch n => wBlk_apply V c t _
  · exact fun n => bBlk_apply V c t _

/-- What point t writes back to the value array is block t of the projection. -/
theorem v_flushed (c : Dev nD) (t : Fin cfg0.N) :
    (dat0 V c).flushed 7 t
      = ((cfg0.win 7).blk t).view.read (Elt Ideal) (projArr (xArr V c) (muArr V c) (adArr V c) (wArr V c) (bArr V c) 1024 (by omega)) := by
  show (cfg0.win 7).cut (grid0.coords t) ((dat0 V c).after 7 t) = _
  rw [after0_7, vTile_eq]
  obtain ⟨-, -, -, -, -, -, -, ⟨e0, e1, e2⟩⟩ := idx_facts0 t
  funext y
  have hy0 : (y 0).val < 1 := (y 0).isLt
  refine v_point V c t y (((cfg0.win 7).blk t).view.emb y) ?_ ?_ ?_
  · show win0_7.index t (0 : Fin 3) * 1 + 1 * (y 0).val = t.val / 4; rw [e0]; omega
  · show win0_7.index t (1 : Fin 3) * 1024 + 1 * (y 1).val = t.val % 4 * 1024 + (y 1).val; rw [e1]; omega
  · show win0_7.index t (2 : Fin 3) * 512 + 1 * (y 2).val = (y 2).val; rw [e2]; omega

/-- An index of the value array is in point t's block iff each coordinate is in the block's range on its axis. -/
theorem v_mem_blk (t : Fin cfg0.N) (i : S2x4096x512.Idx) :
    i ∈ ((cfg0.win 7).blk t).view.set
      ↔ ∀ a : Fin 3, win0_7.index t a * S1x1024x512.size a ≤ (i a).val ∧ (i a).val < win0_7.index t a * S1x1024x512.size a + S1x1024x512.size a := by
  show i ∈ ((View.whole main_v35_2).slice (win0_7.rect t)).set ↔ _
  rw [View.set_slice_whole, Rect.mem_set_unit]
  exact Iff.rfl

/-- Position p of batch b lies in the block of point 4 b + p / 1024. -/
theorem v_cover (i : S2x4096x512.Idx) :
    ∃ t : Fin cfg0.N, (cfg0.win 7).flush t = true ∧ i ∈ ((cfg0.win 7).blk t).view.set := by
  have h0 : (i 0).val < 2 := (i 0).isLt
  have h1 : (i 1).val < 4096 := (i 1).isLt
  have h2 : (i 2).val < 512 := (i 2).isLt
  have hN : cfg0.N = 8 := N_0
  obtain ⟨t, ht⟩ : ∃ t : Fin cfg0.N, t.val = (i 0).val * 4 + (i 1).val / 1024 :=
    ⟨⟨(i 0).val * 4 + (i 1).val / 1024, by rw [hN]; omega⟩, rfl⟩
  obtain ⟨-, -, -, -, -, -, -, ⟨e0, e1, e2⟩⟩ := idx_facts0 t
  refine ⟨t, flush0_7 t, ?_⟩
  rw [v_mem_blk]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 1024 ≤ (i 1).val ∧ (i 1).val < win0_7.index t (1 : Fin 3) * 1024 + 1024; rw [e1, ht]; omega
  | ⟨2, _⟩ => show win0_7.index t (2 : Fin 3) * 512 ≤ (i 2).val ∧ (i 2).val < win0_7.index t (2 : Fin 3) * 512 + 512; rw [e2]; omega

/-- The value array after the region: the projection at column offset 1024 of the arrays the region is entered with. -/
theorem v_arr (c : Dev nD) :
    (dat0 V c).arrAt 7 cfg0.N
      = projArr (V c (Pipeline.arrRef spec0 0)) (V c (Pipeline.arrRef spec0 1)) (V c (Pipeline.arrRef spec0 2))
          (V c (Pipeline.arrRef spec0 3)) (V c (Pipeline.arrRef spec0 4)) 1024 (by omega) :=
  (dat0 V c).arrAt_eq_of_cover 7 (projArr (xArr V c) (muArr V c) (adArr V c) (wArr V c) (bArr V c) 1024 (by omega))
    (fun t _ => v_flushed V c t) v_cover

end Region0

end Cert.KernelIdeal.Hand

end
-- ==== Proof.KIValue1.lean ====
/-
  Region 1 read as mathematics. The body's arithmetic at one entry (r, o) of a result tile: the scores of query row r
  against every key, their maximum, the shifted exponentials and their sum, the value product normalised by one over
  that sum, the output projection, its bias and the residual. Then: what a grid point (b, qi) writes back is block
  (b, qi) of ONE function of the arrays the region finds, and the blocks tile the result array, so the array ends
  holding that function: the attention block of AttnIdx over the query, key and value arrays.
-/
import proofs.«420147_j24412594110471_3_alg».proof.Proof.KIRegion1
import proofs.«420147_j24412594110471_3_alg».proof.Proof.AttnIdx
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ### The two float literals of the body -/

/-- The pattern the row maximum starts from is minus infinity. -/
theorem negInf_f32 : Ideal.ofBits .f32 0xFF800000#32 = (⊥ : EReal) := by
  simp [Ideal.ofBits, Ideal.ieee]

/-! ### The three products at an entry -/

/-- Scores: query row r against key row j, summed over the 512 channels. -/
abbrev Dqk := dot_S256x512_S4096x512_S256x4096_1_1_0_0_n_n
/-- Weights against values: summed over the 4096 key positions. -/
abbrev Dpv := dot_S256x4096_S4096x512_S256x512_1_0_0_1_n_n
/-- Output projection: summed over the 512 channels. -/
abbrev Dwp := dot_S256x512_S512x512_S256x512_1_0_0_1_n_n

theorem lhs_qk_0 (j : S256x4096.Idx) (k : Dqk.contr.Idx) : (Dqk.lhsIdx j k 0 : ℕ) = j 0 := by
  simp [DotDims.lhsIdx, Dqk, dot_S256x512_S4096x512_S256x4096_1_1_0_0_n_n]; rfl
theorem lhs_qk_1 (j : S256x4096.Idx) (k : Dqk.contr.Idx) : (Dqk.lhsIdx j k 1 : ℕ) = k ⟨0, by decide⟩ := by
  simp [DotDims.lhsIdx, Dqk, dot_S256x512_S4096x512_S256x4096_1_1_0_0_n_n]; rfl
theorem rhs_qk_0 (j : S256x4096.Idx) (k : Dqk.contr.Idx) : (Dqk.rhsIdx j k 0 : ℕ) = j 1 := by
  simp [DotDims.rhsIdx, Dqk, dot_S256x512_S4096x512_S256x4096_1_1_0_0_n_n]; rfl
theorem rhs_qk_1 (j : S256x4096.Idx) (k : Dqk.contr.Idx) : (Dqk.rhsIdx j k 1 : ℕ) = k ⟨0, by decide⟩ := by
  simp [DotDims.rhsIdx, Dqk, dot_S256x512_S4096x512_S256x4096_1_1_0_0_n_n]; rfl

theorem lhs_pv_0 (j : S256x512.Idx) (k : Dpv.contr.Idx) : (Dpv.lhsIdx j k 0 : ℕ) = j 0 := by
  simp [DotDims.lhsIdx, Dpv, dot_S256x4096_S4096x512_S256x512_1_0_0_1_n_n]; rfl
theorem lhs_pv_1 (j : S256x512.Idx) (k : Dpv.contr.Idx) : (Dpv.lhsIdx j k 1 : ℕ) = k ⟨0, by decide⟩ := by
  simp [DotDims.lhsIdx, Dpv, dot_S256x4096_S4096x512_S256x512_1_0_0_1_n_n]; rfl
theorem rhs_pv_0 (j : S256x512.Idx) (k : Dpv.contr.Idx) : (Dpv.rhsIdx j k 0 : ℕ) = k ⟨0, by decide⟩ := by
  simp [DotDims.rhsIdx, Dpv, dot_S256x4096_S4096x512_S256x512_1_0_0_1_n_n]; rfl
theorem rhs_pv_1 (j : S256x512.Idx) (k : Dpv.contr.Idx) : (Dpv.rhsIdx j k 1 : ℕ) = j 1 := by
  simp [DotDims.rhsIdx, Dpv, dot_S256x4096_S4096x512_S256x512_1_0_0_1_n_n]; rfl

theorem lhs_wp_0 (j : S256x512.Idx) (k : Dwp.contr.Idx) : (Dwp.lhsIdx j k 0 : ℕ) = j 0 := by
  simp [DotDims.lhsIdx, Dwp, dot_S256x512_S512x512_S256x512_1_0_0_1_n_n]; rfl
theorem lhs_wp_1 (j : S256x512.Idx) (k : Dwp.contr.Idx) : (Dwp.lhsIdx j k 1 : ℕ) = k ⟨0, by decide⟩ := by
  simp [DotDims.lhsIdx, Dwp, dot_S256x512_S512x512_S256x512_1_0_0_1_n_n]; rfl
theorem rhs_wp_0 (j : S256x512.Idx) (k : Dwp.contr.Idx) : (Dwp.rhsIdx j k 0 : ℕ) = k ⟨0, by decide⟩ := by
  simp [DotDims.rhsIdx, Dwp, dot_S256x512_S512x512_S256x512_1_0_0_1_n_n]; rfl
theorem rhs_wp_1 (j : S256x512.Idx) (k : Dwp.contr.Idx) : (Dwp.rhsIdx j k 1 : ℕ) = j 1 := by
  simp [DotDims.rhsIdx, Dwp, dot_S256x512_S512x512_S256x512_1_0_0_1_n_n]; rfl

/-- The score of query row r and key row j is the sum over channels of their products. -/
theorem scores_apply (q : FVec Ideal S256x512 .bf16) (k : FVec Ideal S4096x512 .bf16) (r : Fin 256) (j : Fin 4096) :
    matmul Dqk none q k (constant (F := Ideal) S256x4096 .f32 0x00000000#32) (ix2 r j)
      = ∑ d : Fin 512, q (ix2 r d) * k (ix2 j d) := by
  refine (Ideal.matmul_constant_zero_apply Dqk none q k (ix2 r j)).trans ?_
  rw [← Equiv.sum_comp (contrEquiv1 Dqk 512 rfl rfl).symm]
  refine Finset.sum_congr rfl fun d _ => ?_
  have hk := contrEquiv1_symm_val Dqk 512 rfl rfl d
  congr 2
  · funext a; apply Fin.ext
    match a with
    | ⟨0, _⟩ => exact lhs_qk_0 _ _
    | ⟨1, _⟩ => exact (lhs_qk_1 _ _).trans hk
  · funext a; apply Fin.ext
    match a with
    | ⟨0, _⟩ => exact rhs_qk_0 _ _
    | ⟨1, _⟩ => exact (rhs_qk_1 _ _).trans hk

/-- The weighted values at (r, o): the sum over key positions. -/
theorem pv_apply (p : FVec Ideal S256x4096 .bf16) (v : FVec Ideal S4096x512 .bf16) (r : Fin 256) (o : Fin 512) :
    matmul Dpv none p v (constant (F := Ideal) S256x512 .f32 0x00000000#32) (ix2 r o)
      = ∑ j : Fin 4096, p (ix2 r j) * v (ix2 j o) := by
  refine (Ideal.matmul_constant_zero_apply Dpv none p v (ix2 r o)).trans ?_
  rw [← Equiv.sum_comp (contrEquiv1 Dpv 4096 rfl rfl).symm]
  refine Finset.sum_congr rfl fun d _ => ?_
  have hk := contrEquiv1_symm_val Dpv 4096 rfl rfl d
  congr 2
  · funext a; apply Fin.ext
    match a with
    | ⟨0, _⟩ => exact lhs_pv_0 _ _
    | ⟨1, _⟩ => exact (lhs_pv_1 _ _).trans hk
  · funext a; apply Fin.ext
    match a with
    | ⟨0, _⟩ => exact (rhs_pv_0 _ _).trans hk
    | ⟨1, _⟩ => exact rhs_pv_1 _ _

/-- The projection at (r, o): the sum over channels. -/
theorem wp_apply (a : FVec Ideal S256x512 .bf16) (w : FVec Ideal S512x512 .bf16) (r : Fin 256) (o : Fin 512) :
    matmul Dwp none a w (constant (F := Ideal) S256x512 .f32 0x00000000#32) (ix2 r o)
      = ∑ c : Fin 512, a (ix2 r c) * w (ix2 c o) := by
  refine (Ideal.matmul_constant_zero_apply Dwp none a w (ix2 r o)).trans ?_
  rw [← Equiv.sum_comp (contrEquiv1 Dwp 512 rfl rfl).symm]
  refine Finset.sum_congr rfl fun d _ => ?_
  have hk := contrEquiv1_symm_val Dwp 512 rfl rfl d
  congr 2
  · funext a; apply Fin.ext
    match a with
    | ⟨0, _⟩ => exact lhs_wp_0 _ _
    | ⟨1, _⟩ => exact (lhs_wp_1 _ _).trans hk
  · funext a; apply Fin.ext
    match a with
    | ⟨0, _⟩ => exact (rhs_wp_0 _ _).trans hk
    | ⟨1, _⟩ => exact rhs_wp_1 _ _

/-! ### A column of per-row numbers: made from a vector, and spread over the row -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at row i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ### The two row reductions -/

/-- The row (r, ·) of a [256, 4096] array, as the reduction over axis 1 indexes it. -/
theorem lift_row (h : S256x4096.Reduces [1] S256) (r : Fin 256) (j : Fin 4096) :
    h.lift (ix1 r) j = ix2 r j := by
  funext a; apply Fin.ext
  match a with
  | ⟨0, _⟩ => rfl
  | ⟨1, _⟩ => rfl

/-- A row's maximum, from minus infinity. -/
theorem rowmax_apply (s : FVec Ideal S256x4096 .f32) (h : S256x4096.Reduces [1] S256) (hφ : FKind.Formats .f32)
    (hacc : (0xFF800000#32 : BitVec 32) = FKind.maximumf.neutral .f32 hφ) (r : Fin 256) :
    multiReduction .maximumf [1] S256 s 0xFF800000#32 h hφ hacc (ix1 r)
      = (Finset.univ : Finset (Fin 4096)).fold max ⊥ (fun j => s (ix2 r j)) := by
  refine (Ideal.multiReduction_maximumf_single s 0xFF800000#32 h hφ hacc (ix1 r)).trans ?_
  show (Finset.univ : Finset (Fin 4096)).fold max (Ideal.ofBits .f32 0xFF800000#32) (s ∘ h.lift (ix1 r)) = _
  rw [negInf_f32]
  exact congrArg (fun f => (Finset.univ : Finset (Fin 4096)).fold max ⊥ f) (funext fun j => congrArg s (lift_row h r j))

/-- A row's sum. -/
theorem rowsum_apply (p : FVec Ideal S256x4096 .f32) (h : S256x4096.Reduces [1] S256) (hφ : FKind.Formats .f32)
    (hacc : (0x00000000#32 : BitVec 32) = FKind.add.neutral .f32 hφ) (r : Fin 256) :
    multiReduction .add [1] S256 p 0x00000000#32 h hφ hacc (ix1 r) = ∑ j : Fin 4096, p (ix2 r j) := by
  refine (Ideal.multiReduction_add_single p 0x00000000#32 h hφ hacc (ix1 r)).trans ?_
  show ∑ j : Fin 4096, p (h.lift (ix1 r) j) = _
  exact Finset.sum_congr rfl fun j _ => congrArg p (lift_row h r j)

/-! ### The body's arithmetic in four stages -/

/-- The scores of a query tile against the keys. -/
def scT (q : FVec Ideal S256x512 .bf16) (k : FVec Ideal S4096x512 .bf16) : FVec Ideal S256x4096 .f32 :=
  matmul Dqk none q k (constant (F := Ideal) S256x4096 .f32 0x00000000#32)

/-- The exponentials of the scores shifted by their row's maximum. -/
def peT (s : FVec Ideal S256x4096 .f32) : FVec Ideal S256x4096 .f32 :=
  exp (subf s (broadcastTo S256x4096 (shapeCast S256x1
    (multiReduction .maximumf [1] S256 s 0xFF800000#32 reduces_S256x4096_S256 (.inl rfl) rfl) shapeCasts_S256_S256x1) broadcasts_S256x1_S256x4096))

/-- The weighted values, times one over the weights' row sum. -/
def atT (p : FVec Ideal S256x4096 .f32) (v : FVec Ideal S4096x512 .bf16) : FVec Ideal S256x512 .f32 :=
  mulf (matmul Dpv none (truncf .bf16 p bitsLt_bf16_f32) v (constant (F := Ideal) S256x512 .f32 0x00000000#32))
    (broadcastTo S256x512 (divf (broadcast S256x1 (Scalar.ofBits (F := Ideal) .f32 0x3F800000#32))
      (shapeCast S256x1 (multiReduction .add [1] S256 p 0x00000000#32 reduces_S256x4096_S256 (.inl rfl) rfl) shapeCasts_S256_S256x1))
      broadcasts_S256x1_S256x512)

/-- The projection, its bias and the residual. -/
def prT (a : FVec Ideal S256x512 .f32) (w : FVec Ideal S512x512 .bf16) (bias : FVec Ideal S1x512 .f32) (x : FVec Ideal S256x512 .f32) :
    FVec Ideal S256x512 .f32 :=
  addf (addf (matmul Dwp none (truncf .bf16 a bitsLt_bf16_f32) w (constant (F := Ideal) S256x512 .f32 0x00000000#32))
    (broadcastTo S256x512 bias broadcasts_S1x512_S256x512)) x

/-- The body's payload is the four stages over the loaded blocks with their unit axes dropped. -/
theorem pay_eq (x0 : FVec Ideal S1x256x512 .bf16) (x1 x2 : FVec Ideal S1x4096x512 .bf16) (x3 : FVec Ideal S1x256x512 .f32)
    (x4 : FVec Ideal S512x512 .bf16) (x5 : FVec Ideal S1x512 .f32) :
    k1_pay1 (F := Ideal) (k1_pay2 x0 x1 x2 x4 x5 x3)
      = shapeCast S1x256x512 (prT (atT (peT (scT (shapeCast S256x512 x0 shapeCasts_S1x256x512_S256x512)
            (shapeCast S4096x512 x1 shapeCasts_S1x4096x512_S4096x512))) (shapeCast S4096x512 x2 shapeCasts_S1x4096x512_S4096x512))
          (shapeCast S512x512 x4 shapeCasts_S512x512_S512x512) (shapeCast S1x512 x5 shapeCasts_S1x512_S1x512)
          (shapeCast S256x512 x3 shapeCasts_S1x256x512_S256x512)) shapeCasts_S256x512_S1x256x512 := rfl

theorem peT_apply (s : FVec Ideal S256x4096 .f32) (r : Fin 256) (j : Fin 4096) :
    peT s (ix2 r j) = Ideal.exp (s (ix2 r j) - (Finset.univ : Finset (Fin 4096)).fold max ⊥ (fun j' => s (ix2 r j'))) := by
  unfold peT
  show Ideal.exp (s (ix2 r j) - broadcastTo S256x4096 _ broadcasts_S256x1_S256x4096 (ix2 r j)) = _
  rw [broadcastTo_a1_ab_apply, shapeCast_a_a1_apply]
  exact congrArg (fun m => Ideal.exp (s (ix2 r j) - m)) (rowmax_apply s _ _ _ r)

theorem atT_apply (p : FVec Ideal S256x4096 .f32) (v : FVec Ideal S4096x512 .bf16) (r : Fin 256) (c : Fin 512) :
    atT p v (ix2 r c) = (∑ j : Fin 4096, p (ix2 r j) * v (ix2 j c)) * Ideal.div 1 (∑ j : Fin 4096, p (ix2 r j)) := by
  unfold atT
  show matmul Dpv none _ v _ (ix2 r c) * broadcastTo S256x512 _ broadcasts_S256x1_S256x512 (ix2 r c) = _
  rw [pv_apply, broadcastTo_a1_ab_apply]
  show _ * Ideal.div (Ideal.ofBits .f32 0x3F800000#32) (shapeCast S256x1 _ shapeCasts_S256_S256x1 (ix2 r (0 : Fin 1))) = _
  rw [shapeCast_a_a1_apply, Ideal.ofBits_one_f32]
  exact congrArg (fun l => (∑ j : Fin 4096, p (ix2 r j) * v (ix2 j c)) * Ideal.div 1 l) (rowsum_apply p _ _ _ r)

theorem prT_apply (a : FVec Ideal S256x512 .f32) (w : FVec Ideal S512x512 .bf16) (bias : FVec Ideal S1x512 .f32)
    (x : FVec Ideal S256x512 .f32) (r : Fin 256) (o : Fin 512) :
    prT a w bias x (ix2 r o) = (∑ c : Fin 512, a (ix2 r c) * w (ix2 c o)) + bias (ix2 (0 : Fin 1) o) + x (ix2 r o) := by
  unfold prT
  show matmul Dwp none _ w _ (ix2 r o) + broadcastTo S256x512 bias broadcasts_S1x512_S256x512 (ix2 r o) + x (ix2 r o) = _
  rw [wp_apply, broadcastTo_1b_ab_apply]
  rfl

theorem scT_apply (q : FVec Ideal S256x512 .bf16) (k : FVec Ideal S4096x512 .bf16) (r : Fin 256) (j : Fin 4096) :
    scT q k (ix2 r j) = ∑ d : Fin 512, q (ix2 r d) * k (ix2 j d) := scores_apply q k r j

/-! ### One entry of a result tile -/

/-- The block's result at one query row and one output channel: from the row of queries, the keys, the values, the
    projection weight, its bias and the residual entry. The scores of the row against every key, shifted by their
    maximum and exponentiated, weigh the values; the weighted sum is normalised by one over the weights' sum,
    projected, and the bias and the residual are added. -/
def rowOut (qr : Fin 512 → EReal) (kk vv : Fin 4096 → Fin 512 → EReal) (W : Fin 512 → Fin 512 → EReal)
    (bias : Fin 512 → EReal) (xr : EReal) (o : Fin 512) : EReal :=
  (∑ c : Fin 512,
      ((∑ j : Fin 4096, Ideal.exp ((∑ d : Fin 512, qr d * kk j d)
            - (Finset.univ : Finset (Fin 4096)).fold max ⊥ (fun j' => ∑ d : Fin 512, qr d * kk j' d)) * vv j c)
        * Ideal.div 1 (∑ j : Fin 4096, Ideal.exp ((∑ d : Fin 512, qr d * kk j d)
            - (Finset.univ : Finset (Fin 4096)).fold max ⊥ (fun j' => ∑ d : Fin 512, qr d * kk j' d)))) * W c o)
    + bias o + xr

/-- The attention block of AttnIdx at (b, i, o) is that entry at query row (b, i) and batch element b's keys and values. -/
theorem outFof_eq_rowOut (q k v x : Fin 2 → Fin 4096 → Fin 512 → EReal) (Wp : Fin 512 → Fin 512 → EReal) (bp : Fin 512 → EReal)
    (b : Fin 2) (i : Fin 4096) (o : Fin 512) :
    Attn.outFof q k v x Wp bp b i o = rowOut (q b i) (k b) (v b) Wp bp (x b i o) o := rfl

/-- The body's payload at entry (r, o) of its tile. -/
theorem tile_apply (x0 : FVec Ideal S1x256x512 .bf16) (x1 x2 : FVec Ideal S1x4096x512 .bf16) (x3 : FVec Ideal S1x256x512 .f32)
    (x4 : FVec Ideal S512x512 .bf16) (x5 : FVec Ideal S1x512 .f32) (u : Fin 1) (r : Fin 256) (o : Fin 512) :
    k1_pay1 (F := Ideal) (k1_pay2 x0 x1 x2 x4 x5 x3) (ix3 u r o)
      = rowOut (fun d => x0 (ix3 (0 : Fin 1) r d)) (fun j d => x1 (ix3 (0 : Fin 1) j d)) (fun j d => x2 (ix3 (0 : Fin 1) j d))
          (fun c o' => x4 (ix2 c o')) (fun o' => x5 (ix2 (0 : Fin 1) o')) (x3 (ix3 (0 : Fin 1) r o)) o := by
  rw [pay_eq, shapeCast_ab_1ab_apply, prT_apply]
  simp only [atT_apply, peT_apply, scT_apply, shapeCast_1ab_ab_apply, shapeCast_self]
  rfl

/-! ### The grid: which block of each array a point reads and writes -/

/-- The index maps, decided over the 32 points: point t = 16 b + qi takes batch element b = t / 16 of every activation
    array, query tile qi = t % 16 of the queries, the residual and the result, and the whole of the keys, the values,
    the weight and the bias. -/
theorem idx_facts1 : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = t.val % 16 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 16 ∧ win1_6.index t (1 : Fin 3) = t.val % 16 ∧ win1_6.index t (2 : Fin 3) = 0 :=
  (by decide +kernel : ∀ t : Fin grid1.N, _)

section Blocks
variable (V : (c : Dev nD) → (b : Ref sig .tc) → Buf (Elt Ideal) ((c : Thread nD τ).loc b))

/-- The arrays as the region finds them, and each window's block at a point, at their literal types. -/
abbrev qArr (c : Dev nD) : FVec Ideal S2x4096x512 .bf16 := V c (Pipeline.arrRef spec1 0)
abbrev kArr (c : Dev nD) : FVec Ideal S2x4096x512 .bf16 := V c (Pipeline.arrRef spec1 1)
abbrev vArr (c : Dev nD) : FVec Ideal S2x4096x512 .bf16 := V c (Pipeline.arrRef spec1 2)
abbrev xArr1 (c : Dev nD) : FVec Ideal S2x4096x512 .f32 := V c (Pipeline.arrRef spec1 3)
abbrev wArr1 (c : Dev nD) : FVec Ideal S512x512 .bf16 := V c (Pipeline.arrRef spec1 4)
abbrev bArr1 (c : Dev nD) : FVec Ideal S1x512 .f32 := V c (Pipeline.arrRef spec1 5)
abbrev qblk (c : Dev nD) (t : Fin cfg1.N) : FVec Ideal S1x256x512 .bf16 := tile1 V c 0 t
abbrev kblk (c : Dev nD) (t : Fin cfg1.N) : FVec Ideal S1x4096x512 .bf16 := tile1 V c 1 t
abbrev vblk (c : Dev nD) (t : Fin cfg1.N) : FVec Ideal S1x4096x512 .bf16 := tile1 V c 2 t
abbrev xblk (c : Dev nD) (t : Fin cfg1.N) : FVec Ideal S1x256x512 .f32 := tile1 V c 3 t
abbrev wblk (c : Dev nD) (t : Fin cfg1.N) : FVec Ideal S512x512 .bf16 := tile1 V c 4 t
abbrev bblk (c : Dev nD) (t : Fin cfg1.N) : FVec Ideal S1x512 .f32 := tile1 V c 5 t

/-- Row r of the query tile at point t is row 256 (t % 16) + r of batch element t / 16. -/
theorem qblk_apply (c : Dev nD) (t : Fin cfg1.N) (u : Fin 1) (r : Fin 256) (d : Fin 512) (b : Fin 2) (i : Fin 4096)
    (hb : b.val = t.val / 16) (hi : i.val = 256 * (t.val % 16) + r.val) :
    qblk V c t (ix3 u r d) = qArr V c (ix3 b i d) := by
  obtain ⟨e0, e1, e2, -⟩ := idx_facts1 t
  unfold qblk tile1 qArr
  rw [View.read_apply]
  refine congrArg (V c (Pipeline.arrRef spec1 0)) ?_
  funext a
  apply Fin.ext
  have hu : u.val = 0 := by omega
  match a with
  | ⟨0, _⟩ => show win1_0.index t (0 : Fin 3) * 1 + 1 * u.val = b.val; omega
  | ⟨1, _⟩ => show win1_0.index t (1 : Fin 3) * 256 + 1 * r.val = i.val; omega
  | ⟨2, _⟩ => show win1_0.index t (2 : Fin 3) * 512 + 1 * d.val = d.val; omega

/-- The key block at point t is the whole of batch element t / 16. -/
theorem kblk_apply (c : Dev nD) (t : Fin cfg1.N) (u : Fin 1) (j : Fin 4096) (d : Fin 512) (b : Fin 2)
    (hb : b.val = t.val / 16) : kblk V c t (ix3 u j d) = kArr V c (ix3 b j d) := by
  obtain ⟨-, -, -, e0, e1, e2, -⟩ := idx_facts1 t
  unfold kblk tile1 kArr
  rw [View.read_apply]
  refine congrArg (V c (Pipeline.arrRef spec1 1)) ?_
  funext a
  apply Fin.ext
  have hu : u.val = 0 := by omega
  match a with
  | ⟨0, _⟩ => show win1_1.index t (0 : Fin 3) * 1 + 1 * u.val = b.val; omega
  | ⟨1, _⟩ => show win1_1.index t (1 : Fin 3) * 4096 + 1 * j.val = j.val; omega
  | ⟨2, _⟩ => show win1_1.index t (2 : Fin 3) * 512 + 1 * d.val = d.val; omega

/-- The value block likewise. -/
theorem vblk_apply (c : Dev nD) (t : Fin cfg1.N) (u : Fin 1) (j : Fin 4096) (d : Fin 512) (b : Fin 2)
    (hb : b.val = t.val / 16) : vblk V c t (ix3 u j d) = vArr V c (ix3 b j d) := by
  obtain ⟨-, -, -, -, -, -, e0, e1, e2, -⟩ := idx_facts1 t
  unfold vblk tile1 vArr
  rw [View.read_apply]
  refine congrArg (V c (Pipeline.arrRef spec1 2)) ?_
  funext a
  apply Fin.ext
  have hu : u.val = 0 := by omega
  match a with
  | ⟨0, _⟩ => show win1_2.index t (0 : Fin 3) * 1 + 1 * u.val = b.val; omega
  | ⟨1, _⟩ => show win1_2.index t (1 : Fin 3) * 4096 + 1 * j.val = j.val; omega
  | ⟨2, _⟩ => show win1_2.index t (2 : Fin 3) * 512 + 1 * d.val = d.val; omega

/-- The residual tile moves with the query tile. -/
theorem xblk_apply (c : Dev nD) (t : Fin cfg1.N) (u : Fin 1) (r : Fin 256) (d : Fin 512) (b : Fin 2) (i : Fin 4096)
    (hb : b.val = t.val / 16) (hi : i.val = 256 * (t.val % 16) + r.val) :
    xblk V c t (ix3 u r d) = xArr1 V c (ix3 b i d) := by
  obtain ⟨-, -, -, -, -, -, -, -, -, e0, e1, e2, -⟩ := idx_facts1 t
  unfold xblk tile1 xArr1
  rw [View.read_apply]
  refine congrArg (V c (Pipeline.arrRef spec1 3)) ?_
  funext a
  apply Fin.ext
  have hu : u.val = 0 := by omega
  match a with
  | ⟨0, _⟩ => show win1_3.index t (0 : Fin 3) * 1 + 1 * u.val = b.val; omega
  | ⟨1, _⟩ => show win1_3.index t (1 : Fin 3) * 256 + 1 * r.val = i.val; omega
  | ⟨2, _⟩ => show win1_3.index t (2 : Fin 3) * 512 + 1 * d.val = d.val; omega

/-- The weight's one block is the weight. -/
theorem wblk_apply (c : Dev nD) (t : Fin cfg1.N) (p : Fin 512) (o : Fin 512) : wblk V c t (ix2 p o) = wArr1 V c (ix2 p o) := by
  obtain ⟨-, -, -, -, -, -, -, -, -, -, -, -, e0, e1, -⟩ := idx_facts1 t
  unfold wblk tile1 wArr1
  rw [View.read_apply]
  refine congrArg (V c (Pipeline.arrRef spec1 4)) ?_
  funext a
  apply Fin.ext
  match a with
  | ⟨0, _⟩ => show win1_4.index t (0 : Fin 2) * 512 + 1 * p.val = p.val; omega
  | ⟨1, _⟩ => show win1_4.index t (1 : Fin 2) * 512 + 1 * o.val = o.val; omega

/-- The bias row's one block is the bias row. -/
theorem bblk_apply (c : Dev nD) (t : Fin cfg1.N) (u : Fin 1) (o : Fin 512) : bblk V c t (ix2 u o) = bArr1 V c (ix2 u o) := by
  obtain ⟨-, -, -, -, -, -, -, -, -, -, -, -, -, -, e0, e1, -⟩ := idx_facts1 t
  unfold bblk tile1 bArr1
  rw [View.read_apply]
  refine congrArg (V c (Pipeline.arrRef spec1 5)) ?_
  funext a
  apply Fin.ext
  match a with
  | ⟨0, _⟩ => show win1_5.index t (0 : Fin 2) * 1 + 1 * u.val = u.val; omega
  | ⟨1, _⟩ => show win1_5.index t (1 : Fin 2) * 512 + 1 * o.val = o.val; omega

/-! ### What a point writes back, and the array at the end -/

theorem hz3r1 : (![0, 0, 0] : Fin 3 → Nat) = fun _ => 0 := funext fun a => by fin_cases a <;> rfl
theorem hz2r1 : (![0, 0] : Fin 2 → Nat) = fun _ => 0 := funext fun a => by fin_cases a <;> rfl

/-- The array the region leaves: the attention block over the query, key and value arrays, the residual, the
    projection weight and its bias row. -/
def attnArr (q k v : FVec Ideal S2x4096x512 .bf16) (xf : FVec Ideal S2x4096x512 .f32) (wp : FVec Ideal S512x512 .bf16)
    (bp : FVec Ideal S1x512 .f32) : S2x4096x512.Idx → EReal :=
  fun j => Attn.outFof (Attn.act3 q) (Attn.act3 k) (Attn.act3 v) (Attn.act3 xf) (Attn.mat2 wp) (fun o => bp (ix2 (0 : Fin 1) o)) (j 0) (j 1) (j 2)

/-- It at literal coordinates. -/
theorem attnArr_apply (q k v : FVec Ideal S2x4096x512 .bf16) (xf : FVec Ideal S2x4096x512 .f32) (wp : FVec Ideal S512x512 .bf16)
    (bp : FVec Ideal S1x512 .f32) (b : Fin 2) (i : Fin 4096) (o : Fin 512) :
    attnArr q k v xf wp bp (ix3 b i o)
      = Attn.outFof (Attn.act3 q) (Attn.act3 k) (Attn.act3 v) (Attn.act3 xf) (Attn.mat2 wp) (fun o => bp (ix2 (0 : Fin 1) o)) b i o := rfl

/-- What point t writes back is block t of that array: entry (r, o) of the tile is the block's entry at batch element
    t / 16, position 256 (t % 16) + r and channel o, whose query row, keys, values and residual the point's blocks are. -/
theorem flushed_eq1 (c : Dev nD) (t : Fin cfg1.N) :
    (dat1 V c).flushed 6 t = ((cfg1.win 6).blk t).view.read (Elt Ideal)
      (attnArr (qArr V c) (kArr V c) (vArr V c) (xArr1 V c) (wArr1 V c) (bArr1 V c)) := by
  show (cfg1.win 6).cut (grid1.coords t) ((dat1 V c).after 6 t) = _
  rw [after1_6]
  unfold oTile
  rw [View.canon_unit_zero hz3r1]
  simp only [View.ld_unit_zero (S := S1x256x512) hz3r1, View.ld_unit_zero (S := S1x4096x512) hz3r1,
    View.ld_unit_zero (S := S512x512) hz2r1, View.ld_unit_zero (S := S1x512) hz2r1]
  refine funext fun (y : S1x256x512.Idx) => ?_
  obtain ⟨u, r, o, rfl⟩ : ∃ (u : Fin 1) (r : Fin 256) (o : Fin 512), y = ix3 u r o := ⟨y 0, y 1, y 2, eq_ix3 y⟩
  show k1_pay1 (F := Ideal) (k1_pay2 (qblk V c t) (kblk V c t) (vblk V c t) (wblk V c t) (bblk V c t) (xblk V c t)) (ix3 u r o)
    = attnArr (qArr V c) (kArr V c) (vArr V c) (xArr1 V c) (wArr1 V c) (bArr1 V c) (((cfg1.win 6).blk t).view.emb (ix3 u r o))
  have hN : cfg1.N = 32 := N_1
  have ht := t.isLt
  obtain ⟨b, hb⟩ : ∃ b : Fin 2, b.val = t.val / 16 := ⟨⟨t.val / 16, by omega⟩, rfl⟩
  obtain ⟨i, hi⟩ : ∃ i : Fin 4096, i.val = 256 * (t.val % 16) + r.val := ⟨⟨256 * (t.val % 16) + r.val, by omega⟩, rfl⟩
  have he : ((cfg1.win 6).blk t).view.emb (ix3 u r o) = ix3 b i o := by
    obtain ⟨-, -, -, -, -, -, -, -, -, -, -, -, -, -, -, -, e0, e1, e2⟩ := idx_facts1 t
    have hu : u.val = 0 := by omega
    funext a
    apply Fin.ext
    match a with
    | ⟨0, _⟩ => show win1_6.index t (0 : Fin 3) * 1 + 1 * u.val = b.val; omega
    | ⟨1, _⟩ => show win1_6.index t (1 : Fin 3) * 256 + 1 * r.val = i.val; omega
    | ⟨2, _⟩ => show win1_6.index t (2 : Fin 3) * 512 + 1 * o.val = o.val; omega
  rw [he, attnArr_apply, outFof_eq_rowOut]
  refine (tile_apply (qblk V c t) (kblk V c t) (vblk V c t) (xblk V c t) (wblk V c t) (bblk V c t) u r o).trans ?_
  have h0 : (fun d => qblk V c t (ix3 (0 : Fin 1) r d)) = Attn.act3 (qArr V c) b i :=
    funext fun d => qblk_apply V c t 0 r d b i hb hi
  have h1 : (fun j d => kblk V c t (ix3 (0 : Fin 1) j d)) = Attn.act3 (kArr V c) b :=
    funext fun j => funext fun d => kblk_apply V c t 0 j d b hb
  have h2 : (fun j d => vblk V c t (ix3 (0 : Fin 1) j d)) = Attn.act3 (vArr V c) b :=
    funext fun j => funext fun d => vblk_apply V c t 0 j d b hb
  have h3 : (fun p o' => wblk V c t (ix2 p o')) = Attn.mat2 (wArr1 V c) :=
    funext fun p => funext fun o' => wblk_apply V c t p o'
  have h4 : (fun o' => bblk V c t (ix2 (0 : Fin 1) o')) = fun o' => bArr1 V c (ix2 (0 : Fin 1) o') :=
    funext fun o' => bblk_apply V c t 0 o'
  have h5 : xblk V c t (ix3 (0 : Fin 1) r o) = Attn.act3 (xArr1 V c) b i o := xblk_apply V c t 0 r o b i hb hi
  rw [h0, h1, h2, h3, h4, h5]

/-- An index of the result array is in point t's block iff each coordinate is in the block's range on its axis. -/
theorem mem_blk1 (t : Fin cfg1.N) (i : S2x4096x512.Idx) :
    i ∈ ((cfg1.win 6).blk t).view.set
      ↔ ∀ a : Fin 3, win1_6.index t a * S1x256x512.size a ≤ (i a).val ∧ (i a).val < win1_6.index t a * S1x256x512.size a + S1x256x512.size a := by
  show i ∈ ((View.whole main_v36).slice (win1_6.rect t)).set ↔ _
  rw [View.set_slice_whole, Rect.mem_set_unit]
  exact Iff.rfl

/-- The 32 tiles cover the result array: entry (b, p, o) lies in the tile of point 16 b + p / 256. -/
theorem cover1 (i : S2x4096x512.Idx) : ∃ t : Fin cfg1.N, (cfg1.win 6).flush t = true ∧ i ∈ ((cfg1.win 6).blk t).view.set := by
  have h0 : (i 0).val < 2 := (i 0).isLt
  have h1 : (i 1).val < 4096 := (i 1).isLt
  have h2 : (i 2).val < 512 := (i 2).isLt
  have hN : cfg1.N = 32 := N_1
  obtain ⟨t, ht⟩ : ∃ t : Fin cfg1.N, t.val = 16 * (i 0).val + (i 1).val / 256 := ⟨⟨16 * (i 0).val + (i 1).val / 256, by omega⟩, rfl⟩
  refine ⟨t, flush1_6 t, ?_⟩
  rw [mem_blk1]
  obtain ⟨-, -, -, -, -, -, -, -, -, -, -, -, -, -, -, -, e0, e1, e2⟩ := idx_facts1 t
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 512 ≤ (i 2).val ∧ (i 2).val < win1_6.index t (2 : Fin 3) * 512 + 512; omega

/-- The result array after the region: the attention block of the arrays the region finds. -/
theorem o_arr (c : Dev nD) :
    (dat1 V c).arrAt 6 cfg1.N
      = attnArr (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 (attnArr (qArr V c) (kArr V c) (vArr V c) (xArr1 V c) (wArr1 V c) (bArr1 V c))
    (fun t _ => flushed_eq1 V c t) cover1

end Blocks

end Cert.KernelIdeal.Hand

end
-- ==== Proof.StatsTerm.lean ====
/-
  The group statistics of the image as whole-array terms of the host operations that compute them, at the exact
  extended reals: the image regrouped as [2, 64, 64, 32, 16]; the sum over rows, columns and the sixteen channels of a
  group; the mean (the sum over 65536); the centred squares and their sum; the variance (that sum over 65536 less the
  degrees-of-freedom correction, here zero, guarded by the sign of that divisor); the reciprocal standard deviation
  rsqrt (variance + epsilon).
-/
import proofs.«420147_j24412594110471_3_alg».proof.Proof.Gen.KernelIdeal
import Idealize.ShloMosaic.PureOps.Ideal

noncomputable section

namespace Cert.KernelIdeal.Hand

open Cert.KernelIdeal Cert.KernelIdeal.Gen Idealize.ShloMosaic

/-- The image regrouped: channel c = 16 g + e becomes (g, e). -/
def x5 (X : FVec Ideal S2x64x64x512 .f32) : FVec Ideal S2x64x64x32x16 .f32 :=
  shapeCast S2x64x64x32x16 X shapeCasts_S2x64x64x512_S2x64x64x32x16
/-- The sum of a batch element's group. -/
def sumArr (X : FVec Ideal S2x64x64x512 .f32) : FVec Ideal S2x32 .f32 :=
  Host.reduceAdd (x5 X) (constant (F := Ideal) S_ .f32 0x00000000#32) reducesTo_S2x64x64x32x16_S2x32_d1_2_4 h_S_
/-- The group mean. -/
def meanArr (X : FVec Ideal S2x64x64x512 .f32) : FVec Ideal S2x32 .f32 :=
  Host.divf (sumArr X) (broadcastInDim S2x32 ![] bcast_S_S2x32 (constant (F := Ideal) S_ .f32 0x47800000#32))
/-- The image less its group mean. -/
def cenArr (X : FVec Ideal S2x64x64x512 .f32) : FVec Ideal S2x64x64x32x16 .f32 :=
  subf (x5 X) (broadcastInDim S2x64x64x32x16 ![0, 1, 2, 3, 4] bcast_S2x1x1x32x1_S2x64x64x32x16_0_1_2_3_4
    (Host.divf (broadcastInDim S2x1x1x32x1 ![0, 3] bcast_S2x32_S2x1x1x32x1_0_3 (sumArr X))
      (broadcastInDim S2x1x1x32x1 ![] bcast_S_S2x1x1x32x1 (constant (F := Ideal) S_ .f32 0x47800000#32))))
/-- The sum of the centred squares of a group. -/
def ssArr (X : FVec Ideal S2x64x64x512 .f32) : FVec Ideal S2x32 .f32 :=
  Host.reduceAdd (mulf (cenArr X) (cenArr X)) (constant (F := Ideal) S_ .f32 0x00000000#32) reducesTo_S2x64x64x32x16_S2x32_d1_2_4 h_S_
/-- The variance's divisor: 65536 less the correction, zero. -/
def nEff : FVec Ideal S_ .f32 :=
  subf (constant (F := Ideal) S_ .f32 0x47800000#32) (sitofp (F := Ideal) .f32 (constantI S_ 32 0#32))
/-- The group variance. -/
def varArr (X : FVec Ideal S2x64x64x512 .f32) : FVec Ideal S2x32 .f32 :=
  select (broadcastInDim S2x32 ![] bcast_S_S2x32 (cmpf (F := Ideal) .ogt nEff (constant (F := Ideal) S_ .f32 0x00000000#32)))
    (Host.divf (ssArr X) (broadcastInDim S2x32 ![] bcast_S_S2x32 nEff))
    (broadcastInDim S2x32 ![] bcast_S_S2x32 (id (constant (F := Ideal) S_ .f32 0x7FC00000#32)))
/-- The group's reciprocal standard deviation. -/
def rstdArr (X : FVec Ideal S2x64x64x512 .f32) : FVec Ideal S2x32 .f32 :=
  Host.rsqrt (addf (varArr X) (broadcastInDim S2x32 ![] bcast_S_S2x32 (constant (F := Ideal) S_ .f32 0x358637BD#32)))

end Cert.KernelIdeal.Hand

end
-- ==== Proof.LibNary3.lean ====
/-
  A StableHLO operation over three operand references: what it leaves at its result reference, with each operand's
  contents read at its own literal reference.
-/
import Idealize.ShloMosaic.Lib.StableHlo.Run

noncomputable section

namespace Idealize.ShloMosaic.StableHlo

variable {τ : Topo} {sig : RefSig} {Val : EltTy → Type}

/-- An operation over a LITERAL family of three operand references (a concatenation of three arrays), read at its
    result reference: its function applied to the family whose member k is the contents found at operand k's own
    reference, in place of the family read through the indexing of the literal vector. The three-operand companion of
    the four-operand statement. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KIHost.lean ====
/-
  The host stretches before the first region, read at an index.
  Before the regions run, the host regroups the image, forms each batch element's group sums, means, variances and
  reciprocal standard deviations, repeats mean and reciprocal deviation along the sixteen channels of a group, forms
  the normalisation's multiplier row  rstd * gamma  and offset row  beta - mean * rstd * gamma, flattens the image to
  [2, 4096, 512], scales the query weight and bias, lays the three weights side by side as [512, 1536] and the three
  biases as [1536], and re-types the weights (the identity over the extended reals).
  Here: each array the regions read, at an index, as a function of the launch contents.
-/
import proofs.«420147_j24412594110471_3_alg».proof.Proof.Gen.KernelIdeal.Launch
import proofs.«420147_j24412594110471_3_alg».proof.Proof.Gen.KernelIdeal.Regions
import proofs.«420147_j24412594110471_3_alg».proof.Proof.StatsTerm
import proofs.«420147_j24412594110471_3_alg».proof.Proof.AttnIdx
import proofs.«420147_j24412594110471_3_alg».proof.Proof.LibNary3
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe
open Attn Idealize.ShloMosaic.ValueIdx

/-! ## Array-level pieces and their values at an index -/

/-- The query scale, 512 ^ (-1/2) as a float's bits. -/
abbrev qscale : EReal := Ideal.ofBits .f32 0x3D3504F3#32

/-- The reciprocal standard deviation of given variances. -/
def rstdOf (v : FVec Ideal S2x32 .f32) : FVec Ideal S2x32 .f32 :=
  Host.rsqrt (addf v (broadcastInDim S2x32 ![] bcast_S_S2x32 (constant (F := Ideal) S_ .f32 0x358637BD#32)))

theorem rstdArr_eq (X : FVec Ideal S2x64x64x512 .f32) : rstdArr X = rstdOf (varArr X) := rfl

/-- A per-group array repeated along the sixteen channels of each group. -/
def rep (v : FVec Ideal S2x32 .f32) : FVec Ideal S2x512 .f32 :=
  shapeCast S2x512 (broadcastInDim S2x32x16 ![0, 1] bcast_S2x32_S2x32x16_0_1 v) shapeCasts_S2x32x16_S2x512

/-- A per-channel vector repeated over the batch. -/
def rows (g : FVec Ideal S512 .f32) : FVec Ideal S2x512 .f32 :=
  broadcastInDim S2x512 ![0, 1] bcast_S1x512_S2x512_0_1 (broadcastInDim S1x512 ![1] bcast_S512_S1x512_1 g)

/-- Channel c belongs to group c / 16. -/
theorem rep_apply (v : FVec Ideal S2x32 .f32) (b : Fin 2) (c : Fin 512) : rep v (ix2 b c) = v (ix2 b (grp c)) := by
  unfold rep
  refine (shapeCast_apply _ _ _ (ix3 b (grp c) (⟨c.val % 16, Nat.mod_lt _ (by decide)⟩ : Fin 16)) ?_).trans ?_
  · rw [Shape.rowMajor_val_three, Shape.rowMajor_val_two]
    show (b.val * 32 + c.val / 16) * 16 + c.val % 16 = b.val * 512 + c.val
    omega
  · exact broadcastInDim_apply _ _ _ _ (ix2 b (grp c)) (fun a => match a with | ⟨0, _⟩ => rfl | ⟨1, _⟩ => rfl)

theorem rows_apply (g : FVec Ideal S512 .f32) (b : Fin 2) (c : Fin 512) : rows g (ix2 b c) = g (ix1 c) := by
  unfold rows
  refine (broadcastInDim_apply _ _ _ _ (ix2 (0 : Fin 1) c) (fun a => match a with | ⟨0, _⟩ => rfl | ⟨1, _⟩ => rfl)).trans ?_
  exact broadcastInDim_apply _ _ _ _ (ix1 c) (fun a => match a with | ⟨0, _⟩ => rfl)

/-- A [2, 512] array with a unit axis put in the middle. -/
theorem mid_apply (x : FVec Ideal S2x512 .f32) (b : Fin 2) (c : Fin 512) :
    shapeCast S2x1x512 x shapeCasts_S2x512_S2x1x512 (ix3 b (0 : Fin 1) c) = x (ix2 b c) :=
  shapeCast_apply x _ _ _ (by
    rw [Shape.rowMajor_val_two, Shape.rowMajor_val_three]
    show b.val * 512 + c.val = (b.val * 1 + 0) * 512 + c.val
    omega)

/-- The flattened image at a flat position is the image at that position's pixel. -/
theorem flat_apply (X : FVec Ideal S2x64x64x512 .f32) (b : Fin 2) (p : Fin 4096) (c : Fin 512) :
    shapeCast S2x4096x512 X shapeCasts_S2x64x64x512_S2x4096x512 (ix3 b p c) = xOf X b p c :=
  shapeCast_apply X _ _ (ix4 b (hi p) (lo p) c) (by
    rw [Shape.rowMajor_val_four, Shape.rowMajor_val_three]
    show ((b.val * 64 + p.val / 64) * 64 + p.val % 64) * 512 + c.val = (b.val * 4096 + p.val) * 512 + c.val
    omega)

/-- Three [512, 512] matrices side by side. -/
abbrev cat3w (A B C : FVec Ideal S512x512 .f32) : FVec Ideal S512x1536 .f32 :=
  concatenate S512x1536 1 [⟨S512x512, A⟩, ⟨S512x512, B⟩, ⟨S512x512, C⟩] concatenates_S512x512_S512x512_S512x512_S512x1536_d1

/-- Three [512] vectors end to end. -/
abbrev cat3b (A B C : FVec Ideal S512 .f32) : FVec Ideal S1536 .f32 :=
  concatenate S1536 0 [⟨S512, A⟩, ⟨S512, B⟩, ⟨S512, C⟩] concatenates_S512_S512_S512_S1536_d0

theorem cat3w_apply0 (A B C : FVec Ideal S512x512 .f32) (c o : Fin 512) (h : o.val < 1536) :
    cat3w A B C (ix2 c (⟨o.val, h⟩ : Fin 1536)) = A (ix2 c o) :=
  concatenate_apply_piece (t := S512x1536) 1 _ _ _ 0 (by show (0 : ℕ) < 3; decide) S512x512 A rfl rfl 0 rfl (ix2 c o)
    (fun b hb => match b, hb with | ⟨0, _⟩, _ => rfl | ⟨1, _⟩, hb => absurd rfl hb) (Nat.zero_add _)

theorem cat3w_apply1 (A B C : FVec Ideal S512x512 .f32) (c o : Fin 512) (h : 512 + o.val < 1536) :
    cat3w A B C (ix2 c (⟨512 + o.val, h⟩ : Fin 1536)) = B (ix2 c o) :=
  concatenate_apply_piece (t := S512x1536) 1 _ _ _ 1 (by show (1 : ℕ) < 3; decide) S512x512 B rfl rfl 512 rfl (ix2 c o)
    (fun b hb => match b, hb with | ⟨0, _⟩, _ => rfl | ⟨1, _⟩, hb => absurd rfl hb) rfl

theorem cat3w_apply2 (A B C : FVec Ideal S512x512 .f32) (c o : Fin 512) (h : 1024 + o.val < 1536) :
    cat3w A B C (ix2 c (⟨1024 + o.val, h⟩ : Fin 1536)) = C (ix2 c o) :=
  concatenate_apply_piece (t := S512x1536) 1 _ _ _ 2 (by show (2 : ℕ) < 3; decide) S512x512 C rfl rfl 1024 rfl (ix2 c o)
    (fun b hb => match b, hb with | ⟨0, _⟩, _ => rfl | ⟨1, _⟩, hb => absurd rfl hb) rfl

theorem cat3b_apply0 (A B C : FVec Ideal S512 .f32) (o : Fin 512) (h : o.val < 1536) :
    cat3b A B C (ix1 (⟨o.val, h⟩ : Fin 1536)) = A (ix1 o) :=
  concatenate_apply_piece (t := S1536) 0 _ _ _ 0 (by show (0 : ℕ) < 3; decide) S512 A rfl rfl 0 rfl (ix1 o)
    (fun b hb => match b, hb with | ⟨0, _⟩, hb => absurd rfl hb) (Nat.zero_add _)

theorem cat3b_apply1 (A B C : FVec Ideal S512 .f32) (o : Fin 512) (h : 512 + o.val < 1536) :
    cat3b A B C (ix1 (⟨512 + o.val, h⟩ : Fin 1536)) = B (ix1 o) :=
  concatenate_apply_piece (t := S1536) 0 _ _ _ 1 (by show (1 : ℕ) < 3; decide) S512 B rfl rfl 512 rfl (ix1 o)
    (fun b hb => match b, hb with | ⟨0, _⟩, hb => absurd rfl hb) rfl

theorem cat3b_apply2 (A B C : FVec Ideal S512 .f32) (o : Fin 512) (h : 1024 + o.val < 1536) :
    cat3b A B C (ix1 (⟨1024 + o.val, h⟩ : Fin 1536)) = C (ix1 o) :=
  concatenate_apply_piece (t := S1536) 0 _ _ _ 2 (by show (2 : ℕ) < 3; decide) S512 C rfl rfl 1024 rfl (ix1 o)
    (fun b hb => match b, hb with | ⟨0, _⟩, hb => absurd rfl hb) rfl

/-- A matrix scaled by the query scale, at an index. -/
theorem scaleW_apply (A : FVec Ideal S512x512 .f32) (j : S512x512.Idx) :
    mulf A (broadcastInDim S512x512 ![] bcast_S_S512x512 (constant (F := Ideal) S_ .f32 0x3D3504F3#32)) j = A j * qscale := by
  rw [mulf_apply, broadcastInDim_scalar_apply, constant_apply]

/-- A vector scaled by the query scale, at an index. -/
theorem scaleB_apply (A : FVec Ideal S512 .f32) (j : S512.Idx) :
    mulf A (broadcastInDim S512 ![] bcast_S_S512 (constant (F := Ideal) S_ .f32 0x3D3504F3#32)) j = A j * qscale := by
  rw [mulf_apply, broadcastInDim_scalar_apply, constant_apply]

/-! ## What each stretch leaves, over the contents it finds -/

open Idealize.ShloMosaic.StableHlo in
/-- A buffer read after a stretch of operations: each operation's result at its own result buffer is its function of
    its operands' contents, and at any other buffer what was there; three-operand operations included. -/
local macro "after_results3" : tactic =>
  `(tactic| (simp only [after_cons, after_nil]
             repeat (first
               | rw [nullary_result] | rw [unary_result] | rw [binary_result] | rw [ternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

section Stretches
variable (W : Valuation τ sig (Elt Ideal))

/-- The regrouped image after the first stretch. -/
theorem s0_x5 : (StableHlo.after (hostOps0 (F := Ideal)) W main_v0 : FVec Ideal S2x64x64x32x16 .f32)
    = x5 (W main_arg0 : FVec Ideal S2x64x64x512 .f32) := by
  after_results; rfl

/-- The degrees-of-freedom correction after the first stretch: zero. -/
theorem s0_c : (StableHlo.after (hostOps0 (F := Ideal)) W main_c : IVec S_ 32) = constantI S_ 32 0#32 := by
  after_results

/-- The group means after the first stretch. -/
theorem s0_mean : (StableHlo.after (hostOps0 (F := Ideal)) W main_v3 : FVec Ideal S2x32 .f32)
    = meanArr (W main_arg0 : FVec Ideal S2x64x64x512 .f32) := by
  after_results; rfl

/-- The group variances after the variance function's stretch, entered with the regrouped image and the zero
    correction. -/
theorem s1_var (X : FVec Ideal S2x64x64x512 .f32) (hx : (W main_v0 : FVec Ideal S2x64x64x32x16 .f32) = x5 X)
    (hc : (W main_c : IVec S_ 32) = constantI S_ 32 0#32) :
    (StableHlo.after (hostOps0_1 (F := Ideal)) W main_v4 : FVec Ideal S2x32 .f32) = varArr X := by
  after_results; rw [hx, hc]; rfl

/-- The flattened image. -/
theorem s2_x : (StableHlo.after (hostOps0_2 (F := Ideal)) W main_v24 : FVec Ideal S2x4096x512 .f32)
    = shapeCast S2x4096x512 (W main_arg0 : FVec Ideal S2x64x64x512 .f32) shapeCasts_S2x64x64x512_S2x4096x512 := by
  after_results; rfl

/-- The multiplier rows. -/
theorem s2_mult : (StableHlo.after (hostOps0_2 (F := Ideal)) W main_v22 : FVec Ideal S2x1x512 .f32)
    = shapeCast S2x1x512 (mulf (rep (rstdOf (W main_v4))) (rows (W main_arg1))) shapeCasts_S2x512_S2x1x512 := by
  after_results; rfl

set_option maxHeartbeats 4000000 in
/-- The offset rows. -/
theorem s2_add : (StableHlo.after (hostOps0_2 (F := Ideal)) W main_v23 : FVec Ideal S2x1x512 .f32)
    = shapeCast S2x1x512 (subf (rows (W main_arg2)) (mulf (mulf (rep (W main_v3)) (rep (rstdOf (W main_v4)))) (rows (W main_arg1))))
        shapeCasts_S2x512_S2x1x512 := by
  after_results; rfl

set_option maxHeartbeats 4000000 in
/-- The three weights side by side, the query's scaled. -/
theorem s2_w : (StableHlo.after (hostOps0_2 (F := Ideal)) W main_v31 : FVec Ideal S512x1536 .bf16)
    = truncf .bf16 (cat3w (mulf (W main_arg3 : FVec Ideal S512x512 .f32)
          (broadcastInDim S512x512 ![] bcast_S_S512x512 (constant (F := Ideal) S_ .f32 0x3D3504F3#32)))
        (W main_arg5) (W main_arg7)) bitsLt_bf16_f32 := by
  after_results3; rfl

set_option maxHeartbeats 4000000 in
/-- The three biases end to end, the query's scaled, as a row. -/
theorem s2_b : (StableHlo.after (hostOps0_2 (F := Ideal)) W main_v32 : FVec Ideal S1x1536 .f32)
    = shapeCast S1x1536 (cat3b (mulf (W main_arg4 : FVec Ideal S512 .f32)
          (broadcastInDim S512 ![] bcast_S_S512 (constant (F := Ideal) S_ .f32 0x3D3504F3#32)))
        (W main_arg6) (W main_arg8)) shapeCasts_S1536_S1x1536 := by
  after_results3; rfl

/-- The output projection's weight. -/
theorem s2_wp : (StableHlo.after (hostOps0_2 (F := Ideal)) W main_v33 : FVec Ideal S512x512 .bf16)
    = truncf (F := Ideal) (s := S512x512) (φ := .f32) .bf16 (W main_arg9) bitsLt_bf16_f32 := by
  after_results

/-- The output projection's bias as a row. -/
theorem s2_bp : (StableHlo.after (hostOps0_2 (F := Ideal)) W main_v34 : FVec Ideal S1x512 .f32)
    = shapeCast S1x512 (W main_arg10 : FVec Ideal S512 .f32) shapeCasts_S512_S1x512 := by
  after_results; rfl

end Stretches

/-! ## The arrays the regions read, over the launch contents -/

section Launch
variable (V0 : Valuation τ sig (Elt Ideal))

/-- The buffers after the first stretch (regrouping, group sums, means). -/
abbrev H1 : Valuation τ sig (Elt Ideal) := StableHlo.after (hostOps0 (F := Ideal)) V0
/-- The buffers after the variance function's stretch. -/
abbrev H2 : Valuation τ sig (Elt Ideal) := StableHlo.after (hostOps0_1 (F := Ideal)) (H1 V0)
/-- The buffers at the first region's entry. -/
abbrev H3 : Valuation τ sig (Elt Ideal) := StableHlo.after (hostOps0_2 (F := Ideal)) (H2 V0)

/-- The launch contents of the arguments: image, gamma, beta, the four weights and biases. -/
abbrev argX : FVec Ideal S2x64x64x512 .f32 := V0 (Proc.devRef .tc main_arg0)
abbrev argG : FVec Ideal S512 .f32 := V0 (Proc.devRef .tc main_arg1)
abbrev argB : FVec Ideal S512 .f32 := V0 (Proc.devRef .tc main_arg2)
abbrev argWq : FVec Ideal S512x512 .f32 := V0 (Proc.devRef .tc main_arg3)
abbrev argBq : FVec Ideal S512 .f32 := V0 (Proc.devRef .tc main_arg4)
abbrev argWk : FVec Ideal S512x512 .f32 := V0 (Proc.devRef .tc main_arg5)
abbrev argBk : FVec Ideal S512 .f32 := V0 (Proc.devRef .tc main_arg6)
abbrev argWv : FVec Ideal S512x512 .f32 := V0 (Proc.devRef .tc main_arg7)
abbrev argBv : FVec Ideal S512 .f32 := V0 (Proc.devRef .tc main_arg8)
abbrev argWp : FVec Ideal S512x512 .f32 := V0 (Proc.devRef .tc main_arg9)
abbrev argBp : FVec Ideal S512 .f32 := V0 (Proc.devRef .tc main_arg10)

/-- The arrays the regions read, at the first region's entry: the flattened image, the multiplier and offset rows,
    the concatenated weight and bias, the output projection's weight and bias row. -/
abbrev h3v24 : FVec Ideal S2x4096x512 .f32 := H3 V0 (Proc.devRef .tc main_v24)
abbrev h3v22 : FVec Ideal S2x1x512 .f32 := H3 V0 (Proc.devRef .tc main_v22)
abbrev h3v23 : FVec Ideal S2x1x512 .f32 := H3 V0 (Proc.devRef .tc main_v23)
abbrev h3v31 : FVec Ideal S512x1536 .bf16 := H3 V0 (Proc.devRef .tc main_v31)
abbrev h3v32 : FVec Ideal S1x1536 .f32 := H3 V0 (Proc.devRef .tc main_v32)
abbrev h3v33 : FVec Ideal S512x512 .bf16 := H3 V0 (Proc.devRef .tc main_v33)
abbrev h3v34 : FVec Ideal S1x512 .f32 := H3 V0 (Proc.devRef .tc main_v34)

/-- A buffer neither of the first two stretches writes holds its launch contents after them. -/
theorem h2_arg (r : Ref sig .tc) (h0 : r ∉ hostOps0_W) (h1 : r ∉ hostOps0_1_W) :
    H2 V0 (Proc.devRef .tc r) = V0 (Proc.devRef .tc r) :=
  (StableHlo.after_of_writes_sub (hostOps0_1 (F := Ideal)) _ hostOps0_1_writes h1).trans
    (StableHlo.after_of_writes_sub (hostOps0 (F := Ideal)) _ hostOps0_writes h0)

/-- The group means, untouched by the variance function's stretch. -/
theorem h2_mean : (H2 V0 (Proc.devRef .tc main_v3) : FVec Ideal S2x32 .f32) = meanArr (argX V0) :=
  (StableHlo.after_of_writes_sub (hostOps0_1 (F := Ideal)) _ hostOps0_1_writes (by decide)).trans (s0_mean V0)

/-- The group variances. -/
theorem h2_var : (H2 V0 (Proc.devRef .tc main_v4) : FVec Ideal S2x32 .f32) = varArr (argX V0) :=
  s1_var (H1 V0) (argX V0) (s0_x5 V0) (s0_c V0)

/-- The flattened image at (b, p, c) is the image at batch b, pixel p, channel c. -/
theorem h3_x (b : Fin 2) (p : Fin 4096) (c : Fin 512) : h3v24 V0 (ix3 b p c) = xOf (argX V0) b p c := by
  refine (congrFun (s2_x (H2 V0)) _).trans ?_
  rw [h2_arg V0 main_arg0 (by decide) (by decide)]
  exact flat_apply _ b p c

/-- The multiplier row of batch b at channel c: the group's reciprocal deviation times gamma. -/
theorem h3_mult (b : Fin 2) (c : Fin 512) :
    h3v22 V0 (ix3 b 0 c) = rstdArr (argX V0) (ix2 b (grp c)) * argG V0 (ix1 c) := by
  refine (congrFun (s2_mult (H2 V0)) _).trans ?_
  rw [mid_apply, mulf_apply, rep_apply, rows_apply, h2_var, h2_arg V0 main_arg1 (by decide) (by decide), rstdArr_eq]

/-- The offset row of batch b at channel c: beta less mean times reciprocal deviation times gamma. -/
theorem h3_add (b : Fin 2) (c : Fin 512) :
    h3v23 V0 (ix3 b 0 c)
      = argB V0 (ix1 c) - meanArr (argX V0) (ix2 b (grp c)) * rstdArr (argX V0) (ix2 b (grp c)) * argG V0 (ix1 c) := by
  refine (congrFun (s2_add (H2 V0)) _).trans ?_
  rw [mid_apply, subf_apply, mulf_apply, mulf_apply, rows_apply, rows_apply, rep_apply, rep_apply, h2_mean, h2_var,
    h2_arg V0 main_arg1 (by decide) (by decide), h2_arg V0 main_arg2 (by decide) (by decide), rstdArr_eq]

/-- Columns 0 .. 511 of the concatenated weight: the query weight, scaled. -/
theorem h3_wq (c o : Fin 512) :
    h3v31 V0 (ix2 c (⟨o.val, by have := o.isLt; omega⟩ : Fin 1536)) = argWq V0 (ix2 c o) * qscale := by
  refine (congrFun (s2_w (H2 V0)) _).trans ?_
  refine (truncf_apply (ψ := .bf16) _ bitsLt_bf16_f32 _).trans ?_
  rw [cat3w_apply0, scaleW_apply, h2_arg V0 main_arg3 (by decide) (by decide)]

/-- Columns 512 .. 1023: the key weight. -/
theorem h3_wk (c o : Fin 512) :
    h3v31 V0 (ix2 c (⟨512 + o.val, by have := o.isLt; omega⟩ : Fin 1536)) = argWk V0 (ix2 c o) := by
  refine (congrFun (s2_w (H2 V0)) _).trans ?_
  refine (truncf_apply (ψ := .bf16) _ bitsLt_bf16_f32 _).trans ?_
  rw [cat3w_apply1, h2_arg V0 main_arg5 (by decide) (by decide)]

/-- Columns 1024 .. 1535: the value weight. -/
theorem h3_wv (c o : Fin 512) :
    h3v31 V0 (ix2 c (⟨1024 + o.val, by have := o.isLt; omega⟩ : Fin 1536)) = argWv V0 (ix2 c o) := by
  refine (congrFun (s2_w (H2 V0)) _).trans ?_
  refine (truncf_apply (ψ := .bf16) _ bitsLt_bf16_f32 _).trans ?_
  rw [cat3w_apply2, h2_arg V0 main_arg7 (by decide) (by decide)]

/-- Entries 0 .. 511 of the concatenated bias row: the query bias, scaled. -/
theorem h3_bq (o : Fin 512) :
    h3v32 V0 (ix2 0 (⟨o.val, by have := o.isLt; omega⟩ : Fin 1536)) = argBq V0 (ix1 o) * qscale := by
  refine (congrFun (s2_b (H2 V0)) _).trans ?_
  refine (shapeCast_a_1a_apply _ _ (0 : Fin 1) _).trans ?_
  rw [cat3b_apply0, scaleB_apply, h2_arg V0 main_arg4 (by decide) (by decide)]

/-- Entries 512 .. 1023: the key bias. -/
theorem h3_bk (o : Fin 512) :
    h3v32 V0 (ix2 0 (⟨512 + o.val, by have := o.isLt; omega⟩ : Fin 1536)) = argBk V0 (ix1 o) := by
  refine (congrFun (s2_b (H2 V0)) _).trans ?_
  refine (shapeCast_a_1a_apply _ _ (0 : Fin 1) _).trans ?_
  rw [cat3b_apply1, h2_arg V0 main_arg6 (by decide) (by decide)]

/-- Entries 1024 .. 1535: the value bias. -/
theorem h3_bv (o : Fin 512) :
    h3v32 V0 (ix2 0 (⟨1024 + o.val, by have := o.isLt; omega⟩ : Fin 1536)) = argBv V0 (ix1 o) := by
  refine (congrFun (s2_b (H2 V0)) _).trans ?_
  refine (shapeCast_a_1a_apply _ _ (0 : Fin 1) _).trans ?_
  rw [cat3b_apply2, h2_arg V0 main_arg8 (by decide) (by decide)]

/-- The output projection's weight. -/
theorem h3_wp (c o : Fin 512) : h3v33 V0 (ix2 c o) = argWp V0 (ix2 c o) := by
  refine (congrFun (s2_wp (H2 V0)) _).trans ?_
  refine (truncf_apply (ψ := .bf16) _ bitsLt_bf16_f32 _).trans ?_
  rw [h2_arg V0 main_arg9 (by decide) (by decide)]

/-- The output projection's bias row. -/
theorem h3_bp (o : Fin 512) : h3v34 V0 (ix2 0 o) = argBp V0 (ix1 o) := by
  refine (congrFun (s2_bp (H2 V0)) _).trans ?_
  refine (shapeCast_a_1a_apply _ _ (0 : Fin 1) o).trans ?_
  rw [h2_arg V0 main_arg10 (by decide) (by decide)]

end Launch

end Cert.KernelIdeal.Hand

end
-- ==== Proof.KIValue.lean ====
/-
  The value of the fused program's result. Reading its run backwards: the last stretch reshapes the attention region's
  result array by flat position; that array is the block over the query, key and value arrays the projection region
  leaves, the flattened image as residual and the projection weight and bias; the three projected arrays are the
  channel projections, through the three 512-column slices of the concatenated weight and bias, of x * mult + add; and
  the host stretches before the regions make mult = rstd * gamma, add = beta - mean * rstd * gamma, the query slice
  scaled by the constant. Put together, the result at a pixel is the fused spelling of the block at the flat position.
-/
import proofs.«420147_j24412594110471_3_alg».proof.Proof.KIRun
import proofs.«420147_j24412594110471_3_alg».proof.Proof.KIValue0
import proofs.«420147_j24412594110471_3_alg».proof.Proof.KIValue1
import proofs.«420147_j24412594110471_3_alg».proof.Proof.KIHost
import proofs.«420147_j24412594110471_3_alg».proof.Proof.AttnIdx
import proofs.«420147_j24412594110471_3_alg».proof.Proof.StatsTerm
import Idealize.ShloMosaic.Lib.StableHlo.Run
import Idealize.ShloMosaic.Lib.Pipeline.Value

set_option maxRecDepth 16384
noncomputable section
namespace Cert.KernelIdeal.Hand
open Cert.KernelIdeal Cert.KernelIdeal.Gen
open Idealize.ShloMosaic Idealize.ShloMosaic.TcCoe Idealize.SL.Sem Idealize.ShloMosaic.ValueIdx Attn

variable (m : (ℓ : Loc nD τ sig) → Buf (Elt Ideal) ℓ) (ρ : Dev nD → PrngReg)

/-- The last stretch is one reshape of the attention region's result. -/
theorem w6_out (c : Dev nD) :
    (W6 (F := Ideal) m ρ c (Proc.devRef .tc main_v37) : S2x64x64x512.Idx → EReal)
      = shapeCast S2x64x64x512 (W5 (F := Ideal) m ρ c (Proc.devRef .tc main_v36) : S2x4096x512.Idx → EReal) shapeCasts_S2x4096x512_S2x64x64x512 := by
  show StableHlo.after hostOps2 _ (Proc.devRef .tc main_v37) = _
  after_results
  rfl

/-- The reshape by flat position read at a pixel. -/
theorem unflat_apply (A : S2x4096x512.Idx → EReal) (b : Fin 2) (h w : Fin 64) (o : Fin 512) :
    shapeCast S2x64x64x512 A shapeCasts_S2x4096x512_S2x64x64x512 (ix4 b h w o) = A (ix3 b (flat h w) o) := by
  refine shapeCast_apply A _ (ix4 b h w o) (ix3 b (flat h w) o) ?_
  rw [Shape.rowMajor_val_three, Shape.rowMajor_val_four]
  show ((b.val * 4096 + (h.val * 64 + w.val)) * 512 + o.val) = (((b.val * 64 + h.val) * 64 + w.val) * 512 + o.val)
  omega

theorem arr1_6 : Pipeline.arrRef spec1 6 = main_v36 := rfl
theorem arr1_0 : Pipeline.arrRef spec1 0 = main_v35_0 := rfl
theorem arr0_5 : Pipeline.arrRef spec0 5 = main_v35_0 := rfl
theorem arr0_0 : Pipeline.arrRef spec0 0 = main_v24 := rfl
theorem arr1_3 : Pipeline.arrRef spec1 3 = main_v24 := rfl

/-! the composition -/
section Compose
variable (c : Dev nD)

/-- The fused normalised activations of the image the launch memory holds. -/
abbrev hFm : Fin 2 → Fin 4096 → Fin 512 → EReal :=
  hF (xOf (argX (W0 m ρ c))) (grp2 (meanArr (argX (W0 m ρ c)))) (grp2 (rstdArr (argX (W0 m ρ c)))) (vec1 (argG (W0 m ρ c))) (vec1 (argB (W0 m ρ c)))

/-- A projection array the first region leaves, read at a flat index: the projection, through the matching 512 columns
    of the concatenated weight and bias, of the fused activations. -/
theorem proj_read (off : ℕ) (hoff : off + 512 ≤ 1536) (Wc : Fin 512 → Fin 512 → EReal) (bc : Fin 512 → EReal)
    (hW : ∀ ch o : Fin 512, h3v31 (W0 m ρ c) (ix2 ch ⟨off + o.val, by have := o.isLt; omega⟩) = Wc ch o)
    (hb : ∀ o : Fin 512, h3v32 (W0 m ρ c) (ix2 0 ⟨off + o.val, by have := o.isLt; omega⟩) = bc o)
    (b : Fin 2) (p : Fin 4096) (o : Fin 512) :
    projArr (V3 m ρ c (Pipeline.arrRef spec0 0)) (V3 m ρ c (Pipeline.arrRef spec0 1)) (V3 m ρ c (Pipeline.arrRef spec0 2))
        (V3 m ρ c (Pipeline.arrRef spec0 3)) (V3 m ρ c (Pipeline.arrRef spec0 4)) off hoff (ix3 b p o)
      = lin (hFm m ρ c) Wc bc b p o := by
  rw [projArr_apply]
  unfold lin
  refine congrArg₂ (· + ·) (Finset.sum_congr rfl fun ch _ => ?_) (hb o)
  refine congrArg₂ (· * ·) ?_ (hW ch o)
  show h3v24 (W0 m ρ c) (ix3 b p ch) * h3v22 (W0 m ρ c) (ix3 b 0 ch) + h3v23 (W0 m ρ c) (ix3 b 0 ch) = _
  rw [h3_x, h3_mult, h3_add]
  rfl

/-- The image, flattened, reaches the attention region as the first region found it. -/
theorem w4_keep (r : Ref sig .tc) (hr : ∀ w, Pipeline.arrRef spec0 w ≠ r) :
    W4 (F := Ideal) m ρ c (Proc.devRef .tc r) = W3 (F := Ideal) m ρ c (Proc.devRef .tc r) := W4_of_ne m ρ c r hr

/-- The fused program's result at a pixel is the fused spelling of the block at the flat position, of the arguments
    the launch memory holds. -/
theorem kernel_value (b : Fin 2) (h w : Fin 64) (o : Fin 512) :
    (W6 (F := Ideal) m ρ c (Proc.devRef .tc main_v37) : S2x64x64x512.Idx → EReal) (ix4 b h w o)
      = outF (xOf (argX (W0 m ρ c))) (grp2 (meanArr (argX (W0 m ρ c)))) (grp2 (rstdArr (argX (W0 m ρ c))))
          (vec1 (argG (W0 m ρ c))) (vec1 (argB (W0 m ρ c)))
          (mat2 (argWq (W0 m ρ c))) (mat2 (argWk (W0 m ρ c))) (mat2 (argWv (W0 m ρ c))) (mat2 (argWp (W0 m ρ c)))
          (vec1 (argBq (W0 m ρ c))) (vec1 (argBk (W0 m ρ c))) (vec1 (argBv (W0 m ρ c))) (vec1 (argBp (W0 m ρ c)))
          (Ideal.ofBits .f32 0x3D3504F3#32) b (flat h w) o := by
  have e5 : (W5 (F := Ideal) m ρ c (Proc.devRef .tc main_v36) : S2x4096x512.Idx → EReal) = _ :=
    (W5_arr m ρ c 6).trans (o_arr (V4 m ρ) c)
  have eq0 : (W4 (F := Ideal) m ρ c (Proc.devRef .tc main_v35_0) : S2x4096x512.Idx → EReal) = _ := (W4_arr m ρ c 5).trans (q_arr (V3 m ρ) c)
  have eq1 : (W4 (F := Ideal) m ρ c (Proc.devRef .tc main_v35_1) : S2x4096x512.Idx → EReal) = _ := (W4_arr m ρ c 6).trans (k_arr (V3 m ρ) c)
  have eq2 : (W4 (F := Ideal) m ρ c (Proc.devRef .tc main_v35_2) : S2x4096x512.Idx → EReal) = _ := (W4_arr m ρ c 7).trans (v_arr (V3 m ρ) c)
  have hq : act3 (V4 m ρ c (Pipeline.arrRef spec1 0)) = lin (hFm m ρ c) (fun ch n => mat2 (argWq (W0 m ρ c)) ch n * (Ideal.ofBits .f32 0x3D3504F3#32)) (fun n => vec1 (argBq (W0 m ρ c)) n * (Ideal.ofBits .f32 0x3D3504F3#32)) := by
    funext b' p n
    show (W4 (F := Ideal) m ρ c (Proc.devRef .tc main_v35_0) : S2x4096x512.Idx → EReal) (ix3 b' p n) = _
    rw [eq0]
    exact proj_read m ρ c 0 (by omega) _ _
      (fun ch n' => (congrArg (fun i => h3v31 (W0 m ρ c) (ix2 ch i)) (Fin.ext (Nat.zero_add _))).trans (h3_wq (W0 m ρ c) ch n'))
      (fun n' => (congrArg (fun i => h3v32 (W0 m ρ c) (ix2 0 i)) (Fin.ext (Nat.zero_add _))).trans (h3_bq (W0 m ρ c) n')) b' p n
  have hk : act3 (V4 m ρ c (Pipeline.arrRef spec1 1)) = lin (hFm m ρ c) (mat2 (argWk (W0 m ρ c))) (vec1 (argBk (W0 m ρ c))) := by
    funext b' p n
    show (W4 (F := Ideal) m ρ c (Proc.devRef .tc main_v35_1) : S2x4096x512.Idx → EReal) (ix3 b' p n) = _
    rw [eq1]
    exact proj_read m ρ c 512 (by omega) _ _ (fun ch n' => h3_wk (W0 m ρ c) ch n') (fun n' => h3_bk (W0 m ρ c) n') b' p n
  have hv : act3 (V4 m ρ c (Pipeline.arrRef spec1 2)) = lin (hFm m ρ c) (mat2 (argWv (W0 m ρ c))) (vec1 (argBv (W0 m ρ c))) := by
    funext b' p n
    show (W4 (F := Ideal) m ρ c (Proc.devRef .tc main_v35_2) : S2x4096x512.Idx → EReal) (ix3 b' p n) = _
    rw [eq2]
    exact proj_read m ρ c 1024 (by omega) _ _ (fun ch n' => h3_wv (W0 m ρ c) ch n') (fun n' => h3_bv (W0 m ρ c) n') b' p n
  have hx : act3 (V4 m ρ c (Pipeline.arrRef spec1 3)) = xOf (argX (W0 m ρ c)) := by
    funext b' p n
    show (W4 (F := Ideal) m ρ c (Proc.devRef .tc main_v24) : S2x4096x512.Idx → EReal) (ix3 b' p n) = _
    rw [show (W4 (F := Ideal) m ρ c (Proc.devRef .tc main_v24) : S2x4096x512.Idx → EReal) = W3 (F := Ideal) m ρ c (Proc.devRef .tc main_v24) from
      (W4_arr m ρ c 0).trans (((dat0 (V3 m ρ) c).arrAt_in 0 rfl _).trans (A_eq0 (V3 m ρ) c 0))]
    exact h3_x (W0 m ρ c) b' p n
  have hwp : mat2 (V4 m ρ c (Pipeline.arrRef spec1 4)) = mat2 (argWp (W0 m ρ c)) := by
    funext ch n
    show (W4 (F := Ideal) m ρ c (Proc.devRef .tc main_v33) : S512x512.Idx → EReal) (ix2 ch n) = _
    rw [w4_keep m ρ c main_v33 (by decide)]
    exact h3_wp (W0 m ρ c) ch n
  have hbp : (fun n : Fin 512 => (V4 m ρ c (Pipeline.arrRef spec1 5) : S1x512.Idx → EReal) (ix2 0 n)) = vec1 (argBp (W0 m ρ c)) := by
    funext n
    show (W4 (F := Ideal) m ρ c (Proc.devRef .tc main_v34) : S1x512.Idx → EReal) (ix2 0 n) = _
    rw [w4_keep m ρ c main_v34 (by decide)]
    exact h3_bp (W0 m ρ c) n
  rw [w6_out, unflat_apply, e5, attnArr_apply, outF_eq_outFof, hq, hk, hv, hx, hwp, hbp]

end Compose

end Cert.KernelIdeal.Hand
end
-- ==== Proof.RefTerm.lean ====
/-
  The plain attention block as whole-array terms of its host operations, at the exact extended reals, stage by stage:
  the group statistics in the layout that keeps the reduced axes as units; the normalised image h; a channel projection
  with bias, laid out by flat position; the scores scaled by the constant; the row maxima, the shifted exponentials, their
  row sums and the softmax weights; the weighted values; the output projection, its bias and the residual.
-/
import proofs.«420147_j24412594110471_3_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The image regrouped: channel c = 16 g + e becomes (g, e). -/
def rx5 (X : FVec Ideal S2x64x64x512 .f32) : FVec Ideal S2x64x64x32x16 .f32 :=
  shapeCast S2x64x64x32x16 X shapeCasts_S2x64x64x512_S2x64x64x32x16
/-- The sum of a batch element's group. -/
def rsum (X : FVec Ideal S2x64x64x512 .f32) : FVec Ideal S2x32 .f32 :=
  Host.reduceAdd (rx5 X) (constant (F := Ideal) S_ .f32 0x00000000#32) reducesTo_S2x64x64x32x16_S2x32_d1_2_4 h_S_
/-- The group mean, reduced axes kept as units. -/
def rmeanK (X : FVec Ideal S2x64x64x512 .f32) : FVec Ideal S2x1x1x32x1 .f32 :=
  Host.divf (broadcastInDim S2x1x1x32x1 ![0, 3] bcast_S2x32_S2x1x1x32x1_0_3 (rsum X))
    (broadcastInDim S2x1x1x32x1 ![] bcast_S_S2x1x1x32x1 (constant (F := Ideal) S_ .f32 0x47800000#32))
/-- The image less its group mean. -/
def rcen (X : FVec Ideal S2x64x64x512 .f32) : FVec Ideal S2x64x64x32x16 .f32 :=
  subf (rx5 X) (broadcastInDim S2x64x64x32x16 ![0, 1, 2, 3, 4] bcast_S2x1x1x32x1_S2x64x64x32x16_0_1_2_3_4 (rmeanK X))
/-- The sum of the centred squares of a group. -/
def rss (X : FVec Ideal S2x64x64x512 .f32) : FVec Ideal S2x32 .f32 :=
  Host.reduceAdd (mulf (rcen X) (rcen X)) (constant (F := Ideal) S_ .f32 0x00000000#32) reducesTo_S2x64x64x32x16_S2x32_d1_2_4 h_S_
/-- The variance's divisor: 65536 less the correction, zero. -/
def rnEff : FVec Ideal S_ .f32 :=
  subf (constant (F := Ideal) S_ .f32 0x47800000#32) (sitofp (F := Ideal) .f32 (constantI S_ 32 0#32))
/-- The group variance, reduced axes kept as units. -/
def rvarK (X : FVec Ideal S2x64x64x512 .f32) : FVec Ideal S2x1x1x32x1 .f32 :=
  select (broadcastInDim S2x1x1x32x1 ![] bcast_S_S2x1x1x32x1 (cmpf (F := Ideal) .ogt rnEff (constant (F := Ideal) S_ .f32 0x00000000#32)))
    (Host.divf (broadcastInDim S2x1x1x32x1 ![0, 3] bcast_S2x32_S2x1x1x32x1_0_3 (rss X)) (broadcastInDim S2x1x1x32x1 ![] bcast_S_S2x1x1x32x1 rnEff))
    (broadcastInDim S2x1x1x32x1 ![] bcast_S_S2x1x1x32x1 (id (constant (F := Ideal) S_ .f32 0x7FC00000#32)))
/-- The group's reciprocal standard deviation, reduced axes kept as units. -/
def rrstdK (X : FVec Ideal S2x64x64x512 .f32) : FVec Ideal S2x1x1x32x1 .f32 :=
  Host.rsqrt (addf (rvarK X) (broadcastInDim S2x1x1x32x1 ![] bcast_S_S2x1x1x32x1 (constant (F := Ideal) S_ .f32 0x358637BD#32)))
/-- The normalised image: ((x - mean) * rstd) * gamma + beta. -/
def rh (X : FVec Ideal S2x64x64x512 .f32) (γ β : FVec Ideal S512 .f32) : FVec Ideal S2x64x64x512 .f32 :=
  addf (mulf (shapeCast S2x64x64x512 (mulf (rcen X) (broadcastInDim S2x64x64x32x16 ![0, 1, 2, 3, 4] bcast_S2x1x1x32x1_S2x64x64x32x16_0_1_2_3_4 (rrstdK X))) shapeCasts_S2x64x64x32x16_S2x64x64x512)
    (broadcastInDim S2x64x64x512 ![0, 1, 2, 3] bcast_S1x1x1x512_S2x64x64x512_0_1_2_3 (broadcastInDim S1x1x1x512 ![3] bcast_S512_S1x1x1x512_3 γ))) (broadcastInDim S2x64x64x512 ![0, 1, 2, 3] bcast_S1x1x1x512_S2x64x64x512_0_1_2_3 (broadcastInDim S1x1x1x512 ![3] bcast_S512_S1x1x1x512_3 β))
/-- A channel projection with bias, laid out by flat position. -/
def rproj (h : FVec Ideal S2x64x64x512 .f32) (W : FVec Ideal S512x512 .f32) (bias : FVec Ideal S512 .f32) : FVec Ideal S2x4096x512 .f32 :=
  shapeCast S2x4096x512 (addf (Host.dotGeneral (F := Ideal) dot_S2x64x64x512_S512x512_S2x64x64x512_3_0_012_1_n_n none h W) (broadcastInDim S2x64x64x512 ![0, 1, 2, 3] bcast_S1x1x1x512_S2x64x64x512_0_1_2_3 (broadcastInDim S1x1x1x512 ![3] bcast_S512_S1x1x1x512_3 bias))) shapeCasts_S2x64x64x512_S2x4096x512
/-- The scores, scaled by the constant after the product. -/
def rsc (q k : FVec Ideal S2x4096x512 .f32) : FVec Ideal S2x4096x4096 .f32 :=
  mulf (Host.dotGeneral (F := Ideal) dot_S2x4096x512_S2x4096x512_S2x4096x4096_2_2_1_1_0_0 none q k)
    (broadcastInDim S2x4096x4096 ![] bcast_S_S2x4096x4096 (constant (F := Ideal) S_ .f32 0x3D3504F3#32))
/-- The row maxima. -/
def rmx (sc : FVec Ideal S2x4096x4096 .f32) : FVec Ideal S2x4096 .f32 :=
  maximumf (broadcastInDim S2x4096 ![] bcast_S_S2x4096 (constant (F := Ideal) S_ .f32 0xFF800000#32))
    (Host.reduce FloatOps.maximumf sc (constant (F := Ideal) S_ .f32 0xFF800000#32) reducesTo_S2x4096x4096_S2x4096_d2 h_S_)
/-- The shifted exponentials. -/
def rexp (sc : FVec Ideal S2x4096x4096 .f32) : FVec Ideal S2x4096x4096 .f32 :=
  Host.exp (subf sc (broadcastInDim S2x4096x4096 ![0, 1, 2] bcast_S2x4096x1_S2x4096x4096_0_1_2 (broadcastInDim S2x4096x1 ![0, 1] bcast_S2x4096_S2x4096x1_0_1 (rmx sc))))
/-- Their row sums. -/
def rl (sc : FVec Ideal S2x4096x4096 .f32) : FVec Ideal S2x4096 .f32 :=
  Host.reduceAdd (rexp sc) (constant (F := Ideal) S_ .f32 0x00000000#32) reducesTo_S2x4096x4096_S2x4096_d2 h_S_
/-- The softmax weights. -/
def ratt (sc : FVec Ideal S2x4096x4096 .f32) : FVec Ideal S2x4096x4096 .f32 :=
  Host.divf (rexp sc) (broadcastInDim S2x4096x4096 ![0, 1, 2] bcast_S2x4096x1_S2x4096x4096_0_1_2 (broadcastInDim S2x4096x1 ![0, 1] bcast_S2x4096_S2x4096x1_0_1 (rl sc)))
/-- The block's result from given queries, keys and values: weighted values, output projection, bias, residual. -/
def rattn (q k v : FVec Ideal S2x4096x512 .f32) (X : FVec Ideal S2x64x64x512 .f32) (Wp : FVec Ideal S512x512 .f32) (bp : FVec Ideal S512 .f32) : FVec Ideal S2x64x64x512 .f32 :=
  addf (addf (Host.dotGeneral (F := Ideal) dot_S2x64x64x512_S512x512_S2x64x64x512_3_0_012_1_n_n none
      (shapeCast S2x64x64x512 (Host.dotGeneral (F := Ideal) dot_S2x4096x4096_S2x4096x512_S2x4096x512_2_1_1_2_0_0 none (ratt (rsc q k)) v) shapeCasts_S2x4096x512_S2x64x64x512) Wp)
    (broadcastInDim S2x64x64x512 ![0, 1, 2, 3] bcast_S1x1x1x512_S2x64x64x512_0_1_2_3 (broadcastInDim S1x1x1x512 ![3] bcast_S512_S1x1x1x512_3 bp))) X
/-- The whole block. -/
def rout (X : FVec Ideal S2x64x64x512 .f32) (γ β : FVec Ideal S512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wp : FVec Ideal S512x512 .f32) (bp : FVec Ideal S512 .f32) : FVec Ideal S2x64x64x512 .f32 :=
  rattn (rproj (rh X γ β) Wq bq) (rproj (rh X γ β) Wk bk) (rproj (rh X γ β) Wv bv) X Wp bp

end Cert.ReferenceIdeal.Hand

end
-- ==== Proof.RefRun.lean ====
/-
  The reference program's run, read back by hand. Its entry function is a straight line of host operations once the
  variance function (and the selection function it calls in turn) is unfolded at its call site over the call's own
  buffers: eighty-six operations in order. Every weakly fair execution ends with each buffer at the fold of the
  operations' results over the launch contents; at the result buffer that fold is the whole-array term of the
  attention block, and at each argument buffer it is what the launch put there.
-/
import proofs.«420147_j24412594110471_3_alg».proof.Proof.Gen.ReferenceIdeal
import proofs.«420147_j24412594110471_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The entry function's operations in order, the variance function's twenty and the selection function's three inline at the call. -/
abbrev ops : List (HloOp τ sig (Elt F)) :=
  [ StableHlo.reshape main_arg0 main_v0 rfl shapeCasts_S2x64x64x512_S2x64x64x32x16,
    StableHlo.nullary main_cst (constant S_ .f32 0x00000000#32),
    StableHlo.binary main_v0 main_cst main_v1 ((fun x v => Host.reduceAdd x v reducesTo_S2x64x64x32x16_S2x32_d1_2_4 h_S_) : (⟨S2x64x64x32x16, .f32⟩ : BufTy).Contents (Elt F) → (⟨S_, .f32⟩ : BufTy).Contents (Elt F) → (⟨S2x32, .f32⟩ : BufTy).Contents (Elt F)),
    StableHlo.unary main_v1 main_v2 (broadcastInDim S2x1x1x32x1 ![0, 3] bcast_S2x32_S2x1x1x32x1_0_3 : (⟨S2x32, .f32⟩ : BufTy).Contents (Elt F) → (⟨S2x1x1x32x1, .f32⟩ : BufTy).Contents (Elt F)),
    StableHlo.nullary main_cst_0 (constant S_ .f32 0x47800000#32),
    StableHlo.unary main_cst_0 main_v3 (broadcastInDim S2x1x1x32x1 ![] bcast_S_S2x1x1x32x1 : (⟨S_, .f32⟩ : BufTy).Contents (Elt F) → (⟨S2x1x1x32x1, .f32⟩ : BufTy).Contents (Elt F)),
    StableHlo.binary main_v2 main_v3 main_v4 (Host.divf : (⟨S2x1x1x32x1, .f32⟩ : BufTy).Contents (Elt F) → (⟨S2x1x1x32x1, .f32⟩ : BufTy).Contents (Elt F) → (⟨S2x1x1x32x1, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S2x64x64x32x16_S2x32_d1_2_4 h_S_),
    StableHlo.TRef.unary main_call0.v0 main_call0.v1 (broadcastInDim S2x1x1x32x1 ![0, 3] bcast_S2x32_S2x1x1x32x1_0_3),
    StableHlo.TRef.nullary main_call0.cst_0 (constant S_ .f32 0x47800000#32),
    StableHlo.TRef.unary main_call0.cst_0 main_call0.v2 (broadcastInDim S2x1x1x32x1 ![] bcast_S_S2x1x1x32x1),
    StableHlo.TRef.binary main_call0.v1 main_call0.v2 main_call0.v3 Host.divf,
    StableHlo.TRef.unary main_call0.v3 main_call0.v4 (broadcastInDim S2x64x64x32x16 ![0, 1, 2, 3, 4] bcast_S2x1x1x32x1_S2x64x64x32x16_0_1_2_3_4),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x64x64x32x16_S2x32_d1_2_4 h_S_),
    StableHlo.TRef.unary main_call0.v9 main_call0.v10 (broadcastInDim S2x1x1x32x1 ![0, 3] bcast_S2x32_S2x1x1x32x1_0_3),
    StableHlo.TRef.unary main_call0.v8 main_call0.v11 (broadcastInDim S2x1x1x32x1 ![] bcast_S_S2x1x1x32x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2x1x1x32x1 ![] bcast_S_S2x1x1x32x1),
    StableHlo.TRef.ternary main_call0.v13 main_call0.v12 main_call0.call0.v1 main_call0.call0.v2 (fun p a b => select (broadcastInDim S2x1x1x32x1 ![] bcast_S_S2x1x1x32x1 p) a b),
    StableHlo.unary main_v4 main_v6 (broadcastInDim S2x64x64x32x16 ![0, 1, 2, 3, 4] bcast_S2x1x1x32x1_S2x64x64x32x16_0_1_2_3_4 : (⟨S2x1x1x32x1, .f32⟩ : BufTy).Contents (Elt F) → (⟨S2x64x64x32x16, .f32⟩ : BufTy).Contents (Elt F)),
    StableHlo.binary main_v0 main_v6 main_v7 (subf : (⟨S2x64x64x32x16, .f32⟩ : BufTy).Contents (Elt F) → (⟨S2x64x64x32x16, .f32⟩ : BufTy).Contents (Elt F) → (⟨S2x64x64x32x16, .f32⟩ : BufTy).Contents (Elt F)),
    StableHlo.nullary main_cst_1 (constant S_ .f32 0x358637BD#32),
    StableHlo.unary main_cst_1 main_v8 (broadcastInDim S2x1x1x32x1 ![] bcast_S_S2x1x1x32x1 : (⟨S_, .f32⟩ : BufTy).Contents (Elt F) → (⟨S2x1x1x32x1, .f32⟩ : BufTy).Contents (Elt F)),
    StableHlo.binary main_v5 main_v8 main_v9 (addf : (⟨S2x1x1x32x1, .f32⟩ : BufTy).Contents (Elt F) → (⟨S2x1x1x32x1, .f32⟩ : BufTy).Contents (Elt F) → (⟨S2x1x1x32x1, .f32⟩ : BufTy).Contents (Elt F)),
    StableHlo.unary main_v9 main_v10 (Host.rsqrt : (⟨S2x1x1x32x1, .f32⟩ : BufTy).Contents (Elt F) → (⟨S2x1x1x32x1, .f32⟩ : BufTy).Contents (Elt F)),
    StableHlo.unary main_v10 main_v11 (broadcastInDim S2x64x64x32x16 ![0, 1, 2, 3, 4] bcast_S2x1x1x32x1_S2x64x64x32x16_0_1_2_3_4 : (⟨S2x1x1x32x1, .f32⟩ : BufTy).Contents (Elt F) → (⟨S2x64x64x32x16, .f32⟩ : BufTy).Contents (Elt F)),
    StableHlo.binary main_v7 main_v11 main_v12 (mulf : (⟨S2x64x64x32x16, .f32⟩ : BufTy).Contents (Elt F) → (⟨S2x64x64x32x16, .f32⟩ : BufTy).Contents (Elt F) → (⟨S2x64x64x32x16, .f32⟩ : BufTy).Contents (Elt F)),
    StableHlo.reshape main_v12 main_v13 rfl shapeCasts_S2x64x64x32x16_S2x64x64x512,
    StableHlo.unary main_arg1 main_v14 (broadcastInDim S1x1x1x512 ![3] bcast_S512_S1x1x1x512_3 : (⟨S512, .f32⟩ : BufTy).Contents (Elt F) → (⟨S1x1x1x512, .f32⟩ : BufTy).Contents (Elt F)),
    StableHlo.unary main_v14 main_v15 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v13 main_v15 main_v16 (mulf : (⟨S2x64x64x512, .f32⟩ : BufTy).Contents (Elt F) → (⟨S2x64x64x512, .f32⟩ : BufTy).Contents (Elt F) → (⟨S2x64x64x512, .f32⟩ : BufTy).Contents (Elt F)),
    StableHlo.unary main_arg2 main_v17 (broadcastInDim S1x1x1x512 ![3] bcast_S512_S1x1x1x512_3 : (⟨S512, .f32⟩ : BufTy).Contents (Elt F) → (⟨S1x1x1x512, .f32⟩ : BufTy).Contents (Elt F)),
    StableHlo.unary main_v17 main_v18 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v16 main_v18 main_v19 (addf : (⟨S2x64x64x512, .f32⟩ : BufTy).Contents (Elt F) → (⟨S2x64x64x512, .f32⟩ : BufTy).Contents (Elt F) → (⟨S2x64x64x512, .f32⟩ : BufTy).Contents (Elt F)),
    StableHlo.binary main_v19 main_arg3 main_v20 ((fun l r => Host.dotGeneral dot_S2x64x64x512_S512x512_S2x64x64x512_3_0_012_1_n_n none l r) : (⟨S2x64x64x512, .f32⟩ : BufTy).Contents (Elt F) → (⟨S512x512, .f32⟩ : BufTy).Contents (Elt F) → (⟨S2x64x64x512, .f32⟩ : BufTy).Contents (Elt F)),
    StableHlo.unary main_arg4 main_v21 (broadcastInDim S1x1x1x512 ![3] bcast_S512_S1x1x1x512_3 : (⟨S512, .f32⟩ : BufTy).Contents (Elt F) → (⟨S1x1x1x512, .f32⟩ : BufTy).Contents (Elt F)),
    StableHlo.unary main_v21 main_v22 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v20 main_v22 main_v23 (addf : (⟨S2x64x64x512, .f32⟩ : BufTy).Contents (Elt F) → (⟨S2x64x64x512, .f32⟩ : BufTy).Contents (Elt F) → (⟨S2x64x64x512, .f32⟩ : BufTy).Contents (Elt F)),
    StableHlo.reshape main_v23 main_v24 rfl shapeCasts_S2x64x64x512_S2x4096x512,
    StableHlo.binary main_v19 main_arg5 main_v25 ((fun l r => Host.dotGeneral dot_S2x64x64x512_S512x512_S2x64x64x512_3_0_012_1_n_n none l r) : (⟨S2x64x64x512, .f32⟩ : BufTy).Contents (Elt F) → (⟨S512x512, .f32⟩ : BufTy).Contents (Elt F) → (⟨S2x64x64x512, .f32⟩ : BufTy).Contents (Elt F)),
    StableHlo.unary main_arg6 main_v26 (broadcastInDim S1x1x1x512 ![3] bcast_S512_S1x1x1x512_3 : (⟨S512, .f32⟩ : BufTy).Contents (Elt F) → (⟨S1x1x1x512, .f32⟩ : BufTy).Contents (Elt F)),
    StableHlo.unary main_v26 main_v27 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v25 main_v27 main_v28 (addf : (⟨S2x64x64x512, .f32⟩ : BufTy).Contents (Elt F) → (⟨S2x64x64x512, .f32⟩ : BufTy).Contents (Elt F) → (⟨S2x64x64x512, .f32⟩ : BufTy).Contents (Elt F)),
    StableHlo.reshape main_v28 main_v29 rfl shapeCasts_S2x64x64x512_S2x4096x512,
    StableHlo.binary main_v19 main_arg7 main_v30 ((fun l r => Host.dotGeneral dot_S2x64x64x512_S512x512_S2x64x64x512_3_0_012_1_n_n none l r) : (⟨S2x64x64x512, .f32⟩ : BufTy).Contents (Elt F) → (⟨S512x512, .f32⟩ : BufTy).Contents (Elt F) → (⟨S2x64x64x512, .f32⟩ : BufTy).Contents (Elt F)),
    StableHlo.unary main_arg8 main_v31 (broadcastInDim S1x1x1x512 ![3] bcast_S512_S1x1x1x512_3 : (⟨S512, .f32⟩ : BufTy).Contents (Elt F) → (⟨S1x1x1x512, .f32⟩ : BufTy).Contents (Elt F)),
    StableHlo.unary main_v31 main_v32 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v30 main_v32 main_v33 (addf : (⟨S2x64x64x512, .f32⟩ : BufTy).Contents (Elt F) → (⟨S2x64x64x512, .f32⟩ : BufTy).Contents (Elt F) → (⟨S2x64x64x512, .f32⟩ : BufTy).Contents (Elt F)),
    StableHlo.reshape main_v33 main_v34 rfl shapeCasts_S2x64x64x512_S2x4096x512,
    StableHlo.binary main_v24 main_v29 main_v35 ((fun l r => Host.dotGeneral dot_S2x4096x512_S2x4096x512_S2x4096x4096_2_2_1_1_0_0 none l r) : (⟨S2x4096x512, .f32⟩ : BufTy).Contents (Elt F) → (⟨S2x4096x512, .f32⟩ : BufTy).Contents (Elt F) → (⟨S2x4096x4096, .f32⟩ : BufTy).Contents (Elt F)),
    StableHlo.nullary main_cst_2 (constant S_ .f32 0x3D3504F3#32),
    StableHlo.unary main_cst_2 main_v36 (broadcastInDim S2x4096x4096 ![] bcast_S_S2x4096x4096 : (⟨S_, .f32⟩ : BufTy).Contents (Elt F) → (⟨S2x4096x4096, .f32⟩ : BufTy).Contents (Elt F)),
    StableHlo.binary main_v35 main_v36 main_v37 (mulf : (⟨S2x4096x4096, .f32⟩ : BufTy).Contents (Elt F) → (⟨S2x4096x4096, .f32⟩ : BufTy).Contents (Elt F) → (⟨S2x4096x4096, .f32⟩ : BufTy).Contents (Elt F)),
    StableHlo.nullary main_cst_3 (constant S_ .f32 0xFF800000#32),
    StableHlo.binary main_v37 main_cst_3 main_v38 ((fun x v => Host.reduce FloatOps.maximumf x v reducesTo_S2x4096x4096_S2x4096_d2 h_S_) : (⟨S2x4096x4096, .f32⟩ : BufTy).Contents (Elt F) → (⟨S_, .f32⟩ : BufTy).Contents (Elt F) → (⟨S2x4096, .f32⟩ : BufTy).Contents (Elt F)),
    StableHlo.nullary main_cst_4 (constant S_ .f32 0xFF800000#32),
    StableHlo.unary main_cst_4 main_v39 (broadcastInDim S2x4096 ![] bcast_S_S2x4096 : (⟨S_, .f32⟩ : BufTy).Contents (Elt F) → (⟨S2x4096, .f32⟩ : BufTy).Contents (Elt F)),
    StableHlo.binary main_v39 main_v38 main_v40 (maximumf : (⟨S2x4096, .f32⟩ : BufTy).Contents (Elt F) → (⟨S2x4096, .f32⟩ : BufTy).Contents (Elt F) → (⟨S2x4096, .f32⟩ : BufTy).Contents (Elt F)),
    StableHlo.unary main_v40 main_v41 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v41 main_v42 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.binary main_v37 main_v42 main_v43 (subf : (⟨S2x4096x4096, .f32⟩ : BufTy).Contents (Elt F) → (⟨S2x4096x4096, .f32⟩ : BufTy).Contents (Elt F) → (⟨S2x4096x4096, .f32⟩ : BufTy).Contents (Elt F)),
    StableHlo.unary main_v43 main_v44 (Host.exp : (⟨S2x4096x4096, .f32⟩ : BufTy).Contents (Elt F) → (⟨S2x4096x4096, .f32⟩ : BufTy).Contents (Elt F)),
    StableHlo.nullary main_cst_5 (constant S_ .f32 0x00000000#32),
    StableHlo.binary main_v44 main_cst_5 main_v45 ((fun x v => Host.reduceAdd x v reducesTo_S2x4096x4096_S2x4096_d2 h_S_) : (⟨S2x4096x4096, .f32⟩ : BufTy).Contents (Elt F) → (⟨S_, .f32⟩ : BufTy).Contents (Elt F) → (⟨S2x4096, .f32⟩ : BufTy).Contents (Elt F)),
    StableHlo.unary main_v45 main_v46 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v46 main_v47 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.binary main_v44 main_v47 main_v48 (Host.divf : (⟨S2x4096x4096, .f32⟩ : BufTy).Contents (Elt F) → (⟨S2x4096x4096, .f32⟩ : BufTy).Contents (Elt F) → (⟨S2x4096x4096, .f32⟩ : BufTy).Contents (Elt F)),
    StableHlo.binary main_v48 main_v34 main_v49 ((fun l r => Host.dotGeneral dot_S2x4096x4096_S2x4096x512_S2x4096x512_2_1_1_2_0_0 none l r) : (⟨S2x4096x4096, .f32⟩ : BufTy).Contents (Elt F) → (⟨S2x4096x512, .f32⟩ : BufTy).Contents (Elt F) → (⟨S2x4096x512, .f32⟩ : BufTy).Contents (Elt F)),
    StableHlo.reshape main_v49 main_v50 rfl shapeCasts_S2x4096x512_S2x64x64x512,
    StableHlo.binary main_v50 main_arg9 main_v51 ((fun l r => Host.dotGeneral dot_S2x64x64x512_S512x512_S2x64x64x512_3_0_012_1_n_n none l r) : (⟨S2x64x64x512, .f32⟩ : BufTy).Contents (Elt F) → (⟨S512x512, .f32⟩ : BufTy).Contents (Elt F) → (⟨S2x64x64x512, .f32⟩ : BufTy).Contents (Elt F)),
    StableHlo.unary main_arg10 main_v52 (broadcastInDim S1x1x1x512 ![3] bcast_S512_S1x1x1x512_3 : (⟨S512, .f32⟩ : BufTy).Contents (Elt F) → (⟨S1x1x1x512, .f32⟩ : BufTy).Contents (Elt F)),
    StableHlo.unary main_v52 main_v53 (broadcastInDim S2x64x64x512 ![0, 1, 2, 3] bcast_S1x1x1x512_S2x64x64x512_0_1_2_3 : (⟨S1x1x1x512, .f32⟩ : BufTy).Contents (Elt F) → (⟨S2x64x64x512, .f32⟩ : BufTy).Contents (Elt F)),
    StableHlo.binary main_v51 main_v53 main_v54 (addf : (⟨S2x64x64x512, .f32⟩ : BufTy).Contents (Elt F) → (⟨S2x64x64x512, .f32⟩ : BufTy).Contents (Elt F) → (⟨S2x64x64x512, .f32⟩ : BufTy).Contents (Elt F)),
    StableHlo.binary main_v54 main_arg0 main_v55 (addf : (⟨S2x64x64x512, .f32⟩ : BufTy).Contents (Elt F) → (⟨S2x64x64x512, .f32⟩ : BufTy).Contents (Elt F) → (⟨S2x64x64x512, .f32⟩ : BufTy).Contents (Elt F)) ]

set_option maxRecDepth 8192 in
set_option maxHeartbeats 4000000 in
/-- The entry function is that straight line: its two windows, the two functions' bodies unfolded at their calls and
    the records at their fields, sequencing reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., reshape_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., reshape_bufs_sub .., binary_bufs_sub .., unary_bufs_sub .., unary_bufs_sub ..,
    binary_bufs_sub .., reshape_bufs_sub .., binary_bufs_sub .., unary_bufs_sub .., unary_bufs_sub .., binary_bufs_sub ..,
    reshape_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., reshape_bufs_sub .., binary_bufs_sub .., unary_bufs_sub .., unary_bufs_sub ..,
    binary_bufs_sub .., binary_bufs_sub ..⟩

/-- From any memory with zero counters, every weakly fair execution of the entry function terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd shapeCast broadcastInDim in
set_option maxRecDepth 16384 in
set_option maxHeartbeats 4000000 in
/-- At the result buffer the fold is the block's whole-array term of the eleven arguments' contents: each operation's
    result read at its own buffer is its function of its operands' contents, and at any other buffer what was there;
    the typed references' transports are the identity at these literal references; what is left is the same
    composition of host operations on both sides, the reductions, reshapes and broadcasts kept folded meanwhile. -/
theorem out_eq (V : Valuation τ sig (Elt Ideal)) :
    after ops V (main_v55 : DevRef τ sig) = rout (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  simp only [TRef.ofBuf, TRef.toBuf, cast_eq]
  rfl

set_option maxRecDepth 8192 in
set_option maxHeartbeats 1000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 1000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 1000000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 1000000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 1000000 in
/-- No operation writes argument 5's buffer. -/
theorem arg5_eq (V : Valuation τ sig (Elt F)) :
    after ops V (main_arg5 : DevRef τ sig) = V (main_arg5 : DevRef τ sig) := by
  after_results_simp

set_option maxRecDepth 8192 in
set_option maxHeartbeats 1000000 in
/-- No operation writes argument 6's buffer. -/
theorem arg6_eq (V : Valuation τ sig (Elt F)) :
    after ops V (main_arg6 : DevRef τ sig) = V (main_arg6 : DevRef τ sig) := by
  after_results_simp

set_option maxRecDepth 8192 in
set_option maxHeartbeats 1000000 in
/-- No operation writes argument 7's buffer. -/
theorem arg7_eq (V : Valuation τ sig (Elt F)) :
    after ops V (main_arg7 : DevRef τ sig) = V (main_arg7 : DevRef τ sig) := by
  after_results_simp

set_option maxRecDepth 8192 in
set_option maxHeartbeats 1000000 in
/-- No operation writes argument 8's buffer. -/
theorem arg8_eq (V : Valuation τ sig (Elt F)) :
    after ops V (main_arg8 : DevRef τ sig) = V (main_arg8 : DevRef τ sig) := by
  after_results_simp

set_option maxRecDepth 8192 in
set_option maxHeartbeats 1000000 in
/-- No operation writes argument 9's buffer. -/
theorem arg9_eq (V : Valuation τ sig (Elt F)) :
    after ops V (main_arg9 : DevRef τ sig) = V (main_arg9 : DevRef τ sig) := by
  after_results_simp

set_option maxRecDepth 8192 in
set_option maxHeartbeats 1000000 in
/-- No operation writes argument 10's buffer. -/
theorem arg10_eq (V : Valuation τ sig (Elt F)) :
    after ops V (main_arg10 : DevRef τ sig) = V (main_arg10 : DevRef τ sig) := by
  after_results_simp

end Cert.ReferenceIdeal.Hand

end
-- ==== Proof.RefReadProj.lean ====
/-
  The plain block's normalised image and its channel projections read at an index.

  The keep-dims statistics [2, 1, 1, 32, 1] read at (b, 0, 0, g, 0) are the group statistics [2, 32] at (b, g): the two
  spellings sum the same regrouped image and the same centred squares, and divide, guard and take the reciprocal root
  pointwise. The grouped layout [2, 64, 64, 32, 16] and the image [2, 64, 64, 512] correspond by c = 16 g + e, so the
  normalised image at (b, h, w, c) is ((x - mean) * rstd) * gamma + beta with the statistics of the group c / 16.
  The layout by flat position [2, 4096, 512] reads position p at the pixel (p / 64, p % 64); the projection contracts
  the channel axis of the image with the first axis of the weight and adds the bias of the output channel.
-/
import proofs.«420147_j24412594110471_3_alg».proof.Proof.RefTerm
import proofs.«420147_j24412594110471_3_alg».proof.Proof.AttnIdx
import proofs.«420147_j24412594110471_3_alg».proof.Proof.StatsTerm
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx Attn

/-- The two spellings of a group's sum are one term. -/
theorem rsum_eq (X : FVec Ideal S2x64x64x512 .f32) : rsum X = Cert.KernelIdeal.Hand.sumArr X := rfl
/-- The two spellings of a group's sum of centred squares are one term. -/
theorem rss_eq (X : FVec Ideal S2x64x64x512 .f32) : rss X = Cert.KernelIdeal.Hand.ssArr X := rfl

/-- The keep-dims layout [2,1,1,32,1] broadcast over rows, columns and the sixteen channels of a group. -/
theorem bcastK_apply (K : FVec Ideal S2x1x1x32x1 .f32) (b : Fin 2) (h w : Fin 64) (g : Fin 32) (e : Fin 16) :
    broadcastInDim S2x64x64x32x16 ![0, 1, 2, 3, 4] bcast_S2x1x1x32x1_S2x64x64x32x16_0_1_2_3_4 K (ix5 b h w g e)
      = K (ix5 b (0 : Fin 1) (0 : Fin 1) g (0 : Fin 1)) :=
  broadcastInDim_apply _ _ _ _ _ (fun a => by
    match a with | ⟨0, _⟩ => rfl | ⟨1, _⟩ => rfl | ⟨2, _⟩ => rfl | ⟨3, _⟩ => rfl | ⟨4, _⟩ => rfl)

/-- A per-channel vector broadcast over batch, rows and columns. -/
theorem bcastC_apply (v : FVec Ideal S512 .f32) (b : Fin 2) (h w : Fin 64) (c : Fin 512) :
    broadcastInDim S2x64x64x512 ![0, 1, 2, 3] bcast_S1x1x1x512_S2x64x64x512_0_1_2_3
      (broadcastInDim S1x1x1x512 ![3] bcast_S512_S1x1x1x512_3 v) (ix4 b h w c) = v (ix1 c) := by
  refine (broadcastInDim_apply _ _ _ (ix4 b h w c) (ix4 (0 : Fin 1) (0 : Fin 1) (0 : Fin 1) c) (fun a => by
    match a with | ⟨0, _⟩ => rfl | ⟨1, _⟩ => rfl | ⟨2, _⟩ => rfl | ⟨3, _⟩ => rfl)).trans ?_
  exact broadcastInDim_apply _ _ _ _ _ (fun a => by match a with | ⟨0, _⟩ => rfl)

/-- The regrouped image at (b, h, w, g, e) is the image at channel 16 g + e. -/
theorem rx5_apply (X : FVec Ideal S2x64x64x512 .f32) (b : Fin 2) (h w : Fin 64) (g : Fin 32) (e : Fin 16) (c : Fin 512)
    (hc : c.val = 16 * g.val + e.val) : rx5 X (ix5 b h w g e) = X (ix4 b h w c) := by
  unfold rx5
  exact shapeCast_apply X _ _ _ (by
    rw [Shape.rowMajor_val_four, Shape.rowMajor_val_five]
    show ((b.val * 64 + h.val) * 64 + w.val) * 512 + c.val = (((b.val * 64 + h.val) * 64 + w.val) * 32 + g.val) * 16 + e.val
    omega)

/-- The grouped layout flattened back: channel 16 g + e reads (g, e). -/
theorem cast54_apply (V : FVec Ideal S2x64x64x32x16 .f32) (b : Fin 2) (h w : Fin 64) (g : Fin 32) (e : Fin 16) (c : Fin 512)
    (hc : c.val = 16 * g.val + e.val) :
    shapeCast S2x64x64x512 V shapeCasts_S2x64x64x32x16_S2x64x64x512 (ix4 b h w c) = V (ix5 b h w g e) :=
  shapeCast_apply V _ _ _ (by
    rw [Shape.rowMajor_val_five, Shape.rowMajor_val_four]
    show (((b.val * 64 + h.val) * 64 + w.val) * 32 + g.val) * 16 + e.val = ((b.val * 64 + h.val) * 64 + w.val) * 512 + c.val
    omega)

/-- The keep-dims mean at (b, 0, 0, g, 0) is the group mean at (b, g). -/
theorem rmeanK_apply (X : FVec Ideal S2x64x64x512 .f32) (b : Fin 2) (u1 u2 : Fin 1) (g : Fin 32) (u3 : Fin 1) :
    rmeanK X (ix5 b u1 u2 g u3) = Cert.KernelIdeal.Hand.meanArr X (ix2 b g) := by
  have h1 : broadcastInDim S2x1x1x32x1 ![0, 3] bcast_S2x32_S2x1x1x32x1_0_3 (rsum X) (ix5 b u1 u2 g u3) = rsum X (ix2 b g) :=
    broadcastInDim_apply _ _ _ _ _ (fun a => by match a with | ⟨0, _⟩ => rfl | ⟨1, _⟩ => rfl)
  show Ideal.div (broadcastInDim S2x1x1x32x1 ![0, 3] bcast_S2x32_S2x1x1x32x1_0_3 (rsum X) (ix5 b u1 u2 g u3)) _
    = Ideal.div (Cert.KernelIdeal.Hand.sumArr X (ix2 b g)) _
  rw [h1, rsum_eq]
  rfl

/-- The keep-dims reciprocal standard deviation at (b, 0, 0, g, 0) is the group's at (b, g). -/
theorem rrstdK_apply (X : FVec Ideal S2x64x64x512 .f32) (b : Fin 2) (u1 u2 : Fin 1) (g : Fin 32) (u3 : Fin 1) :
    rrstdK X (ix5 b u1 u2 g u3) = Cert.KernelIdeal.Hand.rstdArr X (ix2 b g) := by
  have h1 : broadcastInDim S2x1x1x32x1 ![0, 3] bcast_S2x32_S2x1x1x32x1_0_3 (rss X) (ix5 b u1 u2 g u3) = rss X (ix2 b g) :=
    broadcastInDim_apply _ _ _ _ _ (fun a => by match a with | ⟨0, _⟩ => rfl | ⟨1, _⟩ => rfl)
  show Ideal.rsqrt (Scalar.select _ (Ideal.div (broadcastInDim S2x1x1x32x1 ![0, 3] bcast_S2x32_S2x1x1x32x1_0_3 (rss X) (ix5 b u1 u2 g u3)) _) _ + _)
    = Ideal.rsqrt (Scalar.select _ (Ideal.div (Cert.KernelIdeal.Hand.ssArr X (ix2 b g)) _) _ + _)
  rw [h1, rss_eq]
  rfl

/-- The position of a channel inside its group. -/
def sub16 (c : Fin 512) : Fin 16 := ⟨c.val % 16, Nat.mod_lt _ (by decide)⟩
/-- A channel is sixteen times its group plus its position inside the group. -/
theorem grp_sub16 (c : Fin 512) : c.val = 16 * (grp c).val + (sub16 c).val := by
  show c.val = 16 * (c.val / 16) + c.val % 16
  omega

/-- The normalised image at a pixel and channel. -/
theorem rh_at (X : FVec Ideal S2x64x64x512 .f32) (γ β : FVec Ideal S512 .f32) (b : Fin 2) (h w : Fin 64) (c : Fin 512) :
    rh X γ β (ix4 b h w c)
      = (X (ix4 b h w c) - Cert.KernelIdeal.Hand.meanArr X (ix2 b (grp c))) * Cert.KernelIdeal.Hand.rstdArr X (ix2 b (grp c)) * γ (ix1 c) + β (ix1 c) := by
  unfold rh
  rw [addf_apply, mulf_apply, bcastC_apply, bcastC_apply, cast54_apply _ b h w (grp c) (sub16 c) c (grp_sub16 c),
    mulf_apply, bcastK_apply, rrstdK_apply]
  unfold rcen
  rw [subf_apply, bcastK_apply, rmeanK_apply, rx5_apply X b h w (grp c) (sub16 c) c (grp_sub16 c)]

/-- The normalised image over flat positions is the specification's plain spelling at the group statistics. -/
theorem rh_apply (X : FVec Ideal S2x64x64x512 .f32) (γ β : FVec Ideal S512 .f32) (b : Fin 2) (p : Fin 4096) (c : Fin 512) :
    rh X γ β (ix4 b (hi p) (lo p) c)
      = hP (xOf X) (grp2 (Cert.KernelIdeal.Hand.meanArr X)) (grp2 (Cert.KernelIdeal.Hand.rstdArr X)) (vec1 γ) (vec1 β) b p c :=
  rh_at X γ β b (hi p) (lo p) c

/-- The image flattened by position: position p reads the pixel (p / 64, p % 64). -/
theorem cast43_apply (V : FVec Ideal S2x64x64x512 .f32) (b : Fin 2) (p : Fin 4096) (o : Fin 512) :
    shapeCast S2x4096x512 V shapeCasts_S2x64x64x512_S2x4096x512 (ix3 b p o) = V (ix4 b (hi p) (lo p) o) :=
  shapeCast_apply V _ _ _ (by
    rw [Shape.rowMajor_val_four, Shape.rowMajor_val_three]
    show ((b.val * 64 + p.val / 64) * 64 + p.val % 64) * 512 + o.val = (b.val * 4096 + p.val) * 512 + o.val
    omega)

/-- The channel contraction at a pixel: the sum over the input channel. -/
theorem dotC_apply (h : FVec Ideal S2x64x64x512 .f32) (W : FVec Ideal S512x512 .f32) (b : Fin 2) (hh ww : Fin 64) (o : Fin 512) :
    Host.dotGeneral (F := Ideal) dot_S2x64x64x512_S512x512_S2x64x64x512_3_0_012_1_n_n none h W (ix4 b hh ww o)
      = ∑ c : Fin 512, h (ix4 b hh ww c) * W (ix2 c o) := by
  show FloatOps.dotGeneral _ none _ h W (ix4 b hh ww o) = _
  rw [Ideal.dotGeneral_apply,
    ← Equiv.sum_comp (contrEquiv1 dot_S2x64x64x512_S512x512_S2x64x64x512_3_0_012_1_n_n 512 rfl rfl).symm]
  refine Finset.sum_congr rfl fun c _ => ?_
  have c3 := contrEquiv1_symm_val dot_S2x64x64x512_S512x512_S2x64x64x512_3_0_012_1_n_n 512 rfl rfl c
  have l : dot_S2x64x64x512_S512x512_S2x64x64x512_3_0_012_1_n_n.lhsIdx (ix4 b hh ww o)
      ((contrEquiv1 _ 512 rfl rfl).symm c) = ix4 b hh ww c := by
    funext ax; apply Fin.ext
    match ax with
    | ⟨0, _⟩ => simp [DotDims.lhsIdx, dot_S2x64x64x512_S512x512_S2x64x64x512_3_0_012_1_n_n]; rfl
    | ⟨1, _⟩ => simp [DotDims.lhsIdx, dot_S2x64x64x512_S512x512_S2x64x64x512_3_0_012_1_n_n]; rfl
    | ⟨2, _⟩ => simp [DotDims.lhsIdx, dot_S2x64x64x512_S512x512_S2x64x64x512_3_0_012_1_n_n]; rfl
    | ⟨3, _⟩ => simp [DotDims.lhsIdx, dot_S2x64x64x512_S512x512_S2x64x64x512_3_0_012_1_n_n]; exact c3
  have r : dot_S2x64x64x512_S512x512_S2x64x64x512_3_0_012_1_n_n.rhsIdx (ix4 b hh ww o)
      ((contrEquiv1 _ 512 rfl rfl).symm c) = ix2 c o := by
    funext ax; apply Fin.ext
    match ax with
    | ⟨0, _⟩ => simp [DotDims.rhsIdx, dot_S2x64x64x512_S512x512_S2x64x64x512_3_0_012_1_n_n]; exact c3
    | ⟨1, _⟩ => simp [DotDims.rhsIdx, dot_S2x64x64x512_S512x512_S2x64x64x512_3_0_012_1_n_n]; rfl
  rw [l, r]

/-- A channel projection at a position and output channel. -/
theorem rproj_apply (h : FVec Ideal S2x64x64x512 .f32) (W : FVec Ideal S512x512 .f32) (bias : FVec Ideal S512 .f32)
    (b : Fin 2) (p : Fin 4096) (o : Fin 512) :
    rproj h W bias (ix3 b p o) = (∑ c : Fin 512, h (ix4 b (hi p) (lo p) c) * W (ix2 c o)) + bias (ix1 o) := by
  unfold rproj
  rw [cast43_apply, addf_apply, dotC_apply, bcastC_apply]

/-- The projections of the normalised image are the specification's. -/
theorem rproj_rh (X : FVec Ideal S2x64x64x512 .f32) (γ β : FVec Ideal S512 .f32) (W : FVec Ideal S512x512 .f32)
    (bias : FVec Ideal S512 .f32) (b : Fin 2) (p : Fin 4096) (o : Fin 512) :
    rproj (rh X γ β) W bias (ix3 b p o)
      = lin (hP (xOf X) (grp2 (Cert.KernelIdeal.Hand.meanArr X)) (grp2 (Cert.KernelIdeal.Hand.rstdArr X)) (vec1 γ) (vec1 β))
          (mat2 W) (vec1 bias) b p o := by
  rw [rproj_apply]
  simp only [rh_apply]
  rfl

end Cert.ReferenceIdeal.Hand
end
-- ==== Proof.RefReadAttn.lean ====
/-
  The reference's attention stage read at an index: each whole-array stage of the block — scaled scores, row maxima,
  shifted exponentials, their row sums, softmax weights, weighted values, output projection, bias and residual — is,
  entry by entry, the corresponding formula of the block over flat positions.
-/
import proofs.«420147_j24412594110471_3_alg».proof.Proof.RefTerm
import proofs.«420147_j24412594110471_3_alg».proof.Proof.AttnIdx
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.ValueIdx Attn

/-- A score array [2, 4096, 4096] by its coordinates. -/
def arr3 (sc : (⟨3, ![2, 4096, 4096]⟩ : Shape).Idx → EReal) : Fin 2 → Fin 4096 → Fin 4096 → EReal :=
  fun b i j => sc (ix3 b i j)

/-! ### The query-key product: batch axis 0, contraction of the channel axis of both -/

abbrev Dqk := dot_S2x4096x512_S2x4096x512_S2x4096x4096_2_2_1_1_0_0

theorem lhs_qk_0 (j : S2x4096x4096.Idx) (k : Dqk.contr.Idx) : (Dqk.lhsIdx j k 0 : ℕ) = j 0 := by
  simp [DotDims.lhsIdx, Dqk, dot_S2x4096x512_S2x4096x512_S2x4096x4096_2_2_1_1_0_0]; rfl
theorem lhs_qk_1 (j : S2x4096x4096.Idx) (k : Dqk.contr.Idx) : (Dqk.lhsIdx j k 1 : ℕ) = j 1 := by
  simp [DotDims.lhsIdx, Dqk, dot_S2x4096x512_S2x4096x512_S2x4096x4096_2_2_1_1_0_0]; rfl
theorem lhs_qk_2 (j : S2x4096x4096.Idx) (k : Dqk.contr.Idx) : (Dqk.lhsIdx j k 2 : ℕ) = k ⟨0, by decide⟩ := by
  simp [DotDims.lhsIdx, Dqk, dot_S2x4096x512_S2x4096x512_S2x4096x4096_2_2_1_1_0_0]; rfl
theorem rhs_qk_0 (j : S2x4096x4096.Idx) (k : Dqk.contr.Idx) : (Dqk.rhsIdx j k 0 : ℕ) = j 0 := by
  simp [DotDims.rhsIdx, Dqk, dot_S2x4096x512_S2x4096x512_S2x4096x4096_2_2_1_1_0_0]; rfl
theorem rhs_qk_1 (j : S2x4096x4096.Idx) (k : Dqk.contr.Idx) : (Dqk.rhsIdx j k 1 : ℕ) = j 2 := by
  simp [DotDims.rhsIdx, Dqk, dot_S2x4096x512_S2x4096x512_S2x4096x4096_2_2_1_1_0_0]; rfl
theorem rhs_qk_2 (j : S2x4096x4096.Idx) (k : Dqk.contr.Idx) : (Dqk.rhsIdx j k 2 : ℕ) = k ⟨0, by decide⟩ := by
  simp [DotDims.rhsIdx, Dqk, dot_S2x4096x512_S2x4096x512_S2x4096x4096_2_2_1_1_0_0]; rfl

/-- The query-key product at (b, i, j): the sum over the channel. -/
theorem qk_apply (q k : FVec Ideal S2x4096x512 .f32) (b : Fin 2) (i j : Fin 4096) :
    Host.dotGeneral (F := Ideal) Dqk none q k (ix3 b i j) = ∑ o : Fin 512, q (ix3 b i o) * k (ix3 b j o) := by
  refine (Ideal.dotGeneral_apply Dqk none .single q k (ix3 b i j)).trans ?_
  rw [← Equiv.sum_comp (contrEquiv1 Dqk 512 rfl rfl).symm]
  refine Finset.sum_congr rfl fun o _ => ?_
  have hk := contrEquiv1_symm_val Dqk 512 rfl rfl o
  refine congrArg₂ (· * ·) (congrArg q ?_) (congrArg k ?_)
  · funext a; refine Fin.ext ?_
    match a with
    | ⟨0, _⟩ => exact lhs_qk_0 _ _
    | ⟨1, _⟩ => exact lhs_qk_1 _ _
    | ⟨2, _⟩ => exact (lhs_qk_2 _ _).trans hk
  · funext a; refine Fin.ext ?_
    match a with
    | ⟨0, _⟩ => exact rhs_qk_0 _ _
    | ⟨1, _⟩ => exact rhs_qk_1 _ _
    | ⟨2, _⟩ => exact (rhs_qk_2 _ _).trans hk

/-- The scaled scores at (b, i, j). -/
theorem rsc_apply (q k : FVec Ideal S2x4096x512 .f32) (b : Fin 2) (i j : Fin 4096) :
    rsc q k (ix3 b i j) = scOfS (act3 q) (act3 k) (Ideal.ofBits .f32 0x3D3504F3#32) b i j := by
  unfold rsc
  refine (mulf_apply _ _ _).trans ?_
  refine congrArg₂ (· * ·) (qk_apply q k b i j) ?_
  exact broadcastInDim_scalar_apply _ _ _

/-! ### Row maxima, shifted exponentials, their row sums, softmax weights -/

/-- The word of minus infinity. -/
theorem ofBits_neg_inf_f32 : Ideal.ofBits .f32 0xFF800000#32 = (⊥ : EReal) := by simp [Ideal.ofBits, Ideal.ieee]

theorem red_sc : S2x4096x4096.Reduces [2] S2x4096 := by decide

/-- Row (b, i) with column j inserted is the entry (b, i, j). -/
theorem lift_sc (b : Fin 2) (i j : Fin 4096) : red_sc.lift (ix2 b i) j = ix3 b i j := by
  funext a; refine Fin.ext ?_
  match a with
  | ⟨0, _⟩ => rfl
  | ⟨1, _⟩ => rfl
  | ⟨2, _⟩ => rfl

/-- A per-row array spread along the columns reads the row's entry. -/
theorem bcast_row_apply (m : FVec Ideal S2x4096 .f32) (b : Fin 2) (i j : Fin 4096) :
    broadcastInDim S2x4096x4096 ![0, 1, 2] bcast_S2x4096x1_S2x4096x4096_0_1_2
      (broadcastInDim S2x4096x1 ![0, 1] bcast_S2x4096_S2x4096x1_0_1 m) (ix3 b i j) = m (ix2 b i) := by
  refine (broadcastInDim_apply _ _ _ (ix3 b i j) (ix3 b i (0 : Fin 1)) ?_).trans ?_
  · intro a
    match a with
    | ⟨0, _⟩ => rfl
    | ⟨1, _⟩ => rfl
    | ⟨2, _⟩ => rfl
  · refine broadcastInDim_apply _ _ _ (ix3 b i (0 : Fin 1)) (ix2 b i) ?_
    intro a
    match a with
    | ⟨0, _⟩ => rfl
    | ⟨1, _⟩ => rfl

/-- The row maximum at (b, i): the maximum with minus infinity changes nothing. -/
theorem rmx_apply (sc : FVec Ideal S2x4096x4096 .f32) (b : Fin 2) (i : Fin 4096) :
    rmx sc (ix2 b i) = rowMax (arr3 sc) b i := by
  unfold rmx
  refine (maximumf_apply _ _ _).trans ?_
  have e1 : broadcastInDim S2x4096 ![] bcast_S_S2x4096 (constant (F := Ideal) S_ .f32 0xFF800000#32) (ix2 b i) = (⊥ : EReal) :=
    (broadcastInDim_scalar_apply _ _ _).trans ofBits_neg_inf_f32
  have e2 : Host.reduce FloatOps.maximumf sc (constant (F := Ideal) S_ .f32 0xFF800000#32) reducesTo_S2x4096x4096_S2x4096_d2 h_S_ (ix2 b i)
      = rowMax (arr3 sc) b i := by
    refine (Host.reduce_eq_fold_single FloatOps.maximumf sc _ reducesTo_S2x4096x4096_S2x4096_d2 red_sc h_S_ (ix2 b i)).trans ?_
    show Finset.fold max (Ideal.ofBits .f32 0xFF800000#32) (sc ∘ red_sc.lift (ix2 b i)) (Finset.univ : Finset (Fin 4096)) = _
    rw [ofBits_neg_inf_f32]
    unfold rowMax arr3
    exact congrArg (fun f => Finset.fold max ⊥ f (Finset.univ : Finset (Fin 4096))) (funext fun j => congrArg sc (lift_sc b i j))
  exact (congrArg₂ max e1 e2).trans (max_bot_left _)

/-- The shifted exponential at (b, i, j). -/
theorem rexp_apply (sc : FVec Ideal S2x4096x4096 .f32) (b : Fin 2) (i j : Fin 4096) :
    rexp sc (ix3 b i j) = pe (arr3 sc) b i j := by
  have e := (bcast_row_apply (rmx sc) b i j).trans (rmx_apply sc b i)
  exact congrArg (fun m => Ideal.exp (sc (ix3 b i j) - m)) e

/-- The row sum at (b, i): zero plus the sum of the row's exponentials. -/
theorem rl_apply (sc : FVec Ideal S2x4096x4096 .f32) (b : Fin 2) (i : Fin 4096) :
    rl sc (ix2 b i) = 0 + ∑ j : Fin 4096, pe (arr3 sc) b i j := by
  unfold rl
  refine (hostReduceAdd_apply (rexp sc) _ reducesTo_S2x4096x4096_S2x4096_d2 h_S_ (ix2 b i)).trans ?_
  refine (Ideal.hostReduceAdd_single reducesTo_S2x4096x4096_S2x4096_d2 red_sc (rexp sc) _ (ix2 b i)).trans ?_
  refine congrArg₂ (· + ·) Ideal.ofBits_zero_f32 ?_
  exact Finset.sum_congr rfl fun j _ => (congrArg (rexp sc) (lift_sc b i j)).trans (rexp_apply sc b i j)

/-- The softmax weight at (b, i, j). -/
theorem ratt_apply (sc : FVec Ideal S2x4096x4096 .f32) (b : Fin 2) (i j : Fin 4096) :
    ratt sc (ix3 b i j) = Ideal.div (pe (arr3 sc) b i j) (0 + ∑ j' : Fin 4096, pe (arr3 sc) b i j') := by
  unfold ratt
  refine (hostDivf_apply _ _ _).trans ?_
  exact congrArg₂ Ideal.div (rexp_apply sc b i j) ((bcast_row_apply (rl sc) b i j).trans (rl_apply sc b i))

/-! ### The weighted values: batch axis 0, contraction of the weights' column with the values' position -/

abbrev Dpv := dot_S2x4096x4096_S2x4096x512_S2x4096x512_2_1_1_2_0_0

theorem lhs_pv_0 (j : S2x4096x512.Idx) (k : Dpv.contr.Idx) : (Dpv.lhsIdx j k 0 : ℕ) = j 0 := by
  simp [DotDims.lhsIdx, Dpv, dot_S2x4096x4096_S2x4096x512_S2x4096x512_2_1_1_2_0_0]; rfl
theorem lhs_pv_1 (j : S2x4096x512.Idx) (k : Dpv.contr.Idx) : (Dpv.lhsIdx j k 1 : ℕ) = j 1 := by
  simp [DotDims.lhsIdx, Dpv, dot_S2x4096x4096_S2x4096x512_S2x4096x512_2_1_1_2_0_0]; rfl
theorem lhs_pv_2 (j : S2x4096x512.Idx) (k : Dpv.contr.Idx) : (Dpv.lhsIdx j k 2 : ℕ) = k ⟨0, by decide⟩ := by
  simp [DotDims.lhsIdx, Dpv, dot_S2x4096x4096_S2x4096x512_S2x4096x512_2_1_1_2_0_0]; rfl
theorem rhs_pv_0 (j : S2x4096x512.Idx) (k : Dpv.contr.Idx) : (Dpv.rhsIdx j k 0 : ℕ) = j 0 := by
  simp [DotDims.rhsIdx, Dpv, dot_S2x4096x4096_S2x4096x512_S2x4096x512_2_1_1_2_0_0]; rfl
theorem rhs_pv_1 (j : S2x4096x512.Idx) (k : Dpv.contr.Idx) : (Dpv.rhsIdx j k 1 : ℕ) = k ⟨0, by decide⟩ := by
  simp [DotDims.rhsIdx, Dpv, dot_S2x4096x4096_S2x4096x512_S2x4096x512_2_1_1_2_0_0]; rfl
theorem rhs_pv_2 (j : S2x4096x512.Idx) (k : Dpv.contr.Idx) : (Dpv.rhsIdx j k 2 : ℕ) = j 2 := by
  simp [DotDims.rhsIdx, Dpv, dot_S2x4096x4096_S2x4096x512_S2x4096x512_2_1_1_2_0_0]; rfl

/-- The weighted values at (b, i, c): the sum over the positions. -/
theorem pv_apply (att : FVec Ideal S2x4096x4096 .f32) (v : FVec Ideal S2x4096x512 .f32) (b : Fin 2) (i : Fin 4096) (c : Fin 512) :
    Host.dotGeneral (F := Ideal) Dpv none att v (ix3 b i c) = ∑ j : Fin 4096, att (ix3 b i j) * v (ix3 b j c) := by
  refine (Ideal.dotGeneral_apply Dpv none .single att v (ix3 b i c)).trans ?_
  rw [← Equiv.sum_comp (contrEquiv1 Dpv 4096 rfl rfl).symm]
  refine Finset.sum_congr rfl fun j _ => ?_
  have hk := contrEquiv1_symm_val Dpv 4096 rfl rfl j
  refine congrArg₂ (· * ·) (congrArg att ?_) (congrArg v ?_)
  · funext a; refine Fin.ext ?_
    match a with
    | ⟨0, _⟩ => exact lhs_pv_0 _ _
    | ⟨1, _⟩ => exact lhs_pv_1 _ _
    | ⟨2, _⟩ => exact (lhs_pv_2 _ _).trans hk
  · funext a; refine Fin.ext ?_
    match a with
    | ⟨0, _⟩ => exact rhs_pv_0 _ _
    | ⟨1, _⟩ => exact (rhs_pv_1 _ _).trans hk
    | ⟨2, _⟩ => exact rhs_pv_2 _ _

/-- The array by flat position read at the pixel (h, w) is its entry at the flat position of that pixel. -/
theorem unflat_apply (A : FVec Ideal S2x4096x512 .f32) (b : Fin 2) (h w : Fin 64) (c : Fin 512) :
    shapeCast S2x64x64x512 A shapeCasts_S2x4096x512_S2x64x64x512 (ix4 b h w c) = A (ix3 b (flat h w) c) := by
  refine shapeCast_apply A _ (ix4 b h w c) (ix3 b (flat h w) c) ?_
  rw [Shape.rowMajor_val_three, Shape.rowMajor_val_four]
  show ((b.val * 4096 + (h.val * 64 + w.val)) * 512 + c.val) = (((b.val * 64 + h.val) * 64 + w.val) * 512 + c.val)
  omega

/-! ### The output projection: contraction of the channel with the weights' rows -/

abbrev Dpr := dot_S2x64x64x512_S512x512_S2x64x64x512_3_0_012_1_n_n

theorem lhs_pr_0 (j : S2x64x64x512.Idx) (k : Dpr.contr.Idx) : (Dpr.lhsIdx j k 0 : ℕ) = j 0 := by
  simp [DotDims.lhsIdx, Dpr, dot_S2x64x64x512_S512x512_S2x64x64x512_3_0_012_1_n_n]; rfl
theorem lhs_pr_1 (j : S2x64x64x512.Idx) (k : Dpr.contr.Idx) : (Dpr.lhsIdx j k 1 : ℕ) = j 1 := by
  simp [DotDims.lhsIdx, Dpr, dot_S2x64x64x512_S512x512_S2x64x64x512_3_0_012_1_n_n]; rfl
theorem lhs_pr_2 (j : S2x64x64x512.Idx) (k : Dpr.contr.Idx) : (Dpr.lhsIdx j k 2 : ℕ) = j 2 := by
  simp [DotDims.lhsIdx, Dpr, dot_S2x64x64x512_S512x512_S2x64x64x512_3_0_012_1_n_n]; rfl
theorem lhs_pr_3 (j : S2x64x64x512.Idx) (k : Dpr.contr.Idx) : (Dpr.lhsIdx j k 3 : ℕ) = k ⟨0, by decide⟩ := by
  simp [DotDims.lhsIdx, Dpr, dot_S2x64x64x512_S512x512_S2x64x64x512_3_0_012_1_n_n]; rfl
theorem rhs_pr_0 (j : S2x64x64x512.Idx) (k : Dpr.contr.Idx) : (Dpr.rhsIdx j k 0 : ℕ) = k ⟨0, by decide⟩ := by
  simp [DotDims.rhsIdx, Dpr, dot_S2x64x64x512_S512x512_S2x64x64x512_3_0_012_1_n_n]; rfl
theorem rhs_pr_1 (j : S2x64x64x512.Idx) (k : Dpr.contr.Idx) : (Dpr.rhsIdx j k 1 : ℕ) = j 3 := by
  simp [DotDims.rhsIdx, Dpr, dot_S2x64x64x512_S512x512_S2x64x64x512_3_0_012_1_n_n]; rfl

/-- The projection at (b, h, w, o): the sum over the channel. -/
theorem pr_apply (A : FVec Ideal S2x64x64x512 .f32) (W : FVec Ideal S512x512 .f32) (b : Fin 2) (h w : Fin 64) (o : Fin 512) :
    Host.dotGeneral (F := Ideal) Dpr none A W (ix4 b h w o) = ∑ c : Fin 512, A (ix4 b h w c) * W (ix2 c o) := by
  refine (Ideal.dotGeneral_apply Dpr none .single A W (ix4 b h w o)).trans ?_
  rw [← Equiv.sum_comp (contrEquiv1 Dpr 512 rfl rfl).symm]
  refine Finset.sum_congr rfl fun c _ => ?_
  have hk := contrEquiv1_symm_val Dpr 512 rfl rfl c
  refine congrArg₂ (· * ·) (congrArg A ?_) (congrArg W ?_)
  · funext a; refine Fin.ext ?_
    match a with
    | ⟨0, _⟩ => exact lhs_pr_0 _ _
    | ⟨1, _⟩ => exact lhs_pr_1 _ _
    | ⟨2, _⟩ => exact lhs_pr_2 _ _
    | ⟨3, _⟩ => exact (lhs_pr_3 _ _).trans hk
  · funext a; refine Fin.ext ?_
    match a with
    | ⟨0, _⟩ => exact (rhs_pr_0 _ _).trans hk
    | ⟨1, _⟩ => exact rhs_pr_1 _ _

/-- A per-channel vector spread over batch and pixels reads the channel's entry. -/
theorem bcast_chan_apply (β : FVec Ideal S512 .f32) (b : Fin 2) (h w : Fin 64) (o : Fin 512) :
    broadcastInDim S2x64x64x512 ![0, 1, 2, 3] bcast_S1x1x1x512_S2x64x64x512_0_1_2_3
      (broadcastInDim S1x1x1x512 ![3] bcast_S512_S1x1x1x512_3 β) (ix4 b h w o) = β (ix1 o) := by
  refine (broadcastInDim_apply _ _ _ (ix4 b h w o) (ix4 (0 : Fin 1) (0 : Fin 1) (0 : Fin 1) o) ?_).trans ?_
  · intro a
    match a with
    | ⟨0, _⟩ => rfl
    | ⟨1, _⟩ => rfl
    | ⟨2, _⟩ => rfl
    | ⟨3, _⟩ => rfl
  · refine broadcastInDim_apply _ _ _ (ix4 (0 : Fin 1) (0 : Fin 1) (0 : Fin 1) o) (ix1 o) ?_
    intro a
    match a with
    | ⟨0, _⟩ => rfl

/-! ### The stage as a whole -/

/-- The scaled scores as a function of their coordinates. -/
theorem arr3_rsc (q k : FVec Ideal S2x4096x512 .f32) :
    arr3 (rsc q k) = scOfS (act3 q) (act3 k) (Ideal.ofBits .f32 0x3D3504F3#32) :=
  funext fun b => funext fun i => funext fun j => rsc_apply q k b i j

/-- The block's result at the pixel (h, w) of batch b and channel o is the block over flat positions at the pixel's flat position. -/
theorem rattn_apply (q k v : FVec Ideal S2x4096x512 .f32) (X : FVec Ideal S2x64x64x512 .f32) (Wp : FVec Ideal S512x512 .f32)
    (bp : FVec Ideal S512 .f32) (b : Fin 2) (h w : Fin 64) (o : Fin 512) :
    rattn q k v X Wp bp (ix4 b h w o)
      = outPof (act3 q) (act3 k) (act3 v) (xOf X) (mat2 Wp) (vec1 bp) (Ideal.ofBits .f32 0x3D3504F3#32) b (flat h w) o := by
  unfold rattn
  refine (addf_apply _ _ _).trans ?_
  refine congrArg₂ (· + ·) ((addf_apply _ _ _).trans (congrArg₂ (· + ·) ?_ (bcast_chan_apply bp b h w o))) ?_
  · refine (pr_apply _ Wp b h w o).trans ?_
    refine Finset.sum_congr rfl fun c _ => congrArg (· * Wp (ix2 c o)) ?_
    refine (unflat_apply _ b h w c).trans ?_
    refine (pv_apply _ v b (flat h w) c).trans ?_
    unfold aPof
    refine Finset.sum_congr rfl fun j _ => congrArg (· * v (ix3 b j c)) ?_
    refine (ratt_apply (rsc q k) b (flat h w) j).trans ?_
    rw [arr3_rsc]
  · show X (ix4 b h w o) = X (ix4 b (hi (flat h w)) (lo (flat h w)) o)
    rw [hi_flat, lo_flat]

end Cert.ReferenceIdeal.Hand

end
-- ==== Proof.RefValue.lean ====
/-
  The plain block's result read at a pixel and channel: the reference's whole-array term is the specification's plain
  spelling at the group statistics of the image. The queries, keys and values are the three channel projections of the
  normalised image, laid out by flat position; the pixel (h, w) is the position 64 h + w.
-/
import proofs.«420147_j24412594110471_3_alg».proof.Proof.RefReadProj
import proofs.«420147_j24412594110471_3_alg».proof.Proof.RefReadAttn

noncomputable section

namespace Cert.ReferenceIdeal.Hand

open Cert.ReferenceIdeal Cert.ReferenceIdeal.Gen Idealize.ShloMosaic Idealize.ShloMosaic.ValueIdx Attn

/-- A projection of the normalised image, as a function of batch, position and channel, is the specification's. -/
theorem act3_rproj_rh (X : FVec Ideal S2x64x64x512 .f32) (γ β : FVec Ideal S512 .f32) (W : FVec Ideal S512x512 .f32)
    (bias : FVec Ideal S512 .f32) :
    act3 (rproj (rh X γ β) W bias)
      = lin (hP (xOf X) (grp2 (Cert.KernelIdeal.Hand.meanArr X)) (grp2 (Cert.KernelIdeal.Hand.rstdArr X)) (vec1 γ) (vec1 β))
          (mat2 W) (vec1 bias) := by
  funext b p o
  exact rproj_rh X γ β W bias b p o

/-- The reference's result at a pixel and channel is the plain spelling of the block. -/
theorem rout_apply (X : FVec Ideal S2x64x64x512 .f32) (γ β : FVec Ideal S512 .f32) (Wq : FVec Ideal S512x512 .f32) (bq : FVec Ideal S512 .f32) (Wk : FVec Ideal S512x512 .f32) (bk : FVec Ideal S512 .f32) (Wv : FVec Ideal S512x512 .f32) (bv : FVec Ideal S512 .f32) (Wp : FVec Ideal S512x512 .f32) (bp : FVec Ideal S512 .f32) (b : Fin 2) (h w : Fin 64) (o : Fin 512) :
    rout X γ β Wq bq Wk bk Wv bv Wp bp (ix4 b h w o)
      = outP (xOf X) (grp2 (Cert.KernelIdeal.Hand.meanArr X)) (grp2 (Cert.KernelIdeal.Hand.rstdArr X)) (vec1 γ) (vec1 β) (mat2 Wq) (mat2 Wk) (mat2 Wv) (mat2 Wp) (vec1 bq) (vec1 bk) (vec1 bv) (vec1 bp) (Ideal.ofBits .f32 0x3D3504F3#32) b (flat h w) o := by
  unfold rout
  rw [rattn_apply, Attn.outP_eq_outPof, act3_rproj_rh, act3_rproj_rh, act3_rproj_rh]

end Cert.ReferenceIdeal.Hand

end
-- ==== Proof.StatsReal.lean ====
/-
  The group statistics of a real image are real: every entry of the group mean and of the group reciprocal standard
  deviation is a real number when every entry of the image is.  A sum of reals from zero is real; the divisor 65536 is a
  nonzero real; the sum of centred squares is a nonnegative real, so the variance is one; epsilon is a positive real, so
  variance plus epsilon is a positive real and its reciprocal square root is a real.
-/
import proofs.«420147_j24412594110471_3_alg».proof.Proof.StatsTerm
import proofs.«420147_j24412594110471_3_alg».proof.Proof.AttnSpec
import Idealize.ShloMosaic.Lib.IdealHost

noncomputable section

namespace Cert.KernelIdeal.Hand

open Cert.KernelIdeal Cert.KernelIdeal.Gen Idealize.ShloMosaic Attn

/-- The pattern 0x47800000 denotes 65536. -/
theorem ofBits_65536 : Ideal.ofBits .f32 0x47800000#32 = ((65536 : ℝ) : EReal) := by
  simp [Ideal.ofBits, Ideal.ieee, -EReal.coe_mul]; norm_num

/-- The pattern 0x358637BD denotes the positive dyadic 8796093 / 2^43. -/
theorem ofBits_eps : Ideal.ofBits .f32 0x358637BD#32 = ((8796093 * (2 : ℝ) ^ (-43 : ℤ) : ℝ) : EReal) := by
  simp [Ideal.ofBits, Ideal.ieee, -EReal.coe_mul]

/-- A broadcast re-indexes: its entries are entries of the operand. -/
theorem real_broadcast {s t : Shape} {dims : Fin s.rank → Fin t.rank} (h : s.BroadcastsInDim t dims)
    {x : s.Idx → EReal} (hx : ∀ i, IsReal (x i)) (j : t.Idx) : IsReal (broadcastInDim t dims h x j) := hx _

/-- A reshape re-indexes: its entries are entries of the operand. -/
theorem real_shapeCast {s t : Shape} (h : s.ShapeCasts t) {x : s.Idx → EReal} (hx : ∀ i, IsReal (x i)) (j : t.Idx) :
    IsReal (shapeCast t x h j) := hx _

/-- A sum of reals from zero is real. -/
theorem hostReduceAdd_real {s t : Shape} {axes : List (Fin s.rank)} (h : s.ReducesTo axes t) (x : s.Idx → EReal)
    (hx : ∀ i, IsReal (x i)) (j : t.Idx) : IsReal (Ideal.hostReduceAdd h x 0 j) := by
  unfold Ideal.hostReduceAdd
  rw [zero_add]
  exact IsReal.sum _ _ hx

/-- A sum of nonnegative reals from zero is a nonnegative real. -/
theorem hostReduceAdd_nonneg {s t : Shape} {axes : List (Fin s.rank)} (h : s.ReducesTo axes t) (x : s.Idx → EReal)
    (hx : ∀ i, ∃ r : ℝ, 0 ≤ r ∧ x i = (r : EReal)) (j : t.Idx) :
    ∃ r : ℝ, 0 ≤ r ∧ Ideal.hostReduceAdd h x 0 j = (r : EReal) := by
  choose g hg0 hg using hx
  refine ⟨∑ i ∈ Finset.univ.filter (fun i => h.drop i = j), g i, Finset.sum_nonneg (fun i _ => hg0 i), ?_⟩
  unfold Ideal.hostReduceAdd
  rw [zero_add]
  simp only [hg, coe_sum]

/-- A real over 65536 is a real. -/
theorem div_65536_real {x : EReal} (hx : IsReal x) : IsReal (Ideal.div x ((65536 : ℝ) : EReal)) := by
  rw [Ideal.div_coe (by norm_num)]
  exact hx.mul ⟨_, rfl⟩

section
variable (X : FVec Ideal S2x64x64x512 .f32) (hX : ∀ i, IsReal (X i))
include hX

theorem x5_real (i : S2x64x64x32x16.Idx) : IsReal (x5 X i) := real_shapeCast _ hX i

theorem sumArr_real (j : S2x32.Idx) : IsReal (sumArr X j) := by
  rw [sumArr, ValueIdx.hostReduceAdd_apply, ValueIdx.constant_apply, Ideal.ofBits_zero_f32]
  exact hostReduceAdd_real _ _ (x5_real X hX) j

/-- The group mean of a real image is real. -/
theorem meanArr_real (j : S2x32.Idx) : IsReal (meanArr X j) := by
  rw [meanArr, ValueIdx.hostDivf_apply, ValueIdx.broadcastInDim_scalar_apply, ValueIdx.constant_apply, ofBits_65536]
  exact div_65536_real (sumArr_real X hX j)

theorem cenArr_real (i : S2x64x64x32x16.Idx) : IsReal (cenArr X i) := by
  rw [cenArr, ValueIdx.subf_apply]
  refine (x5_real X hX i).sub (real_broadcast _ (fun k => ?_) i)
  rw [ValueIdx.hostDivf_apply, ValueIdx.broadcastInDim_scalar_apply, ValueIdx.constant_apply, ofBits_65536]
  exact div_65536_real (real_broadcast _ (sumArr_real X hX) k)

theorem ssArr_nonneg (j : S2x32.Idx) : ∃ q : ℝ, 0 ≤ q ∧ ssArr X j = (q : EReal) := by
  rw [ssArr, ValueIdx.hostReduceAdd_apply, ValueIdx.constant_apply, Ideal.ofBits_zero_f32]
  refine hostReduceAdd_nonneg _ _ (fun i => ?_) j
  obtain ⟨c, hc⟩ := cenArr_real X hX i
  exact ⟨c * c, mul_self_nonneg c, by rw [ValueIdx.mulf_apply, hc, EReal.coe_mul]⟩

omit hX in
/-- The variance's divisor is 65536. -/
theorem nEff_eq (i : S_.Idx) : nEff i = ((65536 : ℝ) : EReal) := by
  have h0 : (0#32 : BitVec 32).toInt = 0 := by decide
  rw [nEff, ValueIdx.subf_apply, ValueIdx.constant_apply, ofBits_65536]
  show ((65536 : ℝ) : EReal) - (((0#32 : BitVec 32).toInt : ℝ) : EReal) = _
  rw [h0, Int.cast_zero, EReal.coe_zero, sub_zero]

omit hX in
/-- The divisor is positive, so the guard is true. -/
theorem cmp_nEff (i : S_.Idx) :
    cmpf (F := Ideal) .ogt nEff (constant (F := Ideal) S_ .f32 0x00000000#32) i = 1#1 := by
  rw [ValueIdx.cmpf_apply, nEff_eq, ValueIdx.constant_apply, Ideal.ofBits_zero_f32]
  show Ideal.cmp .ogt _ _ = 1#1
  have h : (0 : EReal) < ((65536 : ℝ) : EReal) := EReal.coe_pos.mpr (by norm_num)
  simp [Ideal.cmp, h]

/-- The variance of a real image is a nonnegative real. -/
theorem varArr_nonneg (j : S2x32.Idx) : ∃ v : ℝ, 0 ≤ v ∧ varArr X j = (v : EReal) := by
  obtain ⟨q, hq0, hq⟩ := ssArr_nonneg X hX j
  refine ⟨q * (1 / 65536), mul_nonneg hq0 (by norm_num), ?_⟩
  rw [varArr, ValueIdx.select_apply, ValueIdx.broadcastInDim_scalar_apply, cmp_nEff, ValueIdx.select_one, ValueIdx.hostDivf_apply, ValueIdx.broadcastInDim_scalar_apply, nEff_eq,
    Ideal.div_coe (by norm_num), hq, EReal.coe_mul]

/-- The reciprocal standard deviation of a real image is real. -/
theorem rstdArr_real (j : S2x32.Idx) : IsReal (rstdArr X j) := by
  obtain ⟨v, hv0, hv⟩ := varArr_nonneg X hX j
  have ht : 0 < v + 8796093 * (2 : ℝ) ^ (-43 : ℤ) := add_pos_of_nonneg_of_pos hv0 (by positivity)
  refine ⟨(Real.sqrt (v + 8796093 * (2 : ℝ) ^ (-43 : ℤ)))⁻¹, ?_⟩
  show Ideal.rsqrt (varArr X j
    + broadcastInDim S2x32 ![] bcast_S_S2x32 (constant (F := Ideal) S_ .f32 0x358637BD#32) j) = _
  rw [ValueIdx.broadcastInDim_scalar_apply, ValueIdx.constant_apply, ofBits_eps, hv, ← EReal.coe_add,
    Ideal.rsqrt_coe, if_neg (not_lt.mpr ht.le), if_neg ht.ne']

end

end Cert.KernelIdeal.Hand

end
-- ==== Proof.PreReal.lean ====
/-
  The precondition read back: the printed predicate says of each of the eleven argument arrays that the absolute value
  of every entry is below plus infinity, and takes the conjunction; where it is all ones, every entry of every argument
  is a real number.  An extended real whose absolute value max (x, -x) is below plus infinity is neither infinity.
-/
import proofs.«420147_j24412594110471_3_alg».proof.Proof.Gen.Pre_finite_inputs
import proofs.«420147_j24412594110471_3_alg».proof.Proof.AttnSpec
import Idealize.ShloMosaic.Lib.ReduceAll
import Idealize.ShloMosaic.Lib.IdealHost

noncomputable section

namespace Cert.KernelIdeal.Hand

open Cert.Pre_finite_inputs Idealize.ShloMosaic Attn

/-- The pattern 0x7F800000 denotes plus infinity. -/
theorem ofBits_inf : Ideal.ofBits .f32 0x7F800000#32 = ⊤ := by
  simp [Ideal.ofBits, Ideal.ieee]

instance : Subsingleton Cert.Pre_finite_inputs.S_.Idx := ⟨fun a b => funext fun d => d.elim0⟩

/-- A truth value whose one-bit word is one is true. -/
theorem ofBool_one {b : Bool} (h : BitVec.ofBool b = 1#1) : b = true := by
  cases b
  · exact absurd h (by decide)
  · rfl

/-- An extended real whose absolute value is below plus infinity is a real. -/
theorem real_of_abs_lt_top {x : EReal} (h : max x (-x) < ⊤) : IsReal x := by
  induction x using EReal.rec with
  | bot => simp at h
  | coe r => exact ⟨r, rfl⟩
  | top => simp at h

/-- An entry whose finiteness test is one is a real. -/
theorem real_of_test {S : Shape} (hb : Cert.Pre_finite_inputs.S_.BroadcastsInDim S ![]) (a : FVec Ideal S .f32) (i : S.Idx)
    (e : cmpf .olt (Host.absf a)
      (broadcastInDim S ![] hb (constant (F := Ideal) Cert.Pre_finite_inputs.S_ .f32 0x7F800000#32)) i = 1#1) :
    IsReal (a i) := by
  have e' : Ideal.cmp .olt (max (a i) (-(a i)))
      (broadcastInDim S ![] hb (constant (F := Ideal) Cert.Pre_finite_inputs.S_ .f32 0x7F800000#32) i) = 1#1 := e
  rw [ValueIdx.broadcastInDim_scalar_apply, ValueIdx.constant_apply, ofBits_inf] at e'
  have e'' : BitVec.ofBool (decide (max (a i) (-(a i)) < ⊤)) = 1#1 := e'
  exact real_of_abs_lt_top (of_decide_eq_true (ofBool_one e''))

/-- An array whose finiteness tests all hold has real entries. -/
theorem real_of_all {S : Shape} {axes : List (Fin S.rank)} (hr : S.ReducesTo axes Cert.Pre_finite_inputs.S_)
    (hb : Cert.Pre_finite_inputs.S_.BroadcastsInDim S ![]) (hu : 0 < Cert.Pre_finite_inputs.S_.numel)
    (a : FVec Ideal S .f32) (init : IVec Cert.Pre_finite_inputs.S_ 1) (j : Cert.Pre_finite_inputs.S_.Idx)
    (e : Host.reduce IntOp.andi (cmpf .olt (Host.absf a)
      (broadcastInDim S ![] hb (constant (F := Ideal) Cert.Pre_finite_inputs.S_ .f32 0x7F800000#32))) init hr hu j = 1#1)
    (i : S.Idx) : IsReal (a i) :=
  real_of_test hb a i (Host.reduce_andi_all _ init hr hu j e i)

/-- Where the precondition is all ones, every entry of every argument array is a real number. -/
theorem pre_real (a0 : FVec Ideal S2x64x64x512 .f32) (a1 a2 : FVec Ideal S512 .f32) (a3 : FVec Ideal S512x512 .f32)
    (a4 : FVec Ideal S512 .f32) (a5 : FVec Ideal S512x512 .f32) (a6 : FVec Ideal S512 .f32)
    (a7 : FVec Ideal S512x512 .f32) (a8 : FVec Ideal S512 .f32) (a9 : FVec Ideal S512x512 .f32)
    (a10 : FVec Ideal S512 .f32)
    (h : Cert.Pre_finite_inputs.fn (F := Ideal) a0 a1 a2 a3 a4 a5 a6 a7 a8 a9 a10 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) := by
  have e := congrFun h ValueIdx.ix0
  dsimp only [fn, fn_part1, fn_part2, fn_part3, andi] at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ a0 _ _ e0, real_of_all _ _ _ a1 _ _ e1, real_of_all _ _ _ a2 _ _ e2,
    real_of_all _ _ _ a3 _ _ e3, real_of_all _ _ _ a4 _ _ e4, real_of_all _ _ _ a5 _ _ e5,
    real_of_all _ _ _ a6 _ _ e6, real_of_all _ _ _ a7 _ _ e7, real_of_all _ _ _ a8 _ _ e8,
    real_of_all _ _ _ a9 _ _ e9, real_of_all _ _ _ a10 _ _ e10⟩

end Cert.KernelIdeal.Hand

end
-- ==== Proof.SpecOfPre.lean ====
/-
  The two spellings of the attention block agree on the program's own arguments: the precondition makes every entry of
  the eleven argument arrays a real number, the group mean and reciprocal standard deviation of a real image are real,
  and the softmax scale is a positive dyadic; on real inputs the two spellings are one function.
-/
import proofs.«420147_j24412594110471_3_alg».proof.Proof.StatsReal
import proofs.«420147_j24412594110471_3_alg».proof.Proof.PreReal
import proofs.«420147_j24412594110471_3_alg».proof.Proof.AttnIdx

noncomputable section

namespace Cert.KernelIdeal.Hand

open Cert.Pre_finite_inputs Idealize.ShloMosaic Attn

/-- The pattern 0x3D3504F3 denotes the positive dyadic 11863283 / 2^28. -/
theorem ofBits_scale : Ideal.ofBits .f32 0x3D3504F3#32 = ((11863283 * (2 : ℝ) ^ (-28 : ℤ) : ℝ) : EReal) := by
  simp [Ideal.ofBits, Ideal.ieee, -EReal.coe_mul]

/-- Under the precondition the fused and the plain spelling of the block agree at the program's arguments. -/
theorem spec_of_pre (a0 : FVec Ideal S2x64x64x512 .f32) (a1 a2 : FVec Ideal S512 .f32) (a3 : FVec Ideal S512x512 .f32)
    (a4 : FVec Ideal S512 .f32) (a5 : FVec Ideal S512x512 .f32) (a6 : FVec Ideal S512 .f32)
    (a7 : FVec Ideal S512x512 .f32) (a8 : FVec Ideal S512 .f32) (a9 : FVec Ideal S512x512 .f32)
    (a10 : FVec Ideal S512 .f32)
    (h : Cert.Pre_finite_inputs.fn (F := Ideal) a0 a1 a2 a3 a4 a5 a6 a7 a8 a9 a10 = (fun _ => 1#1))
    (b : Fin 2) (p : Fin 4096) (o : Fin 512) :
    Attn.outF (xOf a0) (grp2 (meanArr a0)) (grp2 (rstdArr a0)) (vec1 a1) (vec1 a2) (mat2 a3) (mat2 a5) (mat2 a7) (mat2 a9)
        (vec1 a4) (vec1 a6) (vec1 a8) (vec1 a10) (Ideal.ofBits .f32 0x3D3504F3#32) b p o
      = Attn.outP (xOf a0) (grp2 (meanArr a0)) (grp2 (rstdArr a0)) (vec1 a1) (vec1 a2) (mat2 a3) (mat2 a5) (mat2 a7) (mat2 a9)
        (vec1 a4) (vec1 a6) (vec1 a8) (vec1 a10) (Ideal.ofBits .f32 0x3D3504F3#32) b p o := by
  obtain ⟨h0, h1, h2, h3, h4, h5, h6, h7, h8, h9, h10⟩ := pre_real a0 a1 a2 a3 a4 a5 a6 a7 a8 a9 a10 h
  exact Attn.out_eq _ _ _ _ _ _ _ _ _ _ _ _ _ _
    (fun b p c => h0 _) (fun b g => meanArr_real a0 h0 _) (fun b g => rstdArr_real a0 h0 _)
    (fun c => h1 _) (fun c => h2 _)
    (fun c o => h3 _) (fun c o => h5 _) (fun c o => h7 _) (fun c o => h9 _)
    (fun o => h4 _) (fun o => h6 _) (fun o => h8 _) (fun o => h10 _)
    ⟨_, ofBits_scale⟩ b p o

end Cert.KernelIdeal.Hand

end
-- ==== Proof.lean ====
/-
  An attention block on a 64 x 64 image of 512 channels: group normalisation (32 groups), query / key / value projections,
  softmax attention over the 4096 positions, an output projection and the residual. Two programs compute it.

  The fused program makes the normalisation a per-channel multiplier and offset, h = x * (rstd * gamma) + (beta - mean * rstd * gamma),
  folds the softmax scale s (the single-precision value nearest 1 / sqrt 512, the same constant in both programs) into the
  query weights and bias, projects with one concatenated 512 x 1536 weight in a first kernel region, and in a second region
  takes each tile of 256 queries against all keys and values, normalising after the value product: (sum_j p_j v_j) * (1 / l).
  The plain program is host code: h = ((x - mean) * rstd) * gamma + beta, scores scaled by s after the query-key product,
  softmax weights p_j / l formed before the value product.

  At the exact extended reals the two results are one function of the arguments when every input entry is finite: the
  statistics are real (a variance is a nonnegative real, so variance + epsilon is positive and its reciprocal root is real),
  and then distributivity, which the extended reals have only away from the infinities, joins the two spellings
  (AttnSpec.lean, out_eq). The rest is reading: each program's run gives its result buffer as a term of the argument arrays,
  and each term is read at a pixel as one of the two spellings at the flat position.

  The three frames: each kernel region's body is run on its staging buffers at a symbolic grid point, the launch theorem for
  programs of several regions threads the buffers' contents through the host stretches and the regions, and no stretch or
  region writes an argument; the plain program is a straight line of host operations. The idealised program is the word-level
  one read at another float instance (no rewrite was applied), so that conjunct is trivial.
-/
import proofs.«420147_j24412594110471_3_alg».proof.Defs
import proofs.«420147_j24412594110471_3_alg».proof.Proof.Gen.Kernel
import proofs.«420147_j24412594110471_3_alg».proof.Proof.Gen.KernelIdeal
import proofs.«420147_j24412594110471_3_alg».proof.Proof.Gen.ReferenceIdeal
import proofs.«420147_j24412594110471_3_alg».proof.Proof.Gen.Pre_finite_inputs
import proofs.«420147_j24412594110471_3_alg».proof.Proof.KRun
import proofs.«420147_j24412594110471_3_alg».proof.Proof.KIValue
import proofs.«420147_j24412594110471_3_alg».proof.Proof.RefRun
import proofs.«420147_j24412594110471_3_alg».proof.Proof.RefValue
import proofs.«420147_j24412594110471_3_alg».proof.Proof.SpecOfPre

set_option maxRecDepth 16384

noncomputable section

namespace Cert.Proof

open Idealize.ShloMosaic Idealize.ShloMosaic.TcCoe Idealize.SL.Sem Idealize.ShloMosaic.ValueIdx Attn
open Cert.KernelIdeal (S2x64x64x512 S512 S512x512)

/-- The bridge, over the arrays alone: if the arrays A have finite entries, the arrays B are equal to them, and a
    function K is, at every pixel, the fused spelling of the block at A, then the plain program's result term at B is K. -/
theorem core (A0 : FVec Ideal S2x64x64x512 .f32) (A1 A2 : FVec Ideal S512 .f32) (A3 : FVec Ideal S512x512 .f32)
    (A4 : FVec Ideal S512 .f32) (A5 : FVec Ideal S512x512 .f32) (A6 : FVec Ideal S512 .f32) (A7 : FVec Ideal S512x512 .f32)
    (A8 : FVec Ideal S512 .f32) (A9 : FVec Ideal S512x512 .f32) (A10 : FVec Ideal S512 .f32)
    (B0 : FVec Ideal S2x64x64x512 .f32) (B1 B2 : FVec Ideal S512 .f32) (B3 : FVec Ideal S512x512 .f32)
    (B4 : FVec Ideal S512 .f32) (B5 : FVec Ideal S512x512 .f32) (B6 : FVec Ideal S512 .f32) (B7 : FVec Ideal S512x512 .f32)
    (B8 : FVec Ideal S512 .f32) (B9 : FVec Ideal S512x512 .f32) (B10 : FVec Ideal S512 .f32)
    (hpre : Cert.Pre_finite_inputs.fn (F := Ideal) A0 A1 A2 A3 A4 A5 A6 A7 A8 A9 A10 = (fun _ => 1#1))
    (e0 : B0 = A0) (e1 : B1 = A1) (e2 : B2 = A2) (e3 : B3 = A3) (e4 : B4 = A4) (e5 : B5 = A5) (e6 : B6 = A6) (e7 : B7 = A7)
    (e8 : B8 = A8) (e9 : B9 = A9) (e10 : B10 = A10)
    (K : S2x64x64x512.Idx → EReal)
    (hK : ∀ (b : Fin 2) (h w : Fin 64) (o : Fin 512), K (ix4 b h w o)
      = Attn.outF (xOf A0) (grp2 (Cert.KernelIdeal.Hand.meanArr A0)) (grp2 (Cert.KernelIdeal.Hand.rstdArr A0)) (vec1 A1) (vec1 A2)
          (mat2 A3) (mat2 A5) (mat2 A7) (mat2 A9) (vec1 A4) (vec1 A6) (vec1 A8) (vec1 A10) (Ideal.ofBits .f32 0x3D3504F3#32) b (flat h w) o) :
    Cert.ReferenceIdeal.Hand.rout B0 B1 B2 B3 B4 B5 B6 B7 B8 B9 B10 = K := by
  subst e0 e1 e2 e3 e4 e5 e6 e7 e8 e9 e10
  funext j
  obtain ⟨b, hh, w, o, rfl⟩ : ∃ (b : Fin 2) (hh w : Fin 64) (o : Fin 512), j = ix4 b hh w o := ⟨j 0, j 1, j 2, j 3, eq_ix4 j⟩
  rw [hK]
  exact (Cert.ReferenceIdeal.Hand.rout_apply _ _ _ _ _ _ _ _ _ _ _ b hh w o).trans
    (Cert.KernelIdeal.Hand.spec_of_pre _ _ _ _ _ _ _ _ _ _ _ hpre b (flat hh w) o).symm

end Cert.Proof

namespace Cert.Proof

open Idealize.ShloMosaic Idealize.ShloMosaic.TcCoe Idealize.SL.Sem Idealize.ShloMosaic.ValueIdx Attn

/-- The word-level program runs and leaves its arguments as launched: its run with the result's value dropped. -/
theorem frame_k : Cert.frame_Kernel (hKernel := Cert.Kernel.Gen.facts) (hPre_finite_inputs := Cert.Pre_finite_inputs.Gen.facts) :=
  fun m g _ => (θ_run _ _ _).mono (fun r h c => (h c).2) (Cert.Kernel.Hand.run_all (F := Bits) m g)

/-- The same of the program read at the exact extended reals. -/
theorem frame_ki : Cert.frame_KernelIdeal (hKernelIdeal := Cert.KernelIdeal.Gen.facts) (hPre_finite_inputs := Cert.Pre_finite_inputs.Gen.facts) :=
  fun m g _ => (θ_run _ _ _).mono (fun r h c => (h c).2) (Cert.KernelIdeal.Hand.run_all (F := Ideal) m g)

/-- The plain program is straight-line host code: it runs, and no operation writes an argument. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun r h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _),
     (h c Cert.ReferenceIdeal.main_arg8).trans (Cert.ReferenceIdeal.Hand.arg8_eq _),
     (h c Cert.ReferenceIdeal.main_arg9).trans (Cert.ReferenceIdeal.Hand.arg9_eq _),
     (h c Cert.ReferenceIdeal.main_arg10).trans (Cert.ReferenceIdeal.Hand.arg10_eq _)⟩)
    (Cert.ReferenceIdeal.Hand.run_main m g)

set_option maxHeartbeats 4000000 in
/-- From memories that agree on the arguments, of finite entries, both programs run; the fused one ends with its result
    at the fused spelling of the block, the plain one at the plain spelling, of the same arrays; on real inputs those are
    one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W6 (F := Ideal) m g c (Proc.devRef .tc Cert.KernelIdeal.main_v37),
    Cert.KernelIdeal.Hand.run_all (F := Ideal) m g, ?_⟩
  refine (θ_run Cert.ReferenceIdeal.defs _ _).mono (fun r h c =>
    ⟨?_, (h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _),
     (h c Cert.ReferenceIdeal.main_arg8).trans (Cert.ReferenceIdeal.Hand.arg8_eq _),
     (h c Cert.ReferenceIdeal.main_arg9).trans (Cert.ReferenceIdeal.Hand.arg9_eq _),
     (h c Cert.ReferenceIdeal.main_arg10).trans (Cert.ReferenceIdeal.Hand.arg10_eq _)⟩)
    (Cert.ReferenceIdeal.Hand.run_main (F := Ideal) m' g')
  obtain ⟨a0, a1, a2, a3, a4, a5, a6, a7, a8, a9, a10⟩ := hagree c
  exact (h c Cert.ReferenceIdeal.main_v55).trans ((Cert.ReferenceIdeal.Hand.out_eq _).trans
    (core _ _ _ _ _ _ _ _ _ _ _ _ _ _ _ _ _ _ _ _ _ _ (hpre c) a0 a1 a2 a3 a4 a5 a6 a7 a8 a9 a10 _
      (fun b hh w o => Cert.KernelIdeal.Hand.kernel_value m g c b hh w o)))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
